-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x65536x3 : Shape := ⟨3, ![32, 65536, 3]⟩
abbrev S32x65536x4 : Shape := ⟨3, ![32, 65536, 4]⟩
abbrev S_ : Shape := ⟨0, ![]⟩

class Facts : Prop where
  bcast_S_S32x65536x3 : S_.BroadcastsInDim S32x65536x3 (![] : Fin 0 → Fin S32x65536x3.rank)
  reducesTo_S32x65536x3_S_d0_1_2 : S32x65536x3.ReducesTo [0, 1, 2] S_
  h_S_ : 0 < S_.numel
  bcast_S_S32x65536x4 : S_.BroadcastsInDim S32x65536x4 (![] : Fin 0 → Fin S32x65536x4.rank)
  reducesTo_S32x65536x4_S_d0_1_2 : S32x65536x4.ReducesTo [0, 1, 2] S_

variable [Facts]

def fn {F : FTy → Type} [FloatOps F] (main_arg0 : FVec F S32x65536x3 .f32) (main_arg1 : FVec F S32x65536x4 .f32) : IVec S_ 1 :=
  let main_v0 : FVec F S32x65536x3 .f32 := Host.absf main_arg0
  let main_cst : FVec F S_ .f32 := constant S_ .f32 0x7F800000#32
  let main_v1 : FVec F S32x65536x3 .f32 := broadcastInDim S32x65536x3 ![] bcast_S_S32x65536x3 main_cst
  let main_v2 : IVec S32x65536x3 1 := cmpf .olt main_v0 main_v1
  let main_c : IVec S_ 1 := constantI S_ 1 1#1
  let main_v3 : IVec S_ 1 := (fun x v => Host.reduce IntOp.andi x v reducesTo_S32x65536x3_S_d0_1_2 h_S_) main_v2 main_c
  let main_v4 : FVec F S32x65536x4 .f32 := Host.absf main_arg1
  let main_cst_0 : FVec F S_ .f32 := constant S_ .f32 0x7F800000#32
  let main_v5 : FVec F S32x65536x4 .f32 := broadcastInDim S32x65536x4 ![] bcast_S_S32x65536x4 main_cst_0
  let main_v6 : IVec S32x65536x4 1 := cmpf .olt main_v4 main_v5
  let main_c_1 : IVec S_ 1 := constantI S_ 1 1#1
  let main_v7 : IVec S_ 1 := (fun x v => Host.reduce IntOp.andi x v reducesTo_S32x65536x4_S_d0_1_2 h_S_) main_v6 main_c_1
  let main_v8 : IVec S_ 1 := andi main_v3 main_v7
  main_v8
-- ==== Kernel.lean ====
abbrev S32x65536x3 : Shape := ⟨3, ![32, 65536, 3]⟩
abbrev S32x65536x4 : Shape := ⟨3, ![32, 65536, 4]⟩
abbrev S32x1x3 : Shape := ⟨3, ![32, 1, 3]⟩
abbrev S32x4096x3 : Shape := ⟨3, ![32, 4096, 3]⟩
abbrev S32x3 : Shape := ⟨2, ![32, 3]⟩
abbrev S32x65536x12 : Shape := ⟨3, ![32, 65536, 12]⟩
abbrev S32x2048x3 : Shape := ⟨3, ![32, 2048, 3]⟩
abbrev S32x2048x4 : Shape := ⟨3, ![32, 2048, 4]⟩
abbrev S32x2048x12 : Shape := ⟨3, ![32, 2048, 12]⟩
abbrev S32x2048x1 : Shape := ⟨3, ![32, 2048, 1]⟩
abbrev S32x2048 : Shape := ⟨2, ![32, 2048]⟩
abbrev S32x65536x4x3 : Shape := ⟨4, ![32, 65536, 4, 3]⟩

abbrev nBuf : Space → Nat
  | .hbm => 5
  | .vmem => 11
  | .smem => 0
  | _ => 0

abbrev bufTy : (tb : Table) → Fin (tcTables nBuf tb) → BufTy
  | .hbm, ⟨0, _⟩ => ⟨S32x65536x3, .f32⟩
  | .hbm, ⟨1, _⟩ => ⟨S32x65536x4, .f32⟩
  | .hbm, ⟨2, _⟩ => ⟨S32x1x3, .f32⟩
  | .hbm, ⟨3, _⟩ => ⟨S32x65536x12, .f32⟩
  | .hbm, ⟨4, _⟩ => ⟨S32x65536x4x3, .f32⟩
  | .local _ .vmem, ⟨0, _⟩ => ⟨S32x4096x3, .f32⟩
  | .local _ .vmem, ⟨1, _⟩ => ⟨S32x4096x3, .f32⟩
  | .local _ .vmem, ⟨2, _⟩ => ⟨S32x1x3, .f32⟩
  | .local _ .vmem, ⟨3, _⟩ => ⟨S32x1x3, .f32⟩
  | .local _ .vmem, ⟨4, _⟩ => ⟨S32x2048x3, .f32⟩
  | .local _ .vmem, ⟨5, _⟩ => ⟨S32x2048x3, .f32⟩
  | .local _ .vmem, ⟨6, _⟩ => ⟨S32x2048x4, .f32⟩
  | .local _ .vmem, ⟨7, _⟩ => ⟨S32x2048x4, .f32⟩
  | .local _ .vmem, ⟨8, _⟩ => ⟨S32x1x3, .f32⟩
  | .local _ .vmem, ⟨9, _⟩ => ⟨S32x2048x12, .f32⟩
  | .local _ .vmem, ⟨10, _⟩ => ⟨S32x2048x12, .f32⟩
  | _, _ => ⟨S32x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2048x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x2048x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S32x1x3_S32x1x3_0_0_0 : ∀ a, (![0, 0, 0] : Fin 3 → Nat) a + S32x1x3.size a ≤ S32x1x3.size a
  h_S32x1x3 : 0 < S32x1x3.numel
  shapeCasts_S32x1x3_S32x1x3 : S32x1x3.ShapeCasts S32x1x3
  inb_S32x4096x3_S32x4096x3_0_0_0 : ∀ a, (![0, 0, 0] : Fin 3 → Nat) a + S32x4096x3.size a ≤ S32x4096x3.size a
  h_S32x4096x3 : 0 < S32x4096x3.numel
  reduces_S32x4096x3_S32x3 : S32x4096x3.Reduces [1] S32x3
  shapeCasts_S32x3_S32x1x3 : S32x3.ShapeCasts S32x1x3
  inb_S32x2048x4_S32x2048x4_0_0_0 : ∀ a, (![0, 0, 0] : Fin 3 → Nat) a + S32x2048x4.size a ≤ S32x2048x4.size a
  h_S32x2048x4 : 0 < S32x2048x4.numel
  slices_S32x2048x4_o0_0_0_S32x2048x1 : S32x2048x4.Slices ![0, 0, 0] S32x2048x1
  shapeCasts_S32x2048x1_S32x2048 : S32x2048x1.ShapeCasts S32x2048
  slices_S32x2048x4_o0_0_1_S32x2048x1 : S32x2048x4.Slices ![0, 0, 1] S32x2048x1
  slices_S32x2048x4_o0_0_2_S32x2048x1 : S32x2048x4.Slices ![0, 0, 2] S32x2048x1
  slices_S32x2048x4_o0_0_3_S32x2048x1 : S32x2048x4.Slices ![0, 0, 3] S32x2048x1
  inb_S32x2048x3_S32x2048x3_0_0_0 : ∀ a, (![0, 0, 0] : Fin 3 → Nat) a + S32x2048x3.size a ≤ S32x2048x3.size a
  h_S32x2048x3 : 0 < S32x2048x3.numel
  broadcasts_S32x1x3_S32x2048x3 : S32x1x3.Broadcasts S32x2048x3
  slices_S32x2048x3_o0_0_0_S32x2048x1 : S32x2048x3.Slices ![0, 0, 0] S32x2048x1
  slices_S32x2048x3_o0_0_1_S32x2048x1 : S32x2048x3.Slices ![0, 0, 1] S32x2048x1
  slices_S32x2048x3_o0_0_2_S32x2048x1 : S32x2048x3.Slices ![0, 0, 2] S32x2048x1
  shapeCasts_S32x2048_S32x2048x1 : S32x2048.ShapeCasts S32x2048x1
  concatenates_S32x2048x1_S32x2048x1_S32x2048x1_S32x2048x1_S32x2048x1_S32x2048x1_S32x2048x1_S32x2048x1_S32x2048x1_S32x2048x1_S32x2048x1_S32x2048x1_S32x2048x12_d2 : Shape.Concatenates [S32x2048x1, S32x2048x1, S32x2048x1, S32x2048x1, S32x2048x1, S32x2048x1, S32x2048x1, S32x2048x1, S32x2048x1, S32x2048x1, S32x2048x1, S32x2048x1] S32x2048x12 2
  inb_S32x2048x12_S32x2048x12_0_0_0 : ∀ a, (![0, 0, 0] : Fin 3 → Nat) a + S32x2048x12.size a ≤ S32x2048x12.size a
  h_S32x2048x12 : 0 < S32x2048x12.numel
  shapeCasts_S32x65536x12_S32x65536x4x3 : S32x65536x12.ShapeCasts S32x65536x4x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096x3.size a ≤ S32x65536x3.size a
  hwx0_0 : ∀ i : grid0.Coords, EltTy.bits .f32 = 32 ∨ (Rect.block (s := S32x65536x3) S32x4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1x3.size a ≤ S32x1x3.size a
  hwx0_1 : ∀ i : grid0.Coords, EltTy.bits .f32 = 32 ∨ (Rect.block (s := S32x1x3) S32x1x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2048x3.size a ≤ S32x65536x3.size a
  hwx1_0 : ∀ i : grid1.Coords, EltTy.bits .f32 = 32 ∨ (Rect.block (s := S32x65536x3) S32x2048x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x2048x4.size a ≤ S32x65536x4.size a
  hwx1_1 : ∀ i : grid1.Coords, EltTy.bits .f32 = 32 ∨ (Rect.block (s := S32x65536x4) S32x2048x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1x3.size a ≤ S32x1x3.size a
  hwx1_2 : ∀ i : grid1.Coords, EltTy.bits .f32 = 32 ∨ (Rect.block (s := S32x1x3) S32x1x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x2048x12.size a ≤ S32x65536x12.size a
  hwx1_3 : ∀ i : grid1.Coords, EltTy.bits .f32 = 32 ∨ (Rect.block (s := S32x65536x12) S32x2048x12.size (cc1_transform_3 i) (hinb1_3 i)).WholeWords (EltTy.packing .f32)

variable [Facts₀]

abbrev win0_0 : Pipeline.Window sig grid0 :=
  Pipeline.Window.ofSpec (Memref.whole main_arg0) S32x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1x3.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S32x2048x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x2048x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x1x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x2048x12.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x65536x3 : Shape := ⟨3, ![32, 65536, 3]⟩
abbrev S32x65536x4 : Shape := ⟨3, ![32, 65536, 4]⟩
abbrev S4x3 : Shape := ⟨2, ![4, 3]⟩
abbrev S_ : Shape := ⟨0, ![]⟩
abbrev S32x3 : Shape := ⟨2, ![32, 3]⟩
abbrev S32x1x3 : Shape := ⟨3, ![32, 1, 3]⟩
abbrev S32x65536 : Shape := ⟨2, ![32, 65536]⟩
abbrev S32x65536x1 : Shape := ⟨3, ![32, 65536, 1]⟩
abbrev S32x65536x1x3 : Shape := ⟨4, ![32, 65536, 1, 3]⟩
abbrev S32x65536x3x3 : Shape := ⟨4, ![32, 65536, 3, 3]⟩
abbrev S4x32x65536x3 : Shape := ⟨4, ![4, 32, 65536, 3]⟩
abbrev S32x65536x4x3 : Shape := ⟨4, ![32, 65536, 4, 3]⟩

abbrev nBuf : Space → Nat
  | .hbm => 113
  | .vmem => 0
  | .smem => 0
  | _ => 0

abbrev bufTy : (tb : Table) → Fin (tcTables nBuf tb) → BufTy
  | .hbm, ⟨0, _⟩ => ⟨S32x65536x3, .f32⟩
  | .hbm, ⟨1, _⟩ => ⟨S32x65536x4, .f32⟩
  | .hbm, ⟨2, _⟩ => ⟨S4x3, .f32⟩
  | .hbm, ⟨3, _⟩ => ⟨S_, .f32⟩
  | .hbm, ⟨4, _⟩ => ⟨S32x3, .f32⟩
  | .hbm, ⟨5, _⟩ => ⟨S32x1x3, .f32⟩
  | .hbm, ⟨6, _⟩ => ⟨S_, .f32⟩
  | .hbm, ⟨7, _⟩ => ⟨S32x1x3, .f32⟩
  | .hbm, ⟨8, _⟩ => ⟨S32x1x3, .f32⟩
  | .hbm, ⟨9, _⟩ => ⟨S32x65536x3, .f32⟩
  | .hbm, ⟨10, _⟩ => ⟨S32x65536x3, .f32⟩
  | .hbm, ⟨11, _⟩ => ⟨S32x65536x4, .f32⟩
  | .hbm, ⟨12, _⟩ => ⟨S_, .f32⟩
  | .hbm, ⟨13, _⟩ => ⟨S32x65536, .f32⟩
  | .hbm, ⟨14, _⟩ => ⟨S32x65536x1, .f32⟩
  | .hbm, ⟨15, _⟩ => ⟨S32x65536x1, .f32⟩
  | .hbm, ⟨16, _⟩ => ⟨S_, .f32⟩
  | .hbm, ⟨17, _⟩ => ⟨S32x65536x1, .f32⟩
  | .hbm, ⟨18, _⟩ => ⟨S32x65536x1, .f32⟩
  | .hbm, ⟨19, _⟩ => ⟨S32x65536x4, .f32⟩
  | .hbm, ⟨20, _⟩ => ⟨S32x65536x4, .f32⟩
  | .hbm, ⟨21, _⟩ => ⟨S32x65536x1, .f32⟩
  | .hbm, ⟨22, _⟩ => ⟨S32x65536, .f32⟩
  | .hbm, ⟨23, _⟩ => ⟨S32x65536x1, .f32⟩
  | .hbm, ⟨24, _⟩ => ⟨S32x65536, .f32⟩
  | .hbm, ⟨25, _⟩ => ⟨S32x65536x1, .f32⟩
  | .hbm, ⟨26, _⟩ => ⟨S32x65536, .f32⟩
  | .hbm, ⟨27, _⟩ => ⟨S32x65536x1, .f32⟩
  | .hbm, ⟨28, _⟩ => ⟨S32x65536, .f32⟩
  | .hbm, ⟨29, _⟩ => ⟨S32x65536, .f32⟩
  | .hbm, ⟨30, _⟩ => ⟨S32x65536, .f32⟩
  | .hbm, ⟨31, _⟩ => ⟨S32x65536, .f32⟩
  | .hbm, ⟨32, _⟩ => ⟨S_, .f32⟩
  | .hbm, ⟨33, _⟩ => ⟨S32x65536, .f32⟩
  | .hbm, ⟨34, _⟩ => ⟨S32x65536, .f32⟩
  | .hbm, ⟨35, _⟩ => ⟨S_, .f32⟩
  | .hbm, ⟨36, _⟩ => ⟨S32x65536, .f32⟩
  | .hbm, ⟨37, _⟩ => ⟨S32x65536, .f32⟩
  | .hbm, ⟨38, _⟩ => ⟨S32x65536, .f32⟩
  | .hbm, ⟨39, _⟩ => ⟨S32x65536, .f32⟩
  | .hbm, ⟨40, _⟩ => ⟨S32x65536, .f32⟩
  | .hbm, ⟨41, _⟩ => ⟨S_, .f32⟩
  | .hbm, ⟨42, _⟩ => ⟨S32x65536, .f32⟩
  | .hbm, ⟨43, _⟩ => ⟨S32x65536, .f32⟩
  | .hbm, ⟨44, _⟩ => ⟨S32x65536, .f32⟩
  | .hbm, ⟨45, _⟩ => ⟨S32x65536, .f32⟩
  | .hbm, ⟨46, _⟩ => ⟨S32x65536, .f32⟩
  | .hbm, ⟨47, _⟩ => ⟨S_, .f32⟩
  | .hbm, ⟨48, _⟩ => ⟨S32x65536, .f32⟩
  | .hbm, ⟨49, _⟩ => ⟨S32x65536, .f32⟩
  | .hbm, ⟨50, _⟩ => ⟨S32x65536x1, .f32⟩
  | .hbm, ⟨51, _⟩ => ⟨S32x65536x1, .f32⟩
  | .hbm, ⟨52, _⟩ => ⟨S32x65536x1, .f32⟩
  | .hbm, ⟨53, _⟩ => ⟨S32x65536x3, .f32⟩
  | .hbm, ⟨54, _⟩ => ⟨S32x65536, .f32⟩
  | .hbm, ⟨55, _⟩ => ⟨S32x65536, .f32⟩
  | .hbm, ⟨56, _⟩ => ⟨S32x65536, .f32⟩
  | .hbm, ⟨57, _⟩ => ⟨S_, .f32⟩
  | .hbm, ⟨58, _⟩ => ⟨S32x65536, .f32⟩
  | .hbm, ⟨59, _⟩ => ⟨S32x65536, .f32⟩
  | .hbm, ⟨60, _⟩ => ⟨S32x65536, .f32⟩
  | .hbm, ⟨61, _⟩ => ⟨S32x65536, .f32⟩
  | .hbm, ⟨62, _⟩ => ⟨S32x65536, .f32⟩
  | .hbm, ⟨63, _⟩ => ⟨S_, .f32⟩
  | .hbm, ⟨64, _⟩ => ⟨S32x65536, .f32⟩
  | .hbm, ⟨65, _⟩ => ⟨S32x65536, .f32⟩
  | .hbm, ⟨66, _⟩ => ⟨S_, .f32⟩
  | .hbm, ⟨67, _⟩ => ⟨S32x65536, .f32⟩
  | .hbm, ⟨68, _⟩ => ⟨S32x65536, .f32⟩
  | .hbm, ⟨69, _⟩ => ⟨S32x65536, .f32⟩
  | .hbm, ⟨70, _⟩ => ⟨S32x65536, .f32⟩
  | .hbm, ⟨71, _⟩ => ⟨S32x65536, .f32⟩
  | .hbm, ⟨72, _⟩ => ⟨S_, .f32⟩
  | .hbm, ⟨73, _⟩ => ⟨S32x65536, .f32⟩
  | .hbm, ⟨74, _⟩ => ⟨S32x65536, .f32⟩
  | .hbm, ⟨75, _⟩ => ⟨S32x65536x1, .f32⟩
  | .hbm, ⟨76, _⟩ => ⟨S32x65536x1, .f32⟩
  | .hbm, ⟨77, _⟩ => ⟨S32x65536x1, .f32⟩
  | .hbm, ⟨78, _⟩ => ⟨S32x65536x3, .f32⟩
  | .hbm, ⟨79, _⟩ => ⟨S32x65536, .f32⟩
  | .hbm, ⟨80, _⟩ => ⟨S32x65536, .f32⟩
  | .hbm, ⟨81, _⟩ => ⟨S32x65536, .f32⟩
  | .hbm, ⟨82, _⟩ => ⟨S_, .f32⟩
  | .hbm, ⟨83, _⟩ => ⟨S32x65536, .f32⟩
  | .hbm, ⟨84, _⟩ => ⟨S32x65536, .f32⟩
  | .hbm, ⟨85, _⟩ => ⟨S32x65536, .f32⟩
  | .hbm, ⟨86, _⟩ => ⟨S32x65536, .f32⟩
  | .hbm, ⟨87, _⟩ => ⟨S32x65536, .f32⟩
  | .hbm, ⟨88, _⟩ => ⟨S_, .f32⟩
  | .hbm, ⟨89, _⟩ => ⟨S32x65536, .f32⟩
  | .hbm, ⟨90, _⟩ => ⟨S32x65536, .f32⟩
  | .hbm, ⟨91, _⟩ => ⟨S32x65536, .f32⟩
  | .hbm, ⟨92, _⟩ => ⟨S32x65536, .f32⟩
  | .hbm, ⟨93, _⟩ => ⟨S32x65536, .f32⟩
  | .hbm, ⟨94, _⟩ => ⟨S_, .f32⟩
  | .hbm, ⟨95, _⟩ => ⟨S32x65536, .f32⟩
  | .hbm, ⟨96, _⟩ => ⟨S32x65536, .f32⟩
  | .hbm, ⟨97, _⟩ => ⟨S_, .f32⟩
  | .hbm, ⟨98, _⟩ => ⟨S32x65536, .f32⟩
  | .hbm, ⟨99, _⟩ => ⟨S32x65536, .f32⟩
  | .hbm, ⟨100, _⟩ => ⟨S32x65536x1, .f32⟩
  | .hbm, ⟨101, _⟩ => ⟨S32x65536x1, .f32⟩
  | .hbm, ⟨102, _⟩ => ⟨S32x65536x1, .f32⟩
  | .hbm, ⟨103, _⟩ => ⟨S32x65536x3, .f32⟩
  | .hbm, ⟨104, _⟩ => ⟨S32x65536x1x3, .f32⟩
  | .hbm, ⟨105, _⟩ => ⟨S32x65536x1x3, .f32⟩
  | .hbm, ⟨106, _⟩ => ⟨S32x65536x1x3, .f32⟩
  | .hbm, ⟨107, _⟩ => ⟨S32x65536x3x3, .f32⟩
  | .hbm, ⟨108, _⟩ => ⟨S4x32x65536x3, .f32⟩
  | .hbm, ⟨109, _⟩ => ⟨S32x65536x4x3, .f32⟩
  | .hbm, ⟨110, _⟩ => ⟨S32x65536x1x3, .f32⟩
  | .hbm, ⟨111, _⟩ => ⟨S32x65536x4x3, .f32⟩
  | .hbm, ⟨112, _⟩ => ⟨S32x65536x4x3, .f32⟩
  | _, _ => ⟨S32x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]

class Facts₀ : Prop where
  reducesTo_S32x65536x3_S32x3_d1 : S32x65536x3.ReducesTo [1] S32x3
  h_S_ : 0 < S_.numel
  bcast_S32x3_S32x1x3_0_2 : S32x3.BroadcastsInDim S32x1x3 (![0, 2] : Fin 2 → Fin S32x1x3.rank)
  bcast_S_S32x1x3 : S_.BroadcastsInDim S32x1x3 (![] : Fin 0 → Fin S32x1x3.rank)
  bcast_S32x1x3_S32x65536x3_0_1_2 : S32x1x3.BroadcastsInDim S32x65536x3 (![0, 1, 2] : Fin 3 → Fin S32x65536x3.rank)
  reducesTo_S32x65536x4_S32x65536_d2 : S32x65536x4.ReducesTo [2] S32x65536
  bcast_S32x65536_S32x65536x1_0_1 : S32x65536.BroadcastsInDim S32x65536x1 (![0, 1] : Fin 2 → Fin S32x65536x1.rank)
  bcast_S_S32x65536x1 : S_.BroadcastsInDim S32x65536x1 (![] : Fin 0 → Fin S32x65536x1.rank)
  bcast_S32x65536x1_S32x65536x4_0_1_2 : S32x65536x1.BroadcastsInDim S32x65536x4 (![0, 1, 2] : Fin 3 → Fin S32x65536x4.rank)
  slices_S32x65536x4_S32x65536x1_0_0_0 : S32x65536x4.Slices ![0, 0, 0] S32x65536x1
  shapeCasts_S32x65536x1_S32x65536 : S32x65536x1.ShapeCasts S32x65536
  slices_S32x65536x4_S32x65536x1_0_0_1 : S32x65536x4.Slices ![0, 0, 1] S32x65536x1
  slices_S32x65536x4_S32x65536x1_0_0_2 : S32x65536x4.Slices ![0, 0, 2] S32x65536x1
  slices_S32x65536x4_S32x65536x1_0_0_3 : S32x65536x4.Slices ![0, 0, 3] S32x65536x1
  bcast_S_S32x65536 : S_.BroadcastsInDim S32x65536 (![] : Fin 0 → Fin S32x65536.rank)
  concatenates_S32x65536x1_S32x65536x1_S32x65536x1_S32x65536x3_d2 : Shape.Concatenates [S32x65536x1, S32x65536x1, S32x65536x1] S32x65536x3 2
  bcast_S32x65536x3_S32x65536x1x3_0_1_3 : S32x65536x3.BroadcastsInDim S32x65536x1x3 (![0, 1, 3] : Fin 3 → Fin S32x65536x1x3.rank)
  concatenates_S32x65536x1x3_S32x65536x1x3_S32x65536x1x3_S32x65536x3x3_d2 : Shape.Concatenates [S32x65536x1x3, S32x65536x1x3, S32x65536x1x3] S32x65536x3x3 2
  transposes_S4x32x65536x3_S32x65536x4x3_1_2_0_3 : S4x32x65536x3.Transposes [1, 2, 0, 3] S32x65536x4x3
  bcast_S32x65536x1x3_S32x65536x4x3_0_1_2_3 : S32x65536x1x3.BroadcastsInDim S32x65536x4x3 (![0, 1, 2, 3] : Fin 4 → Fin S32x65536x4x3.rank)
  dot_S4x3_S32x65536x3x3_S4x32x65536x3_1_3_0_012_n_n_wf : DotDims.WF S4x3 S32x65536x3x3 S4x32x65536x3 [1] [3] [0] [0, 1, 2] [] []

variable [Facts₀]

def dot_S4x3_S32x65536x3x3_S4x32x65536x3_1_3_0_012_n_n : DotDims S4x3 S32x65536x3x3 S4x32x65536x3 where
  lhsContracting := [1]
  rhsContracting := [3]
  lhsNonContracting := [0]
  rhsNonContracting := [0, 1, 2]
  lhsBatch := []
  rhsBatch := []
  wf := dot_S4x3_S32x65536x3x3_S4x32x65536x3_1_3_0_012_n_n_wf

class Facts : Prop extends Facts₀ where

variable [Facts]
-- ==== Proof.K.R0.lean ====
/- Gen.KernelIdeal -> Gen.Kernel, Proof.KI. -> Proof.K. : the same text read at the printed kernel, which is the same program text. -/
/-
  The first kernel region (the per-batch sum of the translations over the residues, 16 grid points of
  4096 residues each), at the buffer contents `V` the region is entered from.

  The kernel keeps a running sum in a scratch buffer: point 0 resets it to zero, every point adds the
  lane sum of its block of 4096 residues, and the last point (15) writes the sum times 2⁻¹⁶ into the
  output block. `accAt n` is the scratch after point `n`; the region invariant carries it from point to
  point; the output window is idle (not stored, not written back) at every point but the last.
-/
import proofs.«174519_j29231547417075_1_alg».proof.Proof.Gen.Kernel.Launch
import proofs.«174519_j29231547417075_1_alg».proof.Proof.Gen.Kernel.Skeleton
import proofs.«174519_j29231547417075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: zero plus the lane sums of the blocks of points 0 … n, added one by one. -/
def accAt (c : Dev nD) : (n : ℕ) → n < cfg0.N → Vec F S32x1x3 .f32
  | 0, hn => k0_pay2 (k0_pay1 (F := F)) (iblk V c 0 ⟨0, hn⟩)
  | n + 1, hn => k0_pay2 (accAt c n (Nat.lt_of_succ_lt hn)) (iblk V c 0 ⟨n + 1, hn⟩)

/-- The scratch operand, a whole scoped buffer of the kernel's own. -/
abbrev scM : Memref sig .tc .vmem S32x1x3 .f32 := Memref.whole cc0_scratch0

/-- The core's other scoped buffers that are no staging buffer of this region (the second region's staging
    buffers), each whole at some contents: what the body never touches. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scratch holds anything (the class's
    invariant); afterwards it holds the running sum the point before left. -/
def PhiS (c : Dev nD) : (n : ℕ) → n ≤ cfg0.N → sProp 𝕄
  | 0, _ => Pipeline.ΦA spec0 c
  | n + 1, hn => iprop((owns (c : Thread nD τ) scM fullShare (accAt V c n hn) ∗ restOthers (F := F) c) ∗ (∃ r, prngReg c r))

/-- The proof data of the region on core `c`: the arrays as the region finds them; after the body the input's
    buffer holds its block and the output's the running sum times 2⁻¹⁶ (consulted at the last point only: elsewhere
    the window is idle); the invariant carries the scratch; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = k0_pay3 (accAt V c t.val t.isLt) := by dsimp only [dat0]

/-! ## The two conditionals of the body, in closed form over the grid -/

/-- The reset's condition (the first conditional): the grid coordinate is 0. -/
abbrev isFirst (i : grid0.Coords) : Prop := (Scalar.cmpi .ne (Scalar.extui (Scalar.cmpi .eq (BitVec.ofNat 32 (i 0).val) 0#32)) 0#32) = 1#1
/-- The write-out's condition (the second conditional): the grid coordinate is 15. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 15 :=
  (by decide +kernel : ∀ t : Fin grid0.N, isLast (grid0.coords t) ↔ t.val = 15)

/-- The input window is live at every point. -/
theorem live_in : ∀ t : Fin cfg0.N, cfg0.idle 0 (grid0.coords t) = false := by decide +kernel
/-- Away from the last point the output window is idle, -/
theorem idle_out : ∀ t : Fin cfg0.N, ¬isLast (grid0.coords t) → cfg0.idle 1 (grid0.coords t) = true := by decide +kernel
/-- and its block is not written back there. -/
theorem noFlush_out : ∀ t : Fin cfg0.N, ¬isLast (grid0.coords t) → (cfg0.win 1).flush t = false := by decide +kernel
/-- At the last point the output window is live. -/
theorem live_out : ∀ t : Fin cfg0.N, isLast (grid0.coords t) → cfg0.idle 1 (grid0.coords t) = false := by decide +kernel

/-! ## The invariant, unfolded -/

/-- The class's invariant: the scratch at some contents, the other scoped buffers at some contents, the generator
    register at some state. -/
theorem PhiA_eq (c : Dev nD) :
    (Pipeline.ΦA spec0 c : sProp 𝕄)
      = iprop(((∃ d, owns (c : Thread nD τ) scM fullShare d) ∗ restOthers (F := F) c) ∗ (∃ r, prngReg c r)) := by
  unfold Pipeline.ΦA restOthers; rw [scopedRest0_eq]; simp only [scM, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOthers (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOthers (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The running sum at the first point and after it. -/
theorem accAt_zero (c : Dev nD) (h : 0 < cfg0.N) : accAt V c 0 h = k0_pay2 (k0_pay1 (F := F)) (iblk V c 0 ⟨0, h⟩) := rfl
theorem accAt_pos (c : Dev nD) (t : Fin cfg0.N) (hz : t.val ≠ 0) :
    accAt V c t.val t.isLt = k0_pay2 (accAt V c (t.val - 1) (by omega)) (iblk V c 0 t) := by
  obtain ⟨n, hn⟩ := t
  cases n with
  | zero => exact absurd rfl hz
  | succ n => rfl

/-- The input's current staging buffer holds its block at every point, fetched there or not. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)

/-! ## Whole-buffer loads and stores -/

/-- A load of the whole shape from a whole buffer that reads `X` reads `X`. -/
theorem load_all {sp : Space} {S : Shape} {e : EltTy} {m : Memref sig .tc sp S e} (h : m.IsWhole) {off : Fin S.rank → Nat}
    (ho : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero ho inb X

/-- A store of the whole shape, made last, leaves its payload, whatever the earlier stores and the prior contents. -/
theorem store_all {sp : Space} {S : Shape} {e : EltTy} (v : View sig .tc sp S e) (f : v.ty.Contents (Elt F)) {off : Fin S.rank → Nat}
    (ho : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero ho inb y⟩), View.canon_cons_unit_zero ho inb]

theorem zeros3 : (![0, 0, 0] : Fin 3 → Nat) = fun _ => 0 := by decide

/-! ## The body's run, case by case, with the stored values named -/

set_option maxHeartbeats 1000000 in
/-- A point that is neither the first nor the last: the scratch at the running sum `a`, the input's buffer at its block
    `x`, the output's buffer at anything `o`: the body adds the block's lane sum into the scratch and touches nothing else. -/
theorem run_mid (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : ¬isFirst i) (hc1 : ¬isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o ∗ owns (c : Thread nD τ) arg3 fullShare (k0_pay2 a x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [store_all _ _ zeros3, load_all harg3 zeros3, load_all harg1 zeros3]

set_option maxHeartbeats 1000000 in
/-- The first point: the scratch at anything `a`: the body resets it to zero, then adds the block's lane sum. -/
theorem run_first (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : isFirst i) (hc1 : ¬isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o ∗ owns (c : Thread nD τ) arg3 fullShare (k0_pay2 (k0_pay1 (F := F)) x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  sl_unfold_run_names
  rw [store_all _ _ zeros3, View.readCov_unit_zero _ zeros3, load_all harg1 zeros3]

set_option maxHeartbeats 1000000 in
/-- The last point: the body adds the block's lane sum into the scratch, then stores the sum times 2⁻¹⁶ into the output's
    buffer, whatever that held. -/
theorem run_last (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : ¬isFirst i) (hc1 : isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare (k0_pay3 (k0_pay2 a x)) ∗ owns (c : Thread nD τ) arg3 fullShare (k0_pay2 a x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr
    swap; · iexact H2
    ipureintro
    sl_unfold_run_names
    rw [store_all _ _ zeros3, View.readCov_unit_zero _ zeros3, load_all harg3 zeros3, load_all harg1 zeros3]
  iexists _; isplitr
  swap; · iexact H3
  ipureintro
  sl_unfold_run_names
  rw [store_all _ _ zeros3, load_all harg3 zeros3, load_all harg1 zeros3]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point. The input's buffer holds its block; the invariant hands the scratch over at the running sum
    the point before left (at anything before the first point, which resets it) and takes it back at this point's;
    the output's buffer is handed back as found at every point but the last, where it receives the mean. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live_in t], after0_0]
  have hN : t.val < 16 := lt_of_lt_of_eq t.isLt (show cfg0.N = 16 from N_0)
  by_cases h0 : t.val = 0
  · -- the first point: the reset
    have hl : ¬isLast (grid0.coords t) := fun h => by have := (isLast_iff t).mp h; omega
    rw [Dat.leavesExact_idle (dat0 V c) 1 t (idle_out t hl) (noFlush_out t hl)]
    rw [PhiS_castSucc V c t, PhiS_zero V c _ _ h0, PhiA_eq]
    have hacc : accAt V c t.val t.isLt = k0_pay2 (k0_pay1 (F := F)) (iblk V c 0 t) := by
      obtain ⟨n, hn⟩ := t; dsimp only at h0; subst h0; rfl
    rw [hacc]
    iintro ⟨⟨⟨⟨%a, HS⟩, HR⟩, Hg⟩, Ho, ⟨%d0, H0⟩, ⟨%d1, H1⟩⟩
    iapply (run_first c (grid0.coords t) _ _ _ _ _ _ ((isFirst_iff t).mpr h0) hl (iblk V c 0 t) a _ Set.univ _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexists _; iexact H1
  · have hf : ¬isFirst (grid0.coords t) := fun h => h0 ((isFirst_iff t).mp h)
    by_cases h1 : t.val = 15
    · -- the last point: the mean goes out
      have hl : isLast (grid0.coords t) := (isLast_iff t).mpr h1
      rw [show (dat0 V c).leavesExact 1 t = owns (c : Thread nD τ) (st0_1 t) fullShare ((dat0 V c).after 1 t) from by
        unfold Dat.leavesExact; rw [live_out t hl], after0_1]
      rw [PhiS_castSucc V c t, PhiS_pos V c _ _ h0, accAt_pos V c t h0]
      iintro ⟨⟨⟨HS, HR⟩, Hg⟩, Ho, ⟨%d0, H0⟩, ⟨%d1, H1⟩⟩
      iapply (run_last c (grid0.coords t) _ _ _ _ _ _ hf hl (iblk V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
    · -- a point in between: the sum goes on
      have hl : ¬isLast (grid0.coords t) := fun h => h1 ((isLast_iff t).mp h)
      rw [Dat.leavesExact_idle (dat0 V c) 1 t (idle_out t hl) (noFlush_out t hl)]
      rw [PhiS_castSucc V c t, PhiS_pos V c _ _ h0, accAt_pos V c t h0]
      iintro ⟨⟨⟨HS, HR⟩, Hg⟩, Ho, ⟨%d0, H0⟩, ⟨%d1, H1⟩⟩
      iapply (run_mid c (grid0.coords t) _ _ _ _ _ _ hf hl (iblk V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation of the region, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ (Pipeline.ΦA spec0 c : sProp 𝕄) := by
  have hne : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ hne, PhiA_eq]
  iintro ⟨⟨HS, HR⟩, Hg⟩
  isplitl [HS HR]
  · isplitl [HS]
    · iexists _; iexact HS
    iexact HR
  iexact Hg

end Cert.Kernel.R0

end
-- ==== Proof.K.R1.lean ====
/- Gen.KernelIdeal -> Gen.Kernel, Proof.KI. -> Proof.K. : the same text read at the printed kernel, which is the same program text. -/
/-
  The second kernel region (normalise each residue's quaternion, build its rotation matrix, rotate the four atoms and
  add the centred translation; 32 grid points of 2048 residues each), at the buffer contents `V` the region is entered
  from.

  The body loads the three input blocks whole (the translations' block, the quaternions' block, the per-batch means),
  computes, and stores the output block whole: what it stores is `rotPay` of the three loads. It keeps nothing between
  points and reads no output buffer's value, so the region invariant is the class's (the scoped rest and the generator
  register, untouched).
-/
import proofs.«174519_j29231547417075_1_alg».proof.Proof.Gen.Kernel.Launch
import proofs.«174519_j29231547417075_1_alg».proof.Proof.Gen.Kernel.Skeleton
import proofs.«174519_j29231547417075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the output block, from its three loads: `x0` the translations' block, `x1` the
    quaternions' block, `x2` the per-batch means — the payloads of the four printed parts composed, then the twelve
    columns concatenated. -/
def rotPay (x0 : Vec F S32x2048x3 .f32) (x1 : Vec F S32x2048x4 .f32) (x2 : Vec F S32x1x3 .f32) : FVec F S32x2048x12 .f32 :=
  let v19 := k1_pay7 x1; let v20 := k1_pay8 x1; let v21 := k1_pay9 x1; let v22 := k1_pay10 x1
  let v29 := k1_pay12 x0 x2; let v31 := k1_pay13 x0 x2; let v33 := k1_pay14 x0 x2
  let v40 := k1_pay15 x1; let v45 := k1_pay16 x1
  let v50 := k1_pay17 v19 v20 v21 v22; let v55 := k1_pay18 v19 v20 v21 v22; let v62 := k1_pay19 v20 v22
  let v67 := k1_pay20 v19 v20 v21 v22; let v72 := k1_pay21 v19 v20 v21 v22; let v77 := k1_pay22 v19 v20 v21 v22
  let v84 := k1_pay23 v20 v21; let v93 := k1_pay24 v19 v20 v21 v22 v29 v40 v45
  let v102 := k1_pay25 v31 v55 v62 v67; let v111 := k1_pay26 v33 v72 v77 v84; let v120 := k1_pay27 v29 v40 v45 v50
  let v129 := k1_pay28 v31 v55 v62 v67; let v138 := k1_pay29 v33 v72 v77 v84
  let v147 := k1_pay30 v29 v40 v45 v50; let v156 := k1_pay31 v31 v55 v62 v67; let v165 := k1_pay32 v33 v72 v77 v84
  let v174 := k1_pay33 v29 v40 v45 v50; let v183 := k1_pay34 v31 v55 v62 v67
  k1_pay1 v33 v72 v77 v84 v93 v102 v111 v120 v129 v138 v147 v156 v165 v174 v183

/-- The body's accesses: each buffer whole. -/
abbrev r_0 : Rect S32x2048x3 := Rect.unit (s := S32x2048x3) ![0, 0, 0] S32x2048x3.size inb_S32x2048x3_S32x2048x3_0_0_0
abbrev r_1 : Rect S32x2048x4 := Rect.unit (s := S32x2048x4) ![0, 0, 0] S32x2048x4.size inb_S32x2048x4_S32x2048x4_0_0_0
abbrev r_2 : Rect S32x1x3 := Rect.unit (s := S32x1x3) ![0, 0, 0] S32x1x3.size inb_S32x1x3_S32x1x3_0_0_0
abbrev r_3 : Rect S32x2048x12 := Rect.unit (s := S32x2048x12) ![0, 0, 0] S32x2048x12.size inb_S32x2048x12_S32x2048x12_0_0_0

/-- The output window's staging buffer after the body, from the input windows' blocks: its one store as a piece. -/
def out3 (x0 : Vec F S32x2048x3 .f32) (x1 : Vec F S32x2048x4 .f32) (x2 : Vec F S32x1x3 .f32) : Vec F S32x2048x12 .f32 :=
  View.canon [⟨r_3, rotPay (View.ld x0 r_0) (View.ld x1 r_1) (View.ld x2 r_2)⟩]

/-- The proof data of the region on core `c`: the arrays as the region finds them; after the body each input's buffer at
    its block and the output's at `out3` of the input blocks; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) :
    (dat1 V c).after 3 t = out3 (iblk V c 0 t) (iblk V c 1 t) (iblk V c 2 t) := by dsimp only [dat1]

/-! ## What the body finds in the three input buffers -/

/-- The translations' buffer holds the point's block of translations whenever the body runs: an input the body leaves
    in place holds what a fetch would bring, moved or not. -/
theorem found1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- The quaternions' buffer holds the point's block of quaternions, likewise. -/
theorem found1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- The means' buffer holds the one block of means at every point: its block index never moves, so after the first
    point nothing is fetched and the buffer still holds what the first fetch brought. -/
theorem found1_2 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)

/-! ## The one store fills the output buffer -/

/-- The single whole-buffer store covers every index of the output block. -/
theorem fills3 (p : Vec F S32x2048x12 .f32) (y : S32x2048x12.Idx) :
    ∃ pc ∈ ([⟨r_3, p⟩] : List (View.Piece (Elt F) S32x2048x12 .f32)), y ∈ pc.1.set :=
  View.cover_of_tiled [⟨r_3, p⟩] S32x2048x12.size (by rfl) y

/-! ## The body's triple -/

set_option maxHeartbeats 4000000 in
/-- The rotation body on four whole staging memrefs — the three inputs' read as x0 (translations), x1 (quaternions),
    x2 (means), the output's at anything — runs to a continuation that is handed the inputs' as they were and the output's
    at out3 of the three: three whole loads, arithmetic, one dead load and the one whole store of the rotated atoms. -/
theorem rotate_triple (c : Dev nD) (E : Set ℕ) (i : grid1.Coords)
    (a0 : Memref sig .tc .vmem S32x2048x3 .f32) (h0 : a0.IsWhole) (a1 : Memref sig .tc .vmem S32x2048x4 .f32) (h1 : a1.IsWhole)
    (a2 : Memref sig .tc .vmem S32x1x3 .f32) (h2 : a2.IsWhole) (a3 : Memref sig .tc .vmem S32x2048x12 .f32) (h3 : a3.IsWhole)
    (x0 : Vec F S32x2048x3 .f32) (x1 : Vec F S32x2048x4 .f32) (x2 : Vec F S32x1x3 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out3 x0 x1 x2)) -∗ K ⟨⟩))
      ⊢ wp frame (wpE (defs₀ (F := F)) Variants.none c none) E (cc1__rotate_kernel i a0 h0 a1 h1 a2 h2 a3 h3) K := by
  simp only [cc1__rotate_kernel_eq_skeleton]; unfold cc1__rotate_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fills3 _)

/-! ## The body obligation at a point -/

/-- What the body is called with at point t: the invariant, the core's debts, and the four current staging buffers
    at what the pipeline left in them. -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debts, each buffer at what the proof data say the body leaves. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the triple applies at those blocks; the
    invariant and the debts pass through untouched (they do not depend on the point). -/
theorem rotate_at (c : Dev nD) (t : Fin cfg1.N) :
    entry1 V c t ⊢ wp frame (wpE (defs₀ (F := F)) Variants.none c none) Set.univ (bodyAt1 t) (fun _ => exit1 V c t) := by
  unfold entry1 exit1 bodyAt1
  simp only [found1_0, found1_1, found1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (rotate_triple c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V c) (defs₀ (F := F)) Variants.none () Set.univ := fun t => by
  rw [bigSep_W1, bigSep_W1]
  exact rotate_at V c t

end Cert.Kernel.R1

end
-- ==== Proof.K.Run.lean ====
/- Gen.KernelIdeal -> Gen.Kernel, Proof.KI. -> Proof.K. : the same text read at the printed kernel, which is the same program text. -/
/-
  The whole kernel program run: @main is the first region (the per-batch sums), the second region (the rotations), and
  one host reshape of the second region's result. Each region's proof data is taken at the buffer contents the region is
  entered from: the launch memory for the first; for the second, the launch memory with the first region's output array
  at what that region's write-backs leave (`mid`). After the second region its output array holds what its write-backs
  leave (`fin`), and the result buffer is that array reshaped.

  Given here: the two regions as segment records over the thread state "every unscoped buffer whole at the boundary's
  contents, the generator register at some state, nothing owed", the launch, the frame claim (`frame`), and the run
  with the result buffer named (`run_v2`, `V3_v2`).
-/
import proofs.«174519_j29231547417075_1_alg».proof.Proof.Gen.Kernel.Launch
import proofs.«174519_j29231547417075_1_alg».proof.Proof.Gen.Kernel.Skeleton
import proofs.«174519_j29231547417075_1_alg».proof.Proof.Gen.Kernel.Points
import proofs.«174519_j29231547417075_1_alg».proof.Proof.K.R0
import proofs.«174519_j29231547417075_1_alg».proof.Proof.K.R1
import proofs.«174519_j29231547417075_1_alg».proof.Proof.K.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's entry contents: the launch memory. -/
abbrev Ve0 : (c : Dev nD) → (b : Ref sig .tc) → Buf (Elt F) ((c : Thread nD τ).loc b) := fun c b => Gen.V0 m c b

/-- After the first region: its arrays at what the pipeline leaves (the input as entered, the output's write-backs
    folded), every other buffer as launched. -/
def mid (c : Dev nD) : Valuation τ sig (Elt F) :=
  Pipeline.withArrays spec0 c (Gen.V0 m c) fun w => (R0.dat0 (Ve0 m) c).arrAt w cfg0.N

/-- The second region's entry contents. -/
abbrev Ve1 : (c : Dev nD) → (b : Ref sig .tc) → Buf (Elt F) ((c : Thread nD τ).loc b) := fun c b => mid m c b

/-- After the second region: its arrays at what the pipeline leaves, every other buffer as it was entered. -/
def fin (c : Dev nD) : Valuation τ sig (Elt F) :=
  Pipeline.withArrays spec1 c (mid m c) fun w => (R1.dat1 (Ve1 m) c).arrAt w cfg1.N

/-- What the regions leave in the buffers they may change: read at `outs 1 main_v0` and `outs 2 main_v1` only. -/
def outs : Gen.Outs (F := F) := fun J r c => if J = 1 then mid m c r else fin m c r

/-- Every pipeline's proof data, each at its region's entry contents. -/
def pdats : (p : Fin 2) → (c : Dev nD) → Dat τ (Elt F) Unit ℕ (UR sig nD τ) ℕ (cfgs p) c
  | ⟨0, _⟩ => fun c => R0.dat0 (Ve0 m) c
  | ⟨1, _⟩ => fun c => R1.dat1 (Ve1 m) c

/-! ## The contents at the two inner boundaries, buffer by buffer -/

/-- After the first region each of its arrays holds what the pipeline leaves there, -/
theorem mid_arr (c : Dev nD) (w : Fin cfg0.W) :
    mid m c (Proc.devRef .tc (Pipeline.arrRef spec0 w)) = (R0.dat0 (Ve0 m) c).arrAt w cfg0.N := by
  unfold mid; exact Pipeline.withArrays_arr spec0 launch0.win.arr_inj c _ _ w
/-- and a buffer that is none of them holds what it held at launch. -/
theorem mid_of_ne (c : Dev nD) (b : Ref sig .tc) (hb : ∀ w, Pipeline.arrRef spec0 w ≠ b) :
    mid m c (Proc.devRef .tc b) = Gen.V0 m c (Proc.devRef .tc b) := by
  unfold mid; exact Pipeline.withArrays_of_ne spec0 c _ _ b hb
/-- The same for the second region, over the contents it was entered from. -/
theorem fin_arr (c : Dev nD) (w : Fin cfg1.W) :
    fin m c (Proc.devRef .tc (Pipeline.arrRef spec1 w)) = (R1.dat1 (Ve1 m) c).arrAt w cfg1.N := by
  unfold fin; exact Pipeline.withArrays_arr spec1 launch1.win.arr_inj c _ _ w
theorem fin_of_ne (c : Dev nD) (b : Ref sig .tc) (hb : ∀ w, Pipeline.arrRef spec1 w ≠ b) :
    fin m c (Proc.devRef .tc b) = mid m c (Proc.devRef .tc b) := by
  unfold fin; exact Pipeline.withArrays_of_ne spec1 c _ _ b hb

/-- The second region finds the first region's output array at what that region left, and the arguments as launched. -/
theorem Ve1_v0 (c : Dev nD) : Ve1 m c main_v0 = (R0.dat0 (Ve0 m) c).arrAt 1 cfg0.N :=
  mid_arr m c 1
theorem Ve1_arg0 (c : Dev nD) : Ve1 m c main_arg0 = m ((c : Thread nD τ).loc main_arg0) :=
  (mid_arr m c 0).trans (((R0.dat0 (Ve0 m) c).arrAt_in 0 rfl _).trans (R0.A_eq0 (Ve0 m) c 0))
theorem Ve1_arg1 (c : Dev nD) : Ve1 m c main_arg1 = m ((c : Thread nD τ).loc main_arg1) :=
  mid_of_ne m c main_arg1 (by decide)

/-- The generated fold's contents after the first region are `mid`, at every TensorCore buffer: at the region's output
    array by the choice of `outs`; elsewhere both are the launch contents (the input array: entered and left alike). -/
theorem V1_eq_mid (c : Dev nD) (b : Ref sig .tc) : Gen.V1 m (outs m) c b = mid m c b := by
  by_cases h1 : b = main_v0
  · subst h1
    show Function.update (Gen.V0 m c) (Proc.devRef .tc main_v0) (outs m 1 main_v0 c) (Proc.devRef .tc main_v0) = _
    rw [Function.update_self]; exact if_pos rfl
  · rw [Gen.V1_of m (outs m) c b (fun hm => h1 (List.mem_singleton.mp hm))]
    by_cases h0 : b = main_arg0
    · subst h0; exact (Ve1_arg0 m c).symm
    · exact (mid_of_ne m c b (fun w => match w with
        | ⟨0, _⟩ => fun e => h0 e.symm
        | ⟨1, _⟩ => fun e => h1 e.symm)).symm

/-- After the second region the generated fold has that region's output array at what its write-backs leave. -/
theorem V2_v1 (c : Dev nD) : Gen.V2 m (outs m) c main_v1 = (R1.dat1 (Ve1 m) c).arrAt 3 cfg1.N := by
  show Function.update (Gen.V1 m (outs m) c) (Proc.devRef .tc main_v1) (outs m 2 main_v1 c) (Proc.devRef .tc main_v1) = _
  rw [Function.update_self]
  exact (if_neg (by decide)).trans (fin_arr m c 3)

/-- The result buffer at the end: the second region's output array, as its write-backs leave it, reshaped. -/
theorem V3_v2 (c : Dev nD) :
    Gen.V3 m (outs m) c main_v2
      = shapeCast S32x65536x4x3 ((R1.dat1 (Ve1 m) c).arrAt 3 cfg1.N) shapeCasts_S32x65536x12_S32x65536x4x3 := by
  show StableHlo.after hostOps2 (Gen.V2 m (outs m) c) (Proc.devRef .tc main_v2) = _
  simp only [hostOps2, StableHlo.after_cons, StableHlo.after_nil]
  rw [StableHlo.reshape_result]
  funext i
  exact congrArg (fun X => shapeCast S32x65536x4x3 X shapeCasts_S32x65536x12_S32x65536x4x3 i) (V2_v1 m c)

/-! ## What rides beside the buffers -/

/-- No variant, no recorded pair, one level: no core owes another anything in this program. -/
private abbrev noVar : Variants := Variants.none
private abbrev noPairs : GSem nD τ sig → Finset Unit := fun _ => ∅
private abbrev oneLvl : GSem nD τ sig → Unit → ℕ := fun _ _ => 0

/-- Beside the buffers a core holds, at every boundary, its generator register at some state and owes nothing. -/
private abbrev beside (c : Dev nD) : sProp 𝕄 :=
  iprop((∃ r, prngReg c r) ∗ ∃ W, owes (c : Thread nD τ) (0 : CellTallies nD τ sig Unit) W)

/-- A core owing nothing meets the debt recorded by proof data that owe nothing at a position and bound no pair. -/
private theorem owes_into {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, H⟩
  iexists W
  isplitr
  · ipureintro; exact fun _ _ => Or.inl trivial
  iexact H

/-- and such a debt, given back, is a core owing nothing. -/
private theorem owes_out_of {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-- The class's region invariant is the generator register at some state beside the scoped buffers no window stages:
    put together from the two (whatever else is offered is dropped), -/
private theorem classInv_of {gr W : Nat} (win : Fin W → Pipeline.WinSpec sig gr) (c : Dev nD) (T : sProp 𝕄) :
    (iprop((∃ r, prngReg c r) ∗ T ∗ Pipeline.scopedRest win c) : sProp 𝕄) ⊢ Pipeline.ΦA win c := by
  unfold Pipeline.ΦA
  iintro ⟨Hgen, -, Hsc⟩
  isplitl [Hsc]; · iexact Hsc
  iexact Hgen

/-- and taken apart into them. -/
private theorem classInv_to {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hsc, Hgen⟩
  isplitl [Hgen]; · iexact Hgen
  isplitr; · iempintro
  iexact Hsc

/-- ENTERING a region from the thread state. Given the unscoped buffers split into the region's arrays `A` and the
    rest `Zr`, nothing for the prefetched tables `P` (there is none), and the debt `D` met by a core owing nothing:
    the arrays, the tables, the debt, the generator register and the rest, whatever else `T` is offered. -/
private theorem enter {c : Dev nD} {Vh : Valuation τ sig (Elt F)} {A Zr P D : sProp 𝕄}
    (hsplit : (StableHlo.held (c : Thread nD τ) (Pipeline.ucRefs τ sig) Vh : sProp 𝕄) ⊢ iprop(A ∗ Zr))
    (hP : (BI.emp : sProp 𝕄) ⊢ P)
    (hD : (iprop(∃ W, owes (c : Thread nD τ) (0 : CellTallies nD τ sig Unit) W) : sProp 𝕄) ⊢ D) (T : sProp 𝕄) :
    (iprop((StableHlo.held (c : Thread nD τ) (Pipeline.ucRefs τ sig) Vh ∗ beside c) ∗ T) : sProp 𝕄)
      ⊢ |={Set.univ}=> iprop(A ∗ P ∗ D ∗ (∃ r, prngReg c r) ∗ Zr) := by
  iintro ⟨⟨Hbufs, Hgen, Howes⟩, -⟩
  ihave Hsp := hsplit $$ Hbufs
  icases Hsp with ⟨Harr, Hoff⟩
  imodintro
  isplitl [Harr]; · iexact Harr
  isplitr; · iapply hP; iempintro
  isplitl [Howes]; · iapply hD; iexact Howes
  isplitl [Hgen]; · iexact Hgen
  iexact Hoff

/-- LEAVING a region into the thread state. Given the region's arrays `A` and the rest `Zr` joined into the unscoped
    buffers at the exit contents, and the debt `D` given back as a core owing nothing. -/
private theorem leave {c : Dev nD} {Vh : Valuation τ sig (Elt F)} {A Zr D : sProp 𝕄}
    (hjoin : (iprop(A ∗ Zr) : sProp 𝕄) ⊢ StableHlo.held (c : Thread nD τ) (Pipeline.ucRefs τ sig) Vh)
    (hD : D ⊢ (iprop(∃ W, owes (c : Thread nD τ) (0 : CellTallies nD τ sig Unit) W) : sProp 𝕄)) :
    (iprop(A ∗ D ∗ (∃ r, prngReg c r) ∗ Zr) : sProp 𝕄)
      ⊢ |={Set.univ}=> iprop(StableHlo.held (c : Thread nD τ) (Pipeline.ucRefs τ sig) Vh ∗ beside c) := by
  iintro ⟨Harr, Howes, Hgen, Hoff⟩
  imodintro
  isplitl [Harr Hoff]
  · iapply hjoin; isplitl [Harr] <;> iassumption
  isplitl [Hgen]; · iexact Hgen
  iapply hD; iexact Howes

/-- A pipeline with no prefetched table holds them all: the empty conjunction. -/
private theorem noTables {pre : Pipeline.Prefetch sig} (hK : pre.K = 0) (c : Dev nD) (q : Fin pre.K → PosShare TreeShare)
    (v : pre.Contents (Elt F)) : (BI.emp : sProp 𝕄) ⊢ Pipeline.prefHeld pre c q v := by
  unfold Pipeline.prefHeld
  have : (Finset.univ : Finset (Fin pre.K)) = ∅ := Finset.eq_empty_of_forall_notMem fun k => (hK ▸ k).elim0
  rw [this, BI.bigSep_empty]

/-! ## The generated fold against the regions' arrays -/

/-- The generated fold's contents after each region, read at the TensorCore's references. -/
private abbrev Vb1 : (c : Dev nD) → (b : Ref sig .tc) → Buf (Elt F) ((c : Thread nD τ).loc b) := fun c b => Gen.V1 m (outs m) c b
private abbrev Vb2 : (c : Dev nD) → (b : Ref sig .tc) → Buf (Elt F) ((c : Thread nD τ).loc b) := fun c b => Gen.V2 m (outs m) c b

/-- Leaving the first region: each of its arrays holds what the pipeline leaves, every other buffer what it held. -/
private theorem left0_arr (c : Dev nD) (w : Fin cfg0.W) :
    (R0.dat0 (Ve0 m) c).arrAt w cfg0.N = Vb1 m c (Pipeline.arrRef spec0 w) :=
  (mid_arr m c w).symm.trans (V1_eq_mid m c _).symm
private theorem left0_rest (c : Dev nD) :
    ∀ b, b ∉ Finset.univ.image (Pipeline.arrRef spec0) → Vb1 m c b = Ve0 m c b :=
  fun b hb => (V1_eq_mid m c b).trans (mid_of_ne m c b fun w e => hb (Finset.mem_image.mpr ⟨w, Finset.mem_univ _, e⟩))

/-- Off the second region's output array the fold after it is the contents it was entered from. -/
private theorem V2_in (c : Dev nD) (b : Ref sig .tc) (h : b ≠ main_v1) : Gen.V2 m (outs m) c b = mid m c b :=
  (Gen.V2_of m (outs m) c b (fun hm => h (List.mem_singleton.mp hm))).trans (V1_eq_mid m c b)

/-- Leaving the second region: an input array holds what it was entered with, the output array what the write-backs
    leave; every other buffer what it held. -/
private theorem left1_arr (c : Dev nD) :
    ∀ w : Fin cfg1.W, (R1.dat1 (Ve1 m) c).arrAt w cfg1.N = Vb2 m c (Pipeline.arrRef spec1 w)
  | ⟨0, _⟩ => (((R1.dat1 (Ve1 m) c).arrAt_in 0 rfl _).trans (R1.A_eq1 (Ve1 m) c 0)).trans (V2_in m c main_arg0 (by decide)).symm
  | ⟨1, _⟩ => (((R1.dat1 (Ve1 m) c).arrAt_in 1 rfl _).trans (R1.A_eq1 (Ve1 m) c 1)).trans (V2_in m c main_arg1 (by decide)).symm
  | ⟨2, _⟩ => (((R1.dat1 (Ve1 m) c).arrAt_in 2 rfl _).trans (R1.A_eq1 (Ve1 m) c 2)).trans (V2_in m c main_v0 (by decide)).symm
  | ⟨3, _⟩ => (V2_v1 m c).symm
private theorem left1_rest (c : Dev nD) :
    ∀ b, b ∉ Finset.univ.image (Pipeline.arrRef spec1) → Vb2 m c b = Vb1 m c b :=
  fun b hb => Gen.V2_of m (outs m) c b fun hm =>
    hb (Finset.mem_image.mpr ⟨3, Finset.mem_univ _, (List.mem_singleton.mp hm).symm⟩)

/-! ## The regions as segments -/

-- the record's fields are stated over the pinned configuration, which is the printed one by unfolding definitions
set_option backward.isDefEq.respectTransparency.types false in
/-- THE FIRST REGION over the thread state: entered with every unscoped buffer at the launch contents, left with the
    output array at what the write-backs fold to. Its two arrays are split out of the unscoped buffers on entry and put
    back at the exit contents; the generator register and the scoped buffers no window stages make the class's
    invariant, which the region's own invariant starts from and ends in; nothing is owed; the kernel has no semaphore
    of its own and no prefetched table. -/
def reg0 : Pipeline.RegionSeg (pcfgs (F := F)) Gen.adm (pdats m) () defs₀ noVar noPairs oneLvl 0 where
  win := launch0.win.to₀
  block_pos := launch0.block_pos
  stage_whole := launch0.stage_whole
  K := PEmpty
  osem k := k.elim
  ho := Pipeline.OwnSemFacts.none _
  hbody c := (R0.body_obligation0 (Ve0 m) c).loose
  hwaits := Pipeline.hwaits_of_owed_zero _ _ _ _ noPairs oneLvl 0 fun _ _ => rfl
  pre c := iprop(StableHlo.held (c : Thread nD τ) (Pipeline.ucRefs τ sig) (Gen.V0 m c) ∗ beside c)
  post c := iprop(StableHlo.held (c : Thread nD τ) (Pipeline.ucRefs τ sig) (Gen.V1 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    exact enter hsplit (noTables rfl c _ _) (owes_into (pdats m 0 c) 0 rfl rfl) _
  -- the class's invariant from its two parts, then the region's own invariant before the first point
  hin c := (classInv_of spec0 c _).trans (R0.hin0 (Ve0 m) c)
  -- after the last point the region's invariant gives the class's back, which is its two parts
  hout c := by
    rw [Pipeline.ownSems0_none]
    exact (R0.hout0 (Ve0 m) c).trans (classInv_to spec0 c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vb1 m c) ((pdats m 0 c).arrAt · cfg0.N) (left0_arr m c) (left0_rest m c)
    rw [Pipeline.unscopedBufs_held] at hjoin
    exact leave hjoin (owes_out_of (pdats m 0 c) (Fin.last _) rfl)

set_option backward.isDefEq.respectTransparency.types false in
/-- THE SECOND REGION over the thread state: entered with the first region's output array at what that region left,
    left with its own output array at what its write-backs fold to. Its four arrays (three inputs, one output) are split
    out of the unscoped buffers and put back; its invariant is the class's at every point; nothing is owed; no semaphore
    of the kernel's own, no prefetched table. -/
def reg1 : Pipeline.RegionSeg (pcfgs (F := F)) Gen.adm (pdats m) () defs₀ noVar noPairs oneLvl 1 where
  win := launch1.win.to₀
  block_pos := launch1.block_pos
  stage_whole := launch1.stage_whole
  K := PEmpty
  osem k := k.elim
  ho := Pipeline.OwnSemFacts.none _
  hbody c := (R1.body_obligation1 (Ve1 m) c).loose
  hwaits := Pipeline.hwaits_of_owed_zero _ _ _ _ noPairs oneLvl 1 fun _ _ => rfl
  pre c := iprop(StableHlo.held (c : Thread nD τ) (Pipeline.ucRefs τ sig) (Gen.V1 m (outs m) c) ∗ beside c)
  post c := iprop(StableHlo.held (c : Thread nD τ) (Pipeline.ucRefs τ sig) (Gen.V2 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (Vb1 m c)
  hentry c := by
    -- the proof data's entry contents are `mid`, which the fold after the first region is
    have hsplit := Pipeline.arrays_of_unscopedBufs (p := 1) (pcfgs (F := F)) Gen.adm (pdats m) launch1.win launch1.arr_whole c
      ((pdats m 1 c).share_full fun _ => rfl) (Vb1 m c) fun w => (V1_eq_mid m c _).symm
    rw [Pipeline.unscopedBufs_held] at hsplit
    exact enter hsplit (noTables rfl c _ _) (owes_into (pdats m 1 c) 0 rfl rfl) _
  hin c := classInv_of spec1 c _
  hout c := by
    rw [Pipeline.ownSems0_none]
    exact classInv_to spec1 c
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vb1 m c) (Vb2 m c) ((pdats m 1 c).arrAt · cfg1.N) (left1_arr m c) (left1_rest m c)
    rw [Pipeline.unscopedBufs_held] at hjoin
    exact leave hjoin (owes_out_of (pdats m 1 c) (Fin.last _) rfl)

/-! ## The launch -/

/-- The launch's ghost element is the pipelines' cells and duty tokens, whole; no core takes anything besides. -/
private theorem launch_ghost (u : UR sig nD τ) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro Hu
  imodintro
  isplitl [Hu]; · iexact Hu
  iempintro

-- as for the records: the pinned configurations are the printed ones by unfolding definitions
set_option backward.isDefEq.respectTransparency.types false in
/-- THE RUN with the result named: every weakly fair execution of @main terminates, the result buffer at the last
    valuation's contents, the arguments as launched. The generated conditional frame at the two region records: the same
    rest state at every boundary (the generator register at some state, nothing owed), made at the launch from the
    register at its launch state and the core owing nothing. -/
theorem run_v2 : θ_run defs (onTc (τ := τ) (main (F := F))) ⟨m, fun _ => 0, ρ⟩ (fun r => ∀ c : Dev nD,
      r.2.mem ((c.tc : Thread nD τ).loc main_v2) = Gen.V3 m (outs m) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond_v2 m emb₁ () noVar noPairs oneLvl (fun _ _ => rfl) ρ (outs m) (pdats m)
    (O₀ := 0) (G := fun _ => BI.emp)
    (u₀ := initOf (Pipeline.cells cfgs cellOf_inj) (Pipeline.launchToks cfgs cellOf_inj))
    (hu₀ := launch_ghost _)
    (E := fun _ c => beside c)
    (hE0 := by
      refine Pipeline.initEach noPairs oneLvl fun c => ?_
      show _ ⊢ |={Set.univ}=> beside c
      iintro ⟨⟨-, Howes, -, Hgen, -⟩, -⟩
      imodintro
      isplitl [Hgen]; · iexists _; iexact Hgen
      iexists ∅; iexact Howes)
    (hE2 := fun c => by
      show beside c ⊢ _
      iintro ⟨-, Howes⟩
      iexact Howes)
    (R0 := reg0 m) (hpre0 := fun _ => .rfl) (hpost0 := fun _ => .rfl)
    (R1 := reg1 m) (hpre1 := fun _ => .rfl) (hpost1 := fun _ => .rfl)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_v2 m ρ)

end Cert.Kernel.KRun

end
-- ==== Proof.KI.R0.lean ====
/-
  The first kernel region (the per-batch sum of the translations over the residues, 16 grid points of
  4096 residues each), at the buffer contents `V` the region is entered from.

  The kernel keeps a running sum in a scratch buffer: point 0 resets it to zero, every point adds the
  lane sum of its block of 4096 residues, and the last point (15) writes the sum times 2⁻¹⁶ into the
  output block. `accAt n` is the scratch after point `n`; the region invariant carries it from point to
  point; the output window is idle (not stored, not written back) at every point but the last.
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: zero plus the lane sums of the blocks of points 0 … n, added one by one. -/
def accAt (c : Dev nD) : (n : ℕ) → n < cfg0.N → Vec F S32x1x3 .f32
  | 0, hn => k0_pay2 (k0_pay1 (F := F)) (iblk V c 0 ⟨0, hn⟩)
  | n + 1, hn => k0_pay2 (accAt c n (Nat.lt_of_succ_lt hn)) (iblk V c 0 ⟨n + 1, hn⟩)

/-- The scratch operand, a whole scoped buffer of the kernel's own. -/
abbrev scM : Memref sig .tc .vmem S32x1x3 .f32 := Memref.whole cc0_scratch0

/-- The core's other scoped buffers that are no staging buffer of this region (the second region's staging
    buffers), each whole at some contents: what the body never touches. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scratch holds anything (the class's
    invariant); afterwards it holds the running sum the point before left. -/
def PhiS (c : Dev nD) : (n : ℕ) → n ≤ cfg0.N → sProp 𝕄
  | 0, _ => Pipeline.ΦA spec0 c
  | n + 1, hn => iprop((owns (c : Thread nD τ) scM fullShare (accAt V c n hn) ∗ restOthers (F := F) c) ∗ (∃ r, prngReg c r))

/-- The proof data of the region on core `c`: the arrays as the region finds them; after the body the input's
    buffer holds its block and the output's the running sum times 2⁻¹⁶ (consulted at the last point only: elsewhere
    the window is idle); the invariant carries the scratch; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = k0_pay3 (accAt V c t.val t.isLt) := by dsimp only [dat0]

/-! ## The two conditionals of the body, in closed form over the grid -/

/-- The reset's condition (the first conditional): the grid coordinate is 0. -/
abbrev isFirst (i : grid0.Coords) : Prop := (Scalar.cmpi .ne (Scalar.extui (Scalar.cmpi .eq (BitVec.ofNat 32 (i 0).val) 0#32)) 0#32) = 1#1
/-- The write-out's condition (the second conditional): the grid coordinate is 15. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 15 :=
  (by decide +kernel : ∀ t : Fin grid0.N, isLast (grid0.coords t) ↔ t.val = 15)

/-- The input window is live at every point. -/
theorem live_in : ∀ t : Fin cfg0.N, cfg0.idle 0 (grid0.coords t) = false := by decide +kernel
/-- Away from the last point the output window is idle, -/
theorem idle_out : ∀ t : Fin cfg0.N, ¬isLast (grid0.coords t) → cfg0.idle 1 (grid0.coords t) = true := by decide +kernel
/-- and its block is not written back there. -/
theorem noFlush_out : ∀ t : Fin cfg0.N, ¬isLast (grid0.coords t) → (cfg0.win 1).flush t = false := by decide +kernel
/-- At the last point the output window is live. -/
theorem live_out : ∀ t : Fin cfg0.N, isLast (grid0.coords t) → cfg0.idle 1 (grid0.coords t) = false := by decide +kernel

/-! ## The invariant, unfolded -/

/-- The class's invariant: the scratch at some contents, the other scoped buffers at some contents, the generator
    register at some state. -/
theorem PhiA_eq (c : Dev nD) :
    (Pipeline.ΦA spec0 c : sProp 𝕄)
      = iprop(((∃ d, owns (c : Thread nD τ) scM fullShare d) ∗ restOthers (F := F) c) ∗ (∃ r, prngReg c r)) := by
  unfold Pipeline.ΦA restOthers; rw [scopedRest0_eq]; simp only [scM, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOthers (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOthers (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The running sum at the first point and after it. -/
theorem accAt_zero (c : Dev nD) (h : 0 < cfg0.N) : accAt V c 0 h = k0_pay2 (k0_pay1 (F := F)) (iblk V c 0 ⟨0, h⟩) := rfl
theorem accAt_pos (c : Dev nD) (t : Fin cfg0.N) (hz : t.val ≠ 0) :
    accAt V c t.val t.isLt = k0_pay2 (accAt V c (t.val - 1) (by omega)) (iblk V c 0 t) := by
  obtain ⟨n, hn⟩ := t
  cases n with
  | zero => exact absurd rfl hz
  | succ n => rfl

/-- The input's current staging buffer holds its block at every point, fetched there or not. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)

/-! ## Whole-buffer loads and stores -/

/-- A load of the whole shape from a whole buffer that reads `X` reads `X`. -/
theorem load_all {sp : Space} {S : Shape} {e : EltTy} {m : Memref sig .tc sp S e} (h : m.IsWhole) {off : Fin S.rank → Nat}
    (ho : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero ho inb X

/-- A store of the whole shape, made last, leaves its payload, whatever the earlier stores and the prior contents. -/
theorem store_all {sp : Space} {S : Shape} {e : EltTy} (v : View sig .tc sp S e) (f : v.ty.Contents (Elt F)) {off : Fin S.rank → Nat}
    (ho : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero ho inb y⟩), View.canon_cons_unit_zero ho inb]

theorem zeros3 : (![0, 0, 0] : Fin 3 → Nat) = fun _ => 0 := by decide

/-! ## The body's run, case by case, with the stored values named -/

set_option maxHeartbeats 1000000 in
/-- A point that is neither the first nor the last: the scratch at the running sum `a`, the input's buffer at its block
    `x`, the output's buffer at anything `o`: the body adds the block's lane sum into the scratch and touches nothing else. -/
theorem run_mid (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : ¬isFirst i) (hc1 : ¬isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o ∗ owns (c : Thread nD τ) arg3 fullShare (k0_pay2 a x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [store_all _ _ zeros3, load_all harg3 zeros3, load_all harg1 zeros3]

set_option maxHeartbeats 1000000 in
/-- The first point: the scratch at anything `a`: the body resets it to zero, then adds the block's lane sum. -/
theorem run_first (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : isFirst i) (hc1 : ¬isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o ∗ owns (c : Thread nD τ) arg3 fullShare (k0_pay2 (k0_pay1 (F := F)) x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  sl_unfold_run_names
  rw [store_all _ _ zeros3, View.readCov_unit_zero _ zeros3, load_all harg1 zeros3]

set_option maxHeartbeats 1000000 in
/-- The last point: the body adds the block's lane sum into the scratch, then stores the sum times 2⁻¹⁶ into the output's
    buffer, whatever that held. -/
theorem run_last (c : Dev nD) (i : grid0.Coords) (arg1 : Memref sig .tc .vmem S32x4096x3 .f32) (harg1 : arg1.IsWhole)
    (arg2 : Memref sig .tc .vmem S32x1x3 .f32) (harg2 : arg2.IsWhole) (arg3 : Memref sig .tc .vmem S32x1x3 .f32) (harg3 : arg3.IsWhole)
    (hc0 : ¬isFirst i) (hc1 : isLast i)
    (x : Vec F S32x4096x3 .f32) (a o : Vec F S32x1x3 .f32) (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare (k0_pay3 (k0_pay2 a x)) ∗ owns (c : Thread nD τ) arg3 fullShare (k0_pay2 a x)) -∗ K ⟨⟩))
      ⊢ wp frame (wpE (defs₀ (F := F)) Variants.none c none) E (cc0__mean_kernel i arg1 harg1 arg2 harg2 arg3 harg3) K := by
  simp only [cc0__mean_kernel_eq_skeleton]; unfold cc0__mean_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact hf1
    iexact H1
  isplitl [H2]
  · iexists _; isplitr
    swap; · iexact H2
    ipureintro
    sl_unfold_run_names
    rw [store_all _ _ zeros3, View.readCov_unit_zero _ zeros3, load_all harg3 zeros3, load_all harg1 zeros3]
  iexists _; isplitr
  swap; · iexact H3
  ipureintro
  sl_unfold_run_names
  rw [store_all _ _ zeros3, load_all harg3 zeros3, load_all harg1 zeros3]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point. The input's buffer holds its block; the invariant hands the scratch over at the running sum
    the point before left (at anything before the first point, which resets it) and takes it back at this point's;
    the output's buffer is handed back as found at every point but the last, where it receives the mean. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live_in t], after0_0]
  have hN : t.val < 16 := lt_of_lt_of_eq t.isLt (show cfg0.N = 16 from N_0)
  by_cases h0 : t.val = 0
  · -- the first point: the reset
    have hl : ¬isLast (grid0.coords t) := fun h => by have := (isLast_iff t).mp h; omega
    rw [Dat.leavesExact_idle (dat0 V c) 1 t (idle_out t hl) (noFlush_out t hl)]
    rw [PhiS_castSucc V c t, PhiS_zero V c _ _ h0, PhiA_eq]
    have hacc : accAt V c t.val t.isLt = k0_pay2 (k0_pay1 (F := F)) (iblk V c 0 t) := by
      obtain ⟨n, hn⟩ := t; dsimp only at h0; subst h0; rfl
    rw [hacc]
    iintro ⟨⟨⟨⟨%a, HS⟩, HR⟩, Hg⟩, Ho, ⟨%d0, H0⟩, ⟨%d1, H1⟩⟩
    iapply (run_first c (grid0.coords t) _ _ _ _ _ _ ((isFirst_iff t).mpr h0) hl (iblk V c 0 t) a _ Set.univ _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexists _; iexact H1
  · have hf : ¬isFirst (grid0.coords t) := fun h => h0 ((isFirst_iff t).mp h)
    by_cases h1 : t.val = 15
    · -- the last point: the mean goes out
      have hl : isLast (grid0.coords t) := (isLast_iff t).mpr h1
      rw [show (dat0 V c).leavesExact 1 t = owns (c : Thread nD τ) (st0_1 t) fullShare ((dat0 V c).after 1 t) from by
        unfold Dat.leavesExact; rw [live_out t hl], after0_1]
      rw [PhiS_castSucc V c t, PhiS_pos V c _ _ h0, accAt_pos V c t h0]
      iintro ⟨⟨⟨HS, HR⟩, Hg⟩, Ho, ⟨%d0, H0⟩, ⟨%d1, H1⟩⟩
      iapply (run_last c (grid0.coords t) _ _ _ _ _ _ hf hl (iblk V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
    · -- a point in between: the sum goes on
      have hl : ¬isLast (grid0.coords t) := fun h => h1 ((isLast_iff t).mp h)
      rw [Dat.leavesExact_idle (dat0 V c) 1 t (idle_out t hl) (noFlush_out t hl)]
      rw [PhiS_castSucc V c t, PhiS_pos V c _ _ h0, accAt_pos V c t h0]
      iintro ⟨⟨⟨HS, HR⟩, Hg⟩, Ho, ⟨%d0, H0⟩, ⟨%d1, H1⟩⟩
      iapply (run_mid c (grid0.coords t) _ _ _ _ _ _ hf hl (iblk V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation of the region, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ (Pipeline.ΦA spec0 c : sProp 𝕄) := by
  have hne : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ hne, PhiA_eq]
  iintro ⟨⟨HS, HR⟩, Hg⟩
  isplitl [HS HR]
  · isplitl [HS]
    · iexists _; iexact HS
    iexact HR
  iexact Hg

end Cert.KernelIdeal.R0

end
-- ==== Proof.KI.R1.lean ====
/-
  The second kernel region (normalise each residue's quaternion, build its rotation matrix, rotate the four atoms and
  add the centred translation; 32 grid points of 2048 residues each), at the buffer contents `V` the region is entered
  from.

  The body loads the three input blocks whole (the translations' block, the quaternions' block, the per-batch means),
  computes, and stores the output block whole: what it stores is `rotPay` of the three loads. It keeps nothing between
  points and reads no output buffer's value, so the region invariant is the class's (the scoped rest and the generator
  register, untouched).
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the output block, from its three loads: `x0` the translations' block, `x1` the
    quaternions' block, `x2` the per-batch means — the payloads of the four printed parts composed, then the twelve
    columns concatenated. -/
def rotPay (x0 : Vec F S32x2048x3 .f32) (x1 : Vec F S32x2048x4 .f32) (x2 : Vec F S32x1x3 .f32) : FVec F S32x2048x12 .f32 :=
  let v19 := k1_pay7 x1; let v20 := k1_pay8 x1; let v21 := k1_pay9 x1; let v22 := k1_pay10 x1
  let v29 := k1_pay12 x0 x2; let v31 := k1_pay13 x0 x2; let v33 := k1_pay14 x0 x2
  let v40 := k1_pay15 x1; let v45 := k1_pay16 x1
  let v50 := k1_pay17 v19 v20 v21 v22; let v55 := k1_pay18 v19 v20 v21 v22; let v62 := k1_pay19 v20 v22
  let v67 := k1_pay20 v19 v20 v21 v22; let v72 := k1_pay21 v19 v20 v21 v22; let v77 := k1_pay22 v19 v20 v21 v22
  let v84 := k1_pay23 v20 v21; let v93 := k1_pay24 v19 v20 v21 v22 v29 v40 v45
  let v102 := k1_pay25 v31 v55 v62 v67; let v111 := k1_pay26 v33 v72 v77 v84; let v120 := k1_pay27 v29 v40 v45 v50
  let v129 := k1_pay28 v31 v55 v62 v67; let v138 := k1_pay29 v33 v72 v77 v84
  let v147 := k1_pay30 v29 v40 v45 v50; let v156 := k1_pay31 v31 v55 v62 v67; let v165 := k1_pay32 v33 v72 v77 v84
  let v174 := k1_pay33 v29 v40 v45 v50; let v183 := k1_pay34 v31 v55 v62 v67
  k1_pay1 v33 v72 v77 v84 v93 v102 v111 v120 v129 v138 v147 v156 v165 v174 v183

/-- The body's accesses: each buffer whole. -/
abbrev r_0 : Rect S32x2048x3 := Rect.unit (s := S32x2048x3) ![0, 0, 0] S32x2048x3.size inb_S32x2048x3_S32x2048x3_0_0_0
abbrev r_1 : Rect S32x2048x4 := Rect.unit (s := S32x2048x4) ![0, 0, 0] S32x2048x4.size inb_S32x2048x4_S32x2048x4_0_0_0
abbrev r_2 : Rect S32x1x3 := Rect.unit (s := S32x1x3) ![0, 0, 0] S32x1x3.size inb_S32x1x3_S32x1x3_0_0_0
abbrev r_3 : Rect S32x2048x12 := Rect.unit (s := S32x2048x12) ![0, 0, 0] S32x2048x12.size inb_S32x2048x12_S32x2048x12_0_0_0

/-- The output window's staging buffer after the body, from the input windows' blocks: its one store as a piece. -/
def out3 (x0 : Vec F S32x2048x3 .f32) (x1 : Vec F S32x2048x4 .f32) (x2 : Vec F S32x1x3 .f32) : Vec F S32x2048x12 .f32 :=
  View.canon [⟨r_3, rotPay (View.ld x0 r_0) (View.ld x1 r_1) (View.ld x2 r_2)⟩]

/-- The proof data of the region on core `c`: the arrays as the region finds them; after the body each input's buffer at
    its block and the output's at `out3` of the input blocks; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) :
    (dat1 V c).after 3 t = out3 (iblk V c 0 t) (iblk V c 1 t) (iblk V c 2 t) := by dsimp only [dat1]

/-! ## What the body finds in the three input buffers -/

/-- The translations' buffer holds the point's block of translations whenever the body runs: an input the body leaves
    in place holds what a fetch would bring, moved or not. -/
theorem found1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- The quaternions' buffer holds the point's block of quaternions, likewise. -/
theorem found1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- The means' buffer holds the one block of means at every point: its block index never moves, so after the first
    point nothing is fetched and the buffer still holds what the first fetch brought. -/
theorem found1_2 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)

/-! ## The one store fills the output buffer -/

/-- The single whole-buffer store covers every index of the output block. -/
theorem fills3 (p : Vec F S32x2048x12 .f32) (y : S32x2048x12.Idx) :
    ∃ pc ∈ ([⟨r_3, p⟩] : List (View.Piece (Elt F) S32x2048x12 .f32)), y ∈ pc.1.set :=
  View.cover_of_tiled [⟨r_3, p⟩] S32x2048x12.size (by rfl) y

/-! ## The body's triple -/

set_option maxHeartbeats 4000000 in
/-- The rotation body on four whole staging memrefs — the three inputs' read as x0 (translations), x1 (quaternions),
    x2 (means), the output's at anything — runs to a continuation that is handed the inputs' as they were and the output's
    at out3 of the three: three whole loads, arithmetic, one dead load and the one whole store of the rotated atoms. -/
theorem rotate_triple (c : Dev nD) (E : Set ℕ) (i : grid1.Coords)
    (a0 : Memref sig .tc .vmem S32x2048x3 .f32) (h0 : a0.IsWhole) (a1 : Memref sig .tc .vmem S32x2048x4 .f32) (h1 : a1.IsWhole)
    (a2 : Memref sig .tc .vmem S32x1x3 .f32) (h2 : a2.IsWhole) (a3 : Memref sig .tc .vmem S32x2048x12 .f32) (h3 : a3.IsWhole)
    (x0 : Vec F S32x2048x3 .f32) (x1 : Vec F S32x2048x4 .f32) (x2 : Vec F S32x1x3 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out3 x0 x1 x2)) -∗ K ⟨⟩))
      ⊢ wp frame (wpE (defs₀ (F := F)) Variants.none c none) E (cc1__rotate_kernel i a0 h0 a1 h1 a2 h2 a3 h3) K := by
  simp only [cc1__rotate_kernel_eq_skeleton]; unfold cc1__rotate_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fills3 _)

/-! ## The body obligation at a point -/

/-- What the body is called with at point t: the invariant, the core's debts, and the four current staging buffers
    at what the pipeline left in them. -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debts, each buffer at what the proof data say the body leaves. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the triple applies at those blocks; the
    invariant and the debts pass through untouched (they do not depend on the point). -/
theorem rotate_at (c : Dev nD) (t : Fin cfg1.N) :
    entry1 V c t ⊢ wp frame (wpE (defs₀ (F := F)) Variants.none c none) Set.univ (bodyAt1 t) (fun _ => exit1 V c t) := by
  unfold entry1 exit1 bodyAt1
  simp only [found1_0, found1_1, found1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (rotate_triple c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V c) (defs₀ (F := F)) Variants.none () Set.univ := fun t => by
  rw [bigSep_W1, bigSep_W1]
  exact rotate_at V c t

end Cert.KernelIdeal.R1

end
-- ==== Proof.KI.Run.lean ====
/-
  The whole kernel program run: @main is the first region (the per-batch sums), the second region (the rotations), and
  one host reshape of the second region's result. Each region's proof data is taken at the buffer contents the region is
  entered from: the launch memory for the first; for the second, the launch memory with the first region's output array
  at what that region's write-backs leave (`mid`). After the second region its output array holds what its write-backs
  leave (`fin`), and the result buffer is that array reshaped.

  Given here: the two regions as segment records over the thread state "every unscoped buffer whole at the boundary's
  contents, the generator register at some state, nothing owed", the launch, the frame claim (`frame`), and the run
  with the result buffer named (`run_v2`, `V3_v2`).
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import proofs.«174519_j29231547417075_1_alg».proof.Proof.KI.R0
import proofs.«174519_j29231547417075_1_alg».proof.Proof.KI.R1
import proofs.«174519_j29231547417075_1_alg».proof.Proof.KI.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's entry contents: the launch memory. -/
abbrev Ve0 : (c : Dev nD) → (b : Ref sig .tc) → Buf (Elt F) ((c : Thread nD τ).loc b) := fun c b => Gen.V0 m c b

/-- After the first region: its arrays at what the pipeline leaves (the input as entered, the output's write-backs
    folded), every other buffer as launched. -/
def mid (c : Dev nD) : Valuation τ sig (Elt F) :=
  Pipeline.withArrays spec0 c (Gen.V0 m c) fun w => (R0.dat0 (Ve0 m) c).arrAt w cfg0.N

/-- The second region's entry contents. -/
abbrev Ve1 : (c : Dev nD) → (b : Ref sig .tc) → Buf (Elt F) ((c : Thread nD τ).loc b) := fun c b => mid m c b

/-- After the second region: its arrays at what the pipeline leaves, every other buffer as it was entered. -/
def fin (c : Dev nD) : Valuation τ sig (Elt F) :=
  Pipeline.withArrays spec1 c (mid m c) fun w => (R1.dat1 (Ve1 m) c).arrAt w cfg1.N

/-- What the regions leave in the buffers they may change: read at `outs 1 main_v0` and `outs 2 main_v1` only. -/
def outs : Gen.Outs (F := F) := fun J r c => if J = 1 then mid m c r else fin m c r

/-- Every pipeline's proof data, each at its region's entry contents. -/
def pdats : (p : Fin 2) → (c : Dev nD) → Dat τ (Elt F) Unit ℕ (UR sig nD τ) ℕ (cfgs p) c
  | ⟨0, _⟩ => fun c => R0.dat0 (Ve0 m) c
  | ⟨1, _⟩ => fun c => R1.dat1 (Ve1 m) c

/-! ## The contents at the two inner boundaries, buffer by buffer -/

/-- After the first region each of its arrays holds what the pipeline leaves there, -/
theorem mid_arr (c : Dev nD) (w : Fin cfg0.W) :
    mid m c (Proc.devRef .tc (Pipeline.arrRef spec0 w)) = (R0.dat0 (Ve0 m) c).arrAt w cfg0.N := by
  unfold mid; exact Pipeline.withArrays_arr spec0 launch0.win.arr_inj c _ _ w
/-- and a buffer that is none of them holds what it held at launch. -/
theorem mid_of_ne (c : Dev nD) (b : Ref sig .tc) (hb : ∀ w, Pipeline.arrRef spec0 w ≠ b) :
    mid m c (Proc.devRef .tc b) = Gen.V0 m c (Proc.devRef .tc b) := by
  unfold mid; exact Pipeline.withArrays_of_ne spec0 c _ _ b hb
/-- The same for the second region, over the contents it was entered from. -/
theorem fin_arr (c : Dev nD) (w : Fin cfg1.W) :
    fin m c (Proc.devRef .tc (Pipeline.arrRef spec1 w)) = (R1.dat1 (Ve1 m) c).arrAt w cfg1.N := by
  unfold fin; exact Pipeline.withArrays_arr spec1 launch1.win.arr_inj c _ _ w
theorem fin_of_ne (c : Dev nD) (b : Ref sig .tc) (hb : ∀ w, Pipeline.arrRef spec1 w ≠ b) :
    fin m c (Proc.devRef .tc b) = mid m c (Proc.devRef .tc b) := by
  unfold fin; exact Pipeline.withArrays_of_ne spec1 c _ _ b hb

/-- The second region finds the first region's output array at what that region left, and the arguments as launched. -/
theorem Ve1_v0 (c : Dev nD) : Ve1 m c main_v0 = (R0.dat0 (Ve0 m) c).arrAt 1 cfg0.N :=
  mid_arr m c 1
theorem Ve1_arg0 (c : Dev nD) : Ve1 m c main_arg0 = m ((c : Thread nD τ).loc main_arg0) :=
  (mid_arr m c 0).trans (((R0.dat0 (Ve0 m) c).arrAt_in 0 rfl _).trans (R0.A_eq0 (Ve0 m) c 0))
theorem Ve1_arg1 (c : Dev nD) : Ve1 m c main_arg1 = m ((c : Thread nD τ).loc main_arg1) :=
  mid_of_ne m c main_arg1 (by decide)

/-- The generated fold's contents after the first region are `mid`, at every TensorCore buffer: at the region's output
    array by the choice of `outs`; elsewhere both are the launch contents (the input array: entered and left alike). -/
theorem V1_eq_mid (c : Dev nD) (b : Ref sig .tc) : Gen.V1 m (outs m) c b = mid m c b := by
  by_cases h1 : b = main_v0
  · subst h1
    show Function.update (Gen.V0 m c) (Proc.devRef .tc main_v0) (outs m 1 main_v0 c) (Proc.devRef .tc main_v0) = _
    rw [Function.update_self]; exact if_pos rfl
  · rw [Gen.V1_of m (outs m) c b (fun hm => h1 (List.mem_singleton.mp hm))]
    by_cases h0 : b = main_arg0
    · subst h0; exact (Ve1_arg0 m c).symm
    · exact (mid_of_ne m c b (fun w => match w with
        | ⟨0, _⟩ => fun e => h0 e.symm
        | ⟨1, _⟩ => fun e => h1 e.symm)).symm

/-- After the second region the generated fold has that region's output array at what its write-backs leave. -/
theorem V2_v1 (c : Dev nD) : Gen.V2 m (outs m) c main_v1 = (R1.dat1 (Ve1 m) c).arrAt 3 cfg1.N := by
  show Function.update (Gen.V1 m (outs m) c) (Proc.devRef .tc main_v1) (outs m 2 main_v1 c) (Proc.devRef .tc main_v1) = _
  rw [Function.update_self]
  exact (if_neg (by decide)).trans (fin_arr m c 3)

/-- The result buffer at the end: the second region's output array, as its write-backs leave it, reshaped. -/
theorem V3_v2 (c : Dev nD) :
    Gen.V3 m (outs m) c main_v2
      = shapeCast S32x65536x4x3 ((R1.dat1 (Ve1 m) c).arrAt 3 cfg1.N) shapeCasts_S32x65536x12_S32x65536x4x3 := by
  show StableHlo.after hostOps2 (Gen.V2 m (outs m) c) (Proc.devRef .tc main_v2) = _
  simp only [hostOps2, StableHlo.after_cons, StableHlo.after_nil]
  rw [StableHlo.reshape_result]
  funext i
  exact congrArg (fun X => shapeCast S32x65536x4x3 X shapeCasts_S32x65536x12_S32x65536x4x3 i) (V2_v1 m c)

/-! ## What rides beside the buffers -/

/-- No variant, no recorded pair, one level: no core owes another anything in this program. -/
private abbrev noVar : Variants := Variants.none
private abbrev noPairs : GSem nD τ sig → Finset Unit := fun _ => ∅
private abbrev oneLvl : GSem nD τ sig → Unit → ℕ := fun _ _ => 0

/-- Beside the buffers a core holds, at every boundary, its generator register at some state and owes nothing. -/
private abbrev beside (c : Dev nD) : sProp 𝕄 :=
  iprop((∃ r, prngReg c r) ∗ ∃ W, owes (c : Thread nD τ) (0 : CellTallies nD τ sig Unit) W)

/-- A core owing nothing meets the debt recorded by proof data that owe nothing at a position and bound no pair. -/
private theorem owes_into {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, H⟩
  iexists W
  isplitr
  · ipureintro; exact fun _ _ => Or.inl trivial
  iexact H

/-- and such a debt, given back, is a core owing nothing. -/
private theorem owes_out_of {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-- The class's region invariant is the generator register at some state beside the scoped buffers no window stages:
    put together from the two (whatever else is offered is dropped), -/
private theorem classInv_of {gr W : Nat} (win : Fin W → Pipeline.WinSpec sig gr) (c : Dev nD) (T : sProp 𝕄) :
    (iprop((∃ r, prngReg c r) ∗ T ∗ Pipeline.scopedRest win c) : sProp 𝕄) ⊢ Pipeline.ΦA win c := by
  unfold Pipeline.ΦA
  iintro ⟨Hgen, -, Hsc⟩
  isplitl [Hsc]; · iexact Hsc
  iexact Hgen

/-- and taken apart into them. -/
private theorem classInv_to {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hsc, Hgen⟩
  isplitl [Hgen]; · iexact Hgen
  isplitr; · iempintro
  iexact Hsc

/-- ENTERING a region from the thread state. Given the unscoped buffers split into the region's arrays `A` and the
    rest `Zr`, nothing for the prefetched tables `P` (there is none), and the debt `D` met by a core owing nothing:
    the arrays, the tables, the debt, the generator register and the rest, whatever else `T` is offered. -/
private theorem enter {c : Dev nD} {Vh : Valuation τ sig (Elt F)} {A Zr P D : sProp 𝕄}
    (hsplit : (StableHlo.held (c : Thread nD τ) (Pipeline.ucRefs τ sig) Vh : sProp 𝕄) ⊢ iprop(A ∗ Zr))
    (hP : (BI.emp : sProp 𝕄) ⊢ P)
    (hD : (iprop(∃ W, owes (c : Thread nD τ) (0 : CellTallies nD τ sig Unit) W) : sProp 𝕄) ⊢ D) (T : sProp 𝕄) :
    (iprop((StableHlo.held (c : Thread nD τ) (Pipeline.ucRefs τ sig) Vh ∗ beside c) ∗ T) : sProp 𝕄)
      ⊢ |={Set.univ}=> iprop(A ∗ P ∗ D ∗ (∃ r, prngReg c r) ∗ Zr) := by
  iintro ⟨⟨Hbufs, Hgen, Howes⟩, -⟩
  ihave Hsp := hsplit $$ Hbufs
  icases Hsp with ⟨Harr, Hoff⟩
  imodintro
  isplitl [Harr]; · iexact Harr
  isplitr; · iapply hP; iempintro
  isplitl [Howes]; · iapply hD; iexact Howes
  isplitl [Hgen]; · iexact Hgen
  iexact Hoff

/-- LEAVING a region into the thread state. Given the region's arrays `A` and the rest `Zr` joined into the unscoped
    buffers at the exit contents, and the debt `D` given back as a core owing nothing. -/
private theorem leave {c : Dev nD} {Vh : Valuation τ sig (Elt F)} {A Zr D : sProp 𝕄}
    (hjoin : (iprop(A ∗ Zr) : sProp 𝕄) ⊢ StableHlo.held (c : Thread nD τ) (Pipeline.ucRefs τ sig) Vh)
    (hD : D ⊢ (iprop(∃ W, owes (c : Thread nD τ) (0 : CellTallies nD τ sig Unit) W) : sProp 𝕄)) :
    (iprop(A ∗ D ∗ (∃ r, prngReg c r) ∗ Zr) : sProp 𝕄)
      ⊢ |={Set.univ}=> iprop(StableHlo.held (c : Thread nD τ) (Pipeline.ucRefs τ sig) Vh ∗ beside c) := by
  iintro ⟨Harr, Howes, Hgen, Hoff⟩
  imodintro
  isplitl [Harr Hoff]
  · iapply hjoin; isplitl [Harr] <;> iassumption
  isplitl [Hgen]; · iexact Hgen
  iapply hD; iexact Howes

/-- A pipeline with no prefetched table holds them all: the empty conjunction. -/
private theorem noTables {pre : Pipeline.Prefetch sig} (hK : pre.K = 0) (c : Dev nD) (q : Fin pre.K → PosShare TreeShare)
    (v : pre.Contents (Elt F)) : (BI.emp : sProp 𝕄) ⊢ Pipeline.prefHeld pre c q v := by
  unfold Pipeline.prefHeld
  have : (Finset.univ : Finset (Fin pre.K)) = ∅ := Finset.eq_empty_of_forall_notMem fun k => (hK ▸ k).elim0
  rw [this, BI.bigSep_empty]

/-! ## The generated fold against the regions' arrays -/

/-- The generated fold's contents after each region, read at the TensorCore's references. -/
private abbrev Vb1 : (c : Dev nD) → (b : Ref sig .tc) → Buf (Elt F) ((c : Thread nD τ).loc b) := fun c b => Gen.V1 m (outs m) c b
private abbrev Vb2 : (c : Dev nD) → (b : Ref sig .tc) → Buf (Elt F) ((c : Thread nD τ).loc b) := fun c b => Gen.V2 m (outs m) c b

/-- Leaving the first region: each of its arrays holds what the pipeline leaves, every other buffer what it held. -/
private theorem left0_arr (c : Dev nD) (w : Fin cfg0.W) :
    (R0.dat0 (Ve0 m) c).arrAt w cfg0.N = Vb1 m c (Pipeline.arrRef spec0 w) :=
  (mid_arr m c w).symm.trans (V1_eq_mid m c _).symm
private theorem left0_rest (c : Dev nD) :
    ∀ b, b ∉ Finset.univ.image (Pipeline.arrRef spec0) → Vb1 m c b = Ve0 m c b :=
  fun b hb => (V1_eq_mid m c b).trans (mid_of_ne m c b fun w e => hb (Finset.mem_image.mpr ⟨w, Finset.mem_univ _, e⟩))

/-- Off the second region's output array the fold after it is the contents it was entered from. -/
private theorem V2_in (c : Dev nD) (b : Ref sig .tc) (h : b ≠ main_v1) : Gen.V2 m (outs m) c b = mid m c b :=
  (Gen.V2_of m (outs m) c b (fun hm => h (List.mem_singleton.mp hm))).trans (V1_eq_mid m c b)

/-- Leaving the second region: an input array holds what it was entered with, the output array what the write-backs
    leave; every other buffer what it held. -/
private theorem left1_arr (c : Dev nD) :
    ∀ w : Fin cfg1.W, (R1.dat1 (Ve1 m) c).arrAt w cfg1.N = Vb2 m c (Pipeline.arrRef spec1 w)
  | ⟨0, _⟩ => (((R1.dat1 (Ve1 m) c).arrAt_in 0 rfl _).trans (R1.A_eq1 (Ve1 m) c 0)).trans (V2_in m c main_arg0 (by decide)).symm
  | ⟨1, _⟩ => (((R1.dat1 (Ve1 m) c).arrAt_in 1 rfl _).trans (R1.A_eq1 (Ve1 m) c 1)).trans (V2_in m c main_arg1 (by decide)).symm
  | ⟨2, _⟩ => (((R1.dat1 (Ve1 m) c).arrAt_in 2 rfl _).trans (R1.A_eq1 (Ve1 m) c 2)).trans (V2_in m c main_v0 (by decide)).symm
  | ⟨3, _⟩ => (V2_v1 m c).symm
private theorem left1_rest (c : Dev nD) :
    ∀ b, b ∉ Finset.univ.image (Pipeline.arrRef spec1) → Vb2 m c b = Vb1 m c b :=
  fun b hb => Gen.V2_of m (outs m) c b fun hm =>
    hb (Finset.mem_image.mpr ⟨3, Finset.mem_univ _, (List.mem_singleton.mp hm).symm⟩)

/-! ## The regions as segments -/

-- the record's fields are stated over the pinned configuration, which is the printed one by unfolding definitions
set_option backward.isDefEq.respectTransparency.types false in
/-- THE FIRST REGION over the thread state: entered with every unscoped buffer at the launch contents, left with the
    output array at what the write-backs fold to. Its two arrays are split out of the unscoped buffers on entry and put
    back at the exit contents; the generator register and the scoped buffers no window stages make the class's
    invariant, which the region's own invariant starts from and ends in; nothing is owed; the kernel has no semaphore
    of its own and no prefetched table. -/
def reg0 : Pipeline.RegionSeg (pcfgs (F := F)) Gen.adm (pdats m) () defs₀ noVar noPairs oneLvl 0 where
  win := launch0.win.to₀
  block_pos := launch0.block_pos
  stage_whole := launch0.stage_whole
  K := PEmpty
  osem k := k.elim
  ho := Pipeline.OwnSemFacts.none _
  hbody c := (R0.body_obligation0 (Ve0 m) c).loose
  hwaits := Pipeline.hwaits_of_owed_zero _ _ _ _ noPairs oneLvl 0 fun _ _ => rfl
  pre c := iprop(StableHlo.held (c : Thread nD τ) (Pipeline.ucRefs τ sig) (Gen.V0 m c) ∗ beside c)
  post c := iprop(StableHlo.held (c : Thread nD τ) (Pipeline.ucRefs τ sig) (Gen.V1 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    exact enter hsplit (noTables rfl c _ _) (owes_into (pdats m 0 c) 0 rfl rfl) _
  -- the class's invariant from its two parts, then the region's own invariant before the first point
  hin c := (classInv_of spec0 c _).trans (R0.hin0 (Ve0 m) c)
  -- after the last point the region's invariant gives the class's back, which is its two parts
  hout c := by
    rw [Pipeline.ownSems0_none]
    exact (R0.hout0 (Ve0 m) c).trans (classInv_to spec0 c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vb1 m c) ((pdats m 0 c).arrAt · cfg0.N) (left0_arr m c) (left0_rest m c)
    rw [Pipeline.unscopedBufs_held] at hjoin
    exact leave hjoin (owes_out_of (pdats m 0 c) (Fin.last _) rfl)

set_option backward.isDefEq.respectTransparency.types false in
/-- THE SECOND REGION over the thread state: entered with the first region's output array at what that region left,
    left with its own output array at what its write-backs fold to. Its four arrays (three inputs, one output) are split
    out of the unscoped buffers and put back; its invariant is the class's at every point; nothing is owed; no semaphore
    of the kernel's own, no prefetched table. -/
def reg1 : Pipeline.RegionSeg (pcfgs (F := F)) Gen.adm (pdats m) () defs₀ noVar noPairs oneLvl 1 where
  win := launch1.win.to₀
  block_pos := launch1.block_pos
  stage_whole := launch1.stage_whole
  K := PEmpty
  osem k := k.elim
  ho := Pipeline.OwnSemFacts.none _
  hbody c := (R1.body_obligation1 (Ve1 m) c).loose
  hwaits := Pipeline.hwaits_of_owed_zero _ _ _ _ noPairs oneLvl 1 fun _ _ => rfl
  pre c := iprop(StableHlo.held (c : Thread nD τ) (Pipeline.ucRefs τ sig) (Gen.V1 m (outs m) c) ∗ beside c)
  post c := iprop(StableHlo.held (c : Thread nD τ) (Pipeline.ucRefs τ sig) (Gen.V2 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (Vb1 m c)
  hentry c := by
    -- the proof data's entry contents are `mid`, which the fold after the first region is
    have hsplit := Pipeline.arrays_of_unscopedBufs (p := 1) (pcfgs (F := F)) Gen.adm (pdats m) launch1.win launch1.arr_whole c
      ((pdats m 1 c).share_full fun _ => rfl) (Vb1 m c) fun w => (V1_eq_mid m c _).symm
    rw [Pipeline.unscopedBufs_held] at hsplit
    exact enter hsplit (noTables rfl c _ _) (owes_into (pdats m 1 c) 0 rfl rfl) _
  hin c := classInv_of spec1 c _
  hout c := by
    rw [Pipeline.ownSems0_none]
    exact classInv_to spec1 c
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vb1 m c) (Vb2 m c) ((pdats m 1 c).arrAt · cfg1.N) (left1_arr m c) (left1_rest m c)
    rw [Pipeline.unscopedBufs_held] at hjoin
    exact leave hjoin (owes_out_of (pdats m 1 c) (Fin.last _) rfl)

/-! ## The launch -/

/-- The launch's ghost element is the pipelines' cells and duty tokens, whole; no core takes anything besides. -/
private theorem launch_ghost (u : UR sig nD τ) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro Hu
  imodintro
  isplitl [Hu]; · iexact Hu
  iempintro

-- as for the records: the pinned configurations are the printed ones by unfolding definitions
set_option backward.isDefEq.respectTransparency.types false in
/-- THE RUN with the result named: every weakly fair execution of @main terminates, the result buffer at the last
    valuation's contents, the arguments as launched. The generated conditional frame at the two region records: the same
    rest state at every boundary (the generator register at some state, nothing owed), made at the launch from the
    register at its launch state and the core owing nothing. -/
theorem run_v2 : θ_run defs (onTc (τ := τ) (main (F := F))) ⟨m, fun _ => 0, ρ⟩ (fun r => ∀ c : Dev nD,
      r.2.mem ((c.tc : Thread nD τ).loc main_v2) = Gen.V3 m (outs m) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond_v2 m emb₁ () noVar noPairs oneLvl (fun _ _ => rfl) ρ (outs m) (pdats m)
    (O₀ := 0) (G := fun _ => BI.emp)
    (u₀ := initOf (Pipeline.cells cfgs cellOf_inj) (Pipeline.launchToks cfgs cellOf_inj))
    (hu₀ := launch_ghost _)
    (E := fun _ c => beside c)
    (hE0 := by
      refine Pipeline.initEach noPairs oneLvl fun c => ?_
      show _ ⊢ |={Set.univ}=> beside c
      iintro ⟨⟨-, Howes, -, Hgen, -⟩, -⟩
      imodintro
      isplitl [Hgen]; · iexists _; iexact Hgen
      iexists ∅; iexact Howes)
    (hE2 := fun c => by
      show beside c ⊢ _
      iintro ⟨-, Howes⟩
      iexact Howes)
    (R0 := reg0 m) (hpre0 := fun _ => .rfl) (hpost0 := fun _ => .rfl)
    (R1 := reg1 m) (hpre1 := fun _ => .rfl) (hpost1 := fun _ => .rfl)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_v2 m ρ)

end Cert.KernelIdeal.KRun

end
-- ==== Proof.Spec.lean ====
/-
  What both programs compute, as one function of the two argument arrays, index by index over the
  extended reals: for batch `b`, residue `l`, atom `a` and coordinate `i`, the atom's idealized
  internal position rotated by the unit quaternion of the residue and moved by the residue's
  translation, the translations first centred on their mean over the 65536 residues of the batch.

  * `mean x b i` — the sum over the residues of coordinate `i` of batch `b`, times 2⁻¹⁶ (= 1/65536).
  * `nrm q b l` — the Euclidean norm of the residue's quaternion plus the guard word.
  * `qn q b l k` — component `k` of the quaternion divided by that.
  * `rot q b l i j` — entry (i, j) of the rotation matrix of the normalised quaternion (r, i, j, k).
  * `atom a j` — coordinate `j` of atom `a` (N, CA, C, CB): the twelve literal words, row-major.
  * `Gat x q b l a i = ((R i 0 · P a 0 + R i 1 · P a 1) + R i 2 · P a 2) + (x b l i − mean x b i)`.

  The literal words (2, 1, the guard, the atoms' coordinates) are kept as words: both programs carry
  the same ones, so they are never evaluated.
-/
import Idealize.ShloMosaic.PureOps.Ideal
import Idealize.ShloMosaic.Lib.ValueIdx

noncomputable section

namespace Cert.Spec

open Idealize.ShloMosaic Idealize.ShloMosaic.ValueIdx
open scoped BigOperators

/-- The translations' shape, the quaternions', the result's. -/
abbrev SX : Shape := ⟨3, ![32, 65536, 3]⟩
abbrev SQ : Shape := ⟨3, ![32, 65536, 4]⟩
abbrev SO : Shape := ⟨4, ![32, 65536, 4, 3]⟩

/-- The mean over the 65536 residues of coordinate `i` of batch `b`. -/
def mean (x : SX.Idx → EReal) (b : Fin 32) (i : Fin 3) : EReal :=
  (∑ l : Fin 65536, x (ix3 b l i)) * ((1 / 65536 : ℝ) : EReal)

/-- The guard added to the norm, and the two small integers of the rotation's entries, as the words both programs print. -/
def eps : EReal := Ideal.ofBits .f32 0x358637BD#32
def two : EReal := Ideal.ofBits .f32 0x40000000#32
def one : EReal := Ideal.ofBits .f32 0x3F800000#32

/-- The norm of residue (b, l)'s quaternion, plus the guard. -/
def nrm (q : SQ.Idx → EReal) (b : Fin 32) (l : Fin 65536) : EReal :=
  Ideal.sqrt (((q (ix3 b l 0) * q (ix3 b l 0) + q (ix3 b l 1) * q (ix3 b l 1)) + q (ix3 b l 2) * q (ix3 b l 2))
    + q (ix3 b l 3) * q (ix3 b l 3)) + eps

/-- Component `k` of the normalised quaternion. -/
def qn (q : SQ.Idx → EReal) (b : Fin 32) (l : Fin 65536) (k : Fin 4) : EReal :=
  Ideal.div (q (ix3 b l k)) (nrm q b l)

/-- Entry (i, j) of the rotation matrix of the normalised quaternion (r, i, j, k) = (qn 0, qn 1, qn 2, qn 3). -/
def rot (q : SQ.Idx → EReal) (b : Fin 32) (l : Fin 65536) : Fin 3 → Fin 3 → EReal
  | 0, 0 => one - two * (qn q b l 2 * qn q b l 2 + qn q b l 3 * qn q b l 3)
  | 0, 1 => two * (qn q b l 1 * qn q b l 2 - qn q b l 3 * qn q b l 0)
  | 0, 2 => two * (qn q b l 1 * qn q b l 3 + qn q b l 2 * qn q b l 0)
  | 1, 0 => two * (qn q b l 1 * qn q b l 2 + qn q b l 3 * qn q b l 0)
  | 1, 1 => one - two * (qn q b l 1 * qn q b l 1 + qn q b l 3 * qn q b l 3)
  | 1, 2 => two * (qn q b l 2 * qn q b l 3 - qn q b l 1 * qn q b l 0)
  | 2, 0 => two * (qn q b l 1 * qn q b l 3 - qn q b l 2 * qn q b l 0)
  | 2, 1 => two * (qn q b l 2 * qn q b l 3 + qn q b l 1 * qn q b l 0)
  | 2, 2 => one - two * (qn q b l 1 * qn q b l 1 + qn q b l 2 * qn q b l 2)

/-- The atoms' internal coordinates, row-major: N, CA, C, CB. -/
abbrev lit : Fin 12 → BitVec 32 := fun
  | 0 => 0x3FBAE443#32 | 1 => 0x00000000#32 | 2 => 0x00000000#32 | 3 => 0x00000000#32 | 4 => 0x00000000#32 | 5 => 0x00000000#32
  | 6 => 0xBF1076D4#32 | 7 => 0x3FB55EE3#32 | 8 => 0x00000000#32 | 9 => 0xBF06361C#32 | 10 => 0xBF442002#32 | 11 => 0x3F9A517E#32

/-- Coordinate `j` of atom `a`. -/
def atom (a : Fin 4) (j : Fin 3) : EReal :=
  Ideal.ofBits .f32 (lit ⟨3 * a.val + j.val, by have := a.isLt; have := j.isLt; omega⟩)

/-- The result at batch `b`, residue `l`, atom `a`, coordinate `i`. -/
def Gat (x : SX.Idx → EReal) (q : SQ.Idx → EReal) (b : Fin 32) (l : Fin 65536) (a : Fin 4) (i : Fin 3) : EReal :=
  ((rot q b l i 0 * atom a 0 + rot q b l i 1 * atom a 1) + rot q b l i 2 * atom a 2)
    + (x (ix3 b l i) - mean x b i)

/-- The whole result array. -/
def G (x : SX.Idx → EReal) (q : SQ.Idx → EReal) : SO.Idx → EReal :=
  fun o => Gat x q (o 0) (o 1) (o 2) (o 3)

theorem G_ix4 (x : SX.Idx → EReal) (q : SQ.Idx → EReal) (b : Fin 32) (l : Fin 65536) (a : Fin 4) (i : Fin 3) :
    G x q (ix4 b l a i) = Gat x q b l a i := rfl

end Cert.Spec

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KI.Mean.lean ====
/-
  What the first region leaves in its output array, over the extended reals: at batch `b` and coordinate `i` the sum of
  the translations over all 65536 residues times 2⁻¹⁶, that is the specification's `mean`.

  The scratch after the last point is zero plus sixteen lane sums of 4096 residues each, added one by one; sums over the
  extended reals may be regrouped freely, so that is the one sum over the 65536 residues. The output block is the whole
  array and is written back at the last point only.
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import proofs.«174519_j29231547417075_1_alg».proof.Proof.KI.R0
import proofs.«174519_j29231547417075_1_alg».proof.Proof.Spec
import proofs.«174519_j29231547417075_1_alg».proof.Proof.LibSumBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KMean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

open scoped BigOperators

/-! ## The three stored values, read at one element over the extended reals -/

/-- The reset value is zero. -/
theorem pay1_apply (b : Fin 32) (i : Fin 3) : k0_pay1 (F := Ideal) (ix3 b (0 : Fin 1) i) = 0 := by
  unfold k0_pay1
  rw [shapeCast_self]
  exact Ideal.ofBits_zero_f32

/-- One point's step: the running sum plus the block's sum over its 4096 residues. -/
theorem pay2_apply (v3 : Vec Ideal S32x1x3 .f32) (v4 : Vec Ideal S32x4096x3 .f32) (b : Fin 32) (i : Fin 3) :
    k0_pay2 v3 v4 (ix3 b (0 : Fin 1) i) = v3 (ix3 b (0 : Fin 1) i) + ∑ r : Fin 4096, v4 (ix3 b r i) := by
  unfold k0_pay2
  rw [shapeCast_self]
  rw [addf_apply]
  congr 1
  rw [shapeCast_apply _ _ (ix3 b (0 : Fin 1) i) (ix2 b i) (by
    rw [Shape.rowMajor_val_two, Shape.rowMajor_val_three]
    show b.val * 3 + i.val = (b.val * 1 + 0) * 3 + i.val
    omega)]
  refine (Ideal.multiReduction_add_single v4 _ reduces_S32x4096x3_S32x3 _ _ (ix2 b i)).trans ?_
  refine Finset.sum_congr rfl fun r _ => congrArg v4 (funext fun a => Fin.ext ?_)
  match a with
  | ⟨0, _⟩ => rfl
  | ⟨1, _⟩ => rfl
  | ⟨2, _⟩ => rfl

/-- The word the last point multiplies by is 2⁻¹⁶. -/
theorem scale_word : Ideal.ofBits .f32 0x37800000#32 = ((1 / 65536 : ℝ) : EReal) := by
  simp [Ideal.ofBits, Ideal.ieee, -EReal.coe_mul]; norm_num

/-- What goes out: the sum times 2⁻¹⁶. -/
theorem pay3_apply (v : Vec Ideal S32x1x3 .f32) (b : Fin 32) (i : Fin 3) :
    k0_pay3 v (ix3 b (0 : Fin 1) i) = v (ix3 b (0 : Fin 1) i) * ((1 / 65536 : ℝ) : EReal) := by
  unfold k0_pay3
  rw [mulf_apply, broadcast_apply]
  exact congrArg _ scale_word

/-! ## The input's block at a point: 4096 consecutive residues -/

/-- The input's block index is the point's number along the residues and zero elsewhere; the output's is zero. -/
theorem idx_in : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem N16 : cfg0.N = 16 := N_0

/-- Residue `r` of point `t`'s block is residue `4096 t + r` of the array. -/
theorem iblk_apply (c : Dev nD) (t : Fin cfg0.N) (b : Fin 32) (r : Fin 4096) (i : Fin 3) :
    R0.iblk V c 0 t (ix3 b r i)
      = V c main_arg0 (ix3 b ⟨4096 * t.val + r.val, by have := lt_of_lt_of_eq t.isLt N16; omega⟩ i) := by
  obtain ⟨h0, h1, h2⟩ := idx_in t
  unfold R0.iblk
  rw [View.read_apply]
  show V c main_arg0 _ = V c main_arg0 _
  congr 1
  funext a
  apply Fin.ext
  match a with
  | ⟨0, _⟩ => show win0_0.index t 0 * 32 + 1 * b.val = b.val; rw [h0]; omega
  | ⟨1, _⟩ => show win0_0.index t 1 * 4096 + 1 * r.val = 4096 * t.val + r.val; rw [h1]; omega
  | ⟨2, _⟩ => show win0_0.index t 2 * 3 + 1 * i.val = i.val; rw [h2]; omega

/-! ## The running sum, closed -/

/-- The translations as the region finds them, over the extended reals. -/
abbrev xs (c : Dev nD) : Cert.Spec.SX.Idx → EReal := V c main_arg0

/-- The sum of the translations' coordinate `i` of batch `b` over the residues of block `t`. -/
def blockSum (c : Dev nD) (b : Fin 32) (i : Fin 3) (t : ℕ) : EReal :=
  if h : t < 16 then ∑ r : Fin 4096, xs V c (ix3 b ⟨4096 * t + r.val, by omega⟩ i) else 0

/-- The input's block at point `t`, at its literal shape. -/
abbrev blkE (c : Dev nD) (t : Fin cfg0.N) : Vec Ideal S32x4096x3 .f32 := R0.iblk V c 0 t

/-- One block's lane sum is that. -/
theorem sum_iblk (c : Dev nD) (t : Fin cfg0.N) (b : Fin 32) (i : Fin 3) :
    ∑ r : Fin 4096, blkE V c t (ix3 b r i) = blockSum V c b i t.val := by
  have ht : t.val < 16 := lt_of_lt_of_eq t.isLt N16
  unfold blockSum
  rw [dif_pos ht]
  exact Finset.sum_congr rfl fun r _ => iblk_apply V c t b r i

/-- The scratch after point `n` holds the sum of the blocks 0 … n. -/
theorem accAt_apply (c : Dev nD) (b : Fin 32) (i : Fin 3) :
    ∀ (n : ℕ) (hn : n < cfg0.N), (R0.accAt V c n hn (ix3 b (0 : Fin 1) i) : EReal) = ∑ t ∈ Finset.range (n + 1), blockSum V c b i t
  | 0, hn => by
    rw [show R0.accAt V c 0 hn = k0_pay2 (k0_pay1 (F := Ideal)) (R0.iblk V c 0 ⟨0, hn⟩) from rfl, pay2_apply, pay1_apply, zero_add]
    rw [Finset.sum_range_one]
    exact sum_iblk V c ⟨0, hn⟩ b i
  | n + 1, hn => by
    rw [show R0.accAt V c (n + 1) hn = k0_pay2 (R0.accAt V c n (Nat.lt_of_succ_lt hn)) (R0.iblk V c 0 ⟨n + 1, hn⟩) from rfl, pay2_apply,
      accAt_apply c b i n, Finset.sum_range_succ _ (n + 1)]
    exact congrArg _ (sum_iblk V c ⟨n + 1, hn⟩ b i)

/-- Sixteen blocks of 4096 residues are the 65536 residues. -/
theorem sum_blockSum (c : Dev nD) (b : Fin 32) (i : Fin 3) :
    ∑ t ∈ Finset.range 16, blockSum V c b i t = ∑ l : Fin 65536, xs V c (ix3 b l i) := by
  rw [Finset.sum_range, ← Cert.LibSumBlocks.sum_blocks (A := 16) (B := 4096) (N := 65536) (by norm_num) (fun l : Fin 65536 => xs V c (ix3 b l i))]
  refine Finset.sum_congr rfl fun t _ => ?_
  unfold blockSum
  rw [dif_pos t.isLt]

/-! ## The output array after the region -/

/-- What goes out at the last point, as contents of the output array (its one block is the array). -/
abbrev result (c : Dev nD) : Buf (Elt Ideal) ((c : Thread nD τ).loc main_v0) :=
  k0_pay3 (R0.accAt V c 15 (by rw [N16]; decide))

/-- The one write-back, at the last point, writes it: block (0, 0, 0) of the array read at zero offsets is the array. -/
theorem flushed_eq (c : Dev nD) (t : Fin cfg0.N) (hf : (cfg0.win 1).flush t = true) :
    (R0.dat0 V c).flushed 1 t = ((cfg0.win 1).blk t).view.read (Elt Ideal) (result V c) := by
  have h15 : t.val = 15 := by have := (flush0_1 t).mp hf; have := lt_of_lt_of_eq t.isLt N16; omega
  obtain rfl : t = t0_15 := Fin.ext h15
  show (cfg0.win 1).cut (grid0.coords t0_15) ((R0.dat0 V c).after 1 t0_15) = _
  rw [R0.after0_1]
  have hz' : (fun a => win0_1.index t0_15 a * main_v0.ty.shape.size a) = fun _ => 0 := funext fun a => by fin_cases a <;> decide
  exact (Memref.read_access_unit_zero (Elt Ideal) main_v0 hz' (fun a => by rw [congrFun hz' a]; simp) (result V c)).symm

/-- So the output array ends holding it: the last point's block covers the array. -/
theorem final_arr (c : Dev nD) : (R0.dat0 V c).arrAt 1 cfg0.N = result V c :=
  (R0.dat0 V c).arrAt_eq_of_cover 1 (result V c) (flushed_eq V c) fun j =>
    ⟨t0_15, (flush0_1 t0_15).mpr rfl, by
      show j ∈ ((View.whole main_v0).slice (win0_1.rect t0_15)).set
      rw [View.set_slice_whole, Rect.mem_set_unit]
      intro a
      have h0 : (j 0 : Nat) < 32 := (j 0).isLt
      have h1 : (j 1 : Nat) < 1 := (j 1).isLt
      have h2 : (j 2 : Nat) < 3 := (j 2).isLt
      match a with
      | ⟨0, _⟩ =>
        show win0_1.index t0_15 0 * win0_1.size 0 ≤ (j 0 : Nat) ∧ (j 0 : Nat) < win0_1.index t0_15 0 * win0_1.size 0 + win0_1.xsize (grid0.coords t0_15) 0
        rw [show win0_1.index t0_15 0 * win0_1.size 0 = 0 from by decide +kernel, show win0_1.xsize (grid0.coords t0_15) 0 = 32 from by decide +kernel]; omega
      | ⟨1, _⟩ =>
        show win0_1.index t0_15 1 * win0_1.size 1 ≤ (j 1 : Nat) ∧ (j 1 : Nat) < win0_1.index t0_15 1 * win0_1.size 1 + win0_1.xsize (grid0.coords t0_15) 1
        rw [show win0_1.index t0_15 1 * win0_1.size 1 = 0 from by decide +kernel, show win0_1.xsize (grid0.coords t0_15) 1 = 1 from by decide +kernel]; omega
      | ⟨2, _⟩ =>
        show win0_1.index t0_15 2 * win0_1.size 2 ≤ (j 2 : Nat) ∧ (j 2 : Nat) < win0_1.index t0_15 2 * win0_1.size 2 + win0_1.xsize (grid0.coords t0_15) 2
        rw [show win0_1.index t0_15 2 * win0_1.size 2 = 0 from by decide +kernel, show win0_1.xsize (grid0.coords t0_15) 2 = 3 from by decide +kernel]; omega⟩

/-- The first region's output array after the region: the per-batch means of the translations it was entered with. -/
theorem mean_arr (c : Dev nD) (b : Fin 32) (i : Fin 3) :
    (R0.dat0 (F := Ideal) V c).arrAt 1 cfg0.N (ix3 b (0 : Fin 1) i) = Cert.Spec.mean (V c main_arg0) b i := by
  rw [final_arr]
  show k0_pay3 (R0.accAt V c 15 _) (ix3 b (0 : Fin 1) i) = _
  rw [pay3_apply, accAt_apply V c b i 15, sum_blockSum]
  rfl

end Cert.KernelIdeal.KMean

end
-- ==== Proof.KI.Rot.lean ====
/-
  What the second region leaves in its output array, over the extended reals: at batch `b`, residue `l` and column
  `3·a + i` the specification's value for atom `a` and coordinate `i`, given that the region finds the translations `x`,
  the quaternions `q`, and the per-batch means of `x` in the first region's output array.

  Point `t` of the grid covers residues 2048·t … 2048·t + 2047; its output block is the body's stored value of the three
  input blocks; the blocks tile the array and each is written back once.
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import proofs.«174519_j29231547417075_1_alg».proof.Proof.KI.R1
import proofs.«174519_j29231547417075_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRot

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The layout steps of the body, read at an index -/

section Layout
variable {α : Type}

/-- A [32, 2048, 1] column viewed as [32, 2048] reads (b, r, 0) at (b, r): the two have the same row-major position. -/
theorem dropUnit_at (v : S32x2048x1.Idx → α) (h : S32x2048x1.ShapeCasts S32x2048) (b : Fin 32) (r : Fin 2048) :
    shapeCast S32x2048 v h (ix2 b r) = v (ix3 b r 0) :=
  shapeCast_apply v h (ix2 b r) (ix3 b r 0) (by
    rw [Shape.rowMajor_val_three, Shape.rowMajor_val_two]
    show (b.val * 2048 + r.val) * 1 + 0 = b.val * 2048 + r.val; omega)

/-- A [32, 2048] vector viewed as a [32, 2048, 1] column reads (b, r) at (b, r, 0). -/
theorem addUnit_at (v : S32x2048.Idx → α) (h : S32x2048.ShapeCasts S32x2048x1) (b : Fin 32) (r : Fin 2048) (z : Fin 1) :
    shapeCast S32x2048x1 v h (ix3 b r z) = v (ix2 b r) :=
  shapeCast_apply v h (ix3 b r z) (ix2 b r) (by
    rw [Shape.rowMajor_val_three, Shape.rowMajor_val_two]
    have hz : z.val = 0 := by have := z.isLt; omega
    show b.val * 2048 + r.val = (b.val * 2048 + r.val) * 1 + z.val; omega)

/-- Column k of a [32, 2048, n] block, cut out as a [32, 2048, 1] slice, reads (b, r, k) at (b, r, 0). -/
theorem column_at {n : ℕ} (k : ℕ) (hk : k < n) (x : (⟨3, ![32, 2048, n]⟩ : Shape).Idx → α)
    (h : (⟨3, ![32, 2048, n]⟩ : Shape).Slices ![0, 0, k] S32x2048x1) (b : Fin 32) (r : Fin 2048) :
    extractStridedSlice S32x2048x1 ![0, 0, k] x h (ix3 b r 0) = x (ix3 b r ⟨k, hk⟩) :=
  extractStridedSlice_apply ![0, 0, k] x h (ix3 b r 0) (ix3 b r ⟨k, hk⟩) fun a => match a with
    | ⟨0, _⟩ => by show b.val = 0 + b.val; omega
    | ⟨1, _⟩ => by show r.val = 0 + r.val; omega
    | ⟨2, _⟩ => by show k = k + 0; omega

/-- The means' [32, 1, 3] block broadcast along the residues reads (b, 0, i) at (b, r, i). -/
theorem alongResidues_at (v : S32x1x3.Idx → α) (h : S32x1x3.Broadcasts S32x2048x3) (b : Fin 32) (r : Fin 2048) (i : Fin 3) :
    broadcastTo S32x2048x3 v h (ix3 b r i) = v (ix3 b 0 i) :=
  broadcastTo_apply v h (ix3 b r i) (ix3 b 0 i) fun a => match a with
    | ⟨0, _⟩ => by show b.val = if (32 : ℕ) = 1 then 0 else b.val; rfl
    | ⟨1, _⟩ => by show (0 : ℕ) = if (1 : ℕ) = 1 then 0 else r.val; rfl
    | ⟨2, _⟩ => by show i.val = if (3 : ℕ) = 1 then 0 else i.val; rfl

end Layout

/-! ## The body's values at one residue

Throughout, the three loaded blocks are variables x0 (translations), x1 (quaternions), x2 (means), (b, r) is a
position of the block, and l is the residue of the whole arrays the position stands for: the hypotheses say that the
blocks read there what the arrays x, q and the means of x hold at (b, l). -/

section AtResidue
variable (x0 : Vec Ideal S32x2048x3 .f32) (x1 : Vec Ideal S32x2048x4 .f32) (x2 : Vec Ideal S32x1x3 .f32)
variable (b : Fin 32) (r : Fin 2048)

/-- The four quaternion components, as [32, 2048] vectors, read the block's four columns. -/
theorem qcomp0 : k1_pay2 x1 (ix2 b r) = x1 (ix3 b r 0) := by
  unfold k1_pay2; exact (dropUnit_at _ _ b r).trans (column_at 0 (by decide) x1 _ b r)
theorem qcomp1 : k1_pay3 x1 (ix2 b r) = x1 (ix3 b r 1) := by
  unfold k1_pay3; exact (dropUnit_at _ _ b r).trans (column_at 1 (by decide) x1 _ b r)
theorem qcomp2 : k1_pay4 x1 (ix2 b r) = x1 (ix3 b r 2) := by
  unfold k1_pay4; exact (dropUnit_at _ _ b r).trans (column_at 2 (by decide) x1 _ b r)
theorem qcomp3 : k1_pay5 x1 (ix2 b r) = x1 (ix3 b r 3) := by
  unfold k1_pay5; exact (dropUnit_at _ _ b r).trans (column_at 3 (by decide) x1 _ b r)

variable (x : Cert.Spec.SX.Idx → EReal) (q : Cert.Spec.SQ.Idx → EReal) (l : Fin 65536)
variable (h1 : ∀ k : Fin 4, x1 (ix3 b r k) = q (ix3 b l k))

include h1 in
/-- The guarded norm of the residue's quaternion. -/
theorem norm_at : k1_pay6 x1 (ix2 b r) = Cert.Spec.nrm q b l := by
  show Ideal.sqrt (((k1_pay2 x1 (ix2 b r) * k1_pay2 x1 (ix2 b r) + k1_pay3 x1 (ix2 b r) * k1_pay3 x1 (ix2 b r))
      + k1_pay4 x1 (ix2 b r) * k1_pay4 x1 (ix2 b r)) + k1_pay5 x1 (ix2 b r) * k1_pay5 x1 (ix2 b r))
      + Ideal.ofBits .f32 0x358637BD#32 = _
  rw [qcomp0, qcomp1, qcomp2, qcomp3, h1, h1, h1, h1]; rfl

include h1 in
/-- The normalised quaternion's four components. -/
theorem unit0_at : k1_pay7 x1 (ix2 b r) = Cert.Spec.qn q b l 0 := by
  show Ideal.div (k1_pay2 x1 (ix2 b r)) (k1_pay6 x1 (ix2 b r)) = _
  rw [qcomp0, norm_at x1 b r q l h1, h1]; rfl
include h1 in
theorem unit1_at : k1_pay8 x1 (ix2 b r) = Cert.Spec.qn q b l 1 := by
  show Ideal.div (k1_pay3 x1 (ix2 b r)) (k1_pay6 x1 (ix2 b r)) = _
  rw [qcomp1, norm_at x1 b r q l h1, h1]; rfl
include h1 in
theorem unit2_at : k1_pay9 x1 (ix2 b r) = Cert.Spec.qn q b l 2 := by
  show Ideal.div (k1_pay4 x1 (ix2 b r)) (k1_pay6 x1 (ix2 b r)) = _
  rw [qcomp2, norm_at x1 b r q l h1, h1]; rfl
include h1 in
theorem unit3_at : k1_pay10 x1 (ix2 b r) = Cert.Spec.qn q b l 3 := by
  show Ideal.div (k1_pay5 x1 (ix2 b r)) (k1_pay6 x1 (ix2 b r)) = _
  rw [qcomp3, norm_at x1 b r q l h1, h1]; rfl

/-! ### The nine entries of the rotation matrix -/

include h1 in
theorem rot00_at : k1_pay15 x1 (ix2 b r) = Cert.Spec.rot q b l 0 0 := by
  show Cert.Spec.one - Cert.Spec.two * (k1_pay9 x1 (ix2 b r) * k1_pay9 x1 (ix2 b r) + k1_pay10 x1 (ix2 b r) * k1_pay10 x1 (ix2 b r)) = _
  rw [unit2_at x1 b r q l h1, unit3_at x1 b r q l h1]; rfl
include h1 in
theorem rot01_at : k1_pay16 x1 (ix2 b r) = Cert.Spec.rot q b l 0 1 := by
  show Cert.Spec.two * (k1_pay8 x1 (ix2 b r) * k1_pay9 x1 (ix2 b r) - k1_pay10 x1 (ix2 b r) * k1_pay7 x1 (ix2 b r)) = _
  rw [unit0_at x1 b r q l h1, unit1_at x1 b r q l h1, unit2_at x1 b r q l h1, unit3_at x1 b r q l h1]; rfl
include h1 in
theorem rot02_at : k1_pay17 (k1_pay7 x1) (k1_pay8 x1) (k1_pay9 x1) (k1_pay10 x1) (ix2 b r) = Cert.Spec.rot q b l 0 2 := by
  show Cert.Spec.two * (k1_pay8 x1 (ix2 b r) * k1_pay10 x1 (ix2 b r) + k1_pay9 x1 (ix2 b r) * k1_pay7 x1 (ix2 b r)) = _
  rw [unit0_at x1 b r q l h1, unit1_at x1 b r q l h1, unit2_at x1 b r q l h1, unit3_at x1 b r q l h1]; rfl
include h1 in
theorem rot10_at : k1_pay18 (k1_pay7 x1) (k1_pay8 x1) (k1_pay9 x1) (k1_pay10 x1) (ix2 b r) = Cert.Spec.rot q b l 1 0 := by
  show Cert.Spec.two * (k1_pay8 x1 (ix2 b r) * k1_pay9 x1 (ix2 b r) + k1_pay10 x1 (ix2 b r) * k1_pay7 x1 (ix2 b r)) = _
  rw [unit0_at x1 b r q l h1, unit1_at x1 b r q l h1, unit2_at x1 b r q l h1, unit3_at x1 b r q l h1]; rfl
include h1 in
theorem rot11_at : k1_pay19 (k1_pay8 x1) (k1_pay10 x1) (ix2 b r) = Cert.Spec.rot q b l 1 1 := by
  show Cert.Spec.one - Cert.Spec.two * (k1_pay8 x1 (ix2 b r) * k1_pay8 x1 (ix2 b r) + k1_pay10 x1 (ix2 b r) * k1_pay10 x1 (ix2 b r)) = _
  rw [unit1_at x1 b r q l h1, unit3_at x1 b r q l h1]; rfl
include h1 in
theorem rot12_at : k1_pay20 (k1_pay7 x1) (k1_pay8 x1) (k1_pay9 x1) (k1_pay10 x1) (ix2 b r) = Cert.Spec.rot q b l 1 2 := by
  show Cert.Spec.two * (k1_pay9 x1 (ix2 b r) * k1_pay10 x1 (ix2 b r) - k1_pay8 x1 (ix2 b r) * k1_pay7 x1 (ix2 b r)) = _
  rw [unit0_at x1 b r q l h1, unit1_at x1 b r q l h1, unit2_at x1 b r q l h1, unit3_at x1 b r q l h1]; rfl
include h1 in
theorem rot20_at : k1_pay21 (k1_pay7 x1) (k1_pay8 x1) (k1_pay9 x1) (k1_pay10 x1) (ix2 b r) = Cert.Spec.rot q b l 2 0 := by
  show Cert.Spec.two * (k1_pay8 x1 (ix2 b r) * k1_pay10 x1 (ix2 b r) - k1_pay9 x1 (ix2 b r) * k1_pay7 x1 (ix2 b r)) = _
  rw [unit0_at x1 b r q l h1, unit1_at x1 b r q l h1, unit2_at x1 b r q l h1, unit3_at x1 b r q l h1]; rfl
include h1 in
theorem rot21_at : k1_pay22 (k1_pay7 x1) (k1_pay8 x1) (k1_pay9 x1) (k1_pay10 x1) (ix2 b r) = Cert.Spec.rot q b l 2 1 := by
  show Cert.Spec.two * (k1_pay9 x1 (ix2 b r) * k1_pay10 x1 (ix2 b r) + k1_pay8 x1 (ix2 b r) * k1_pay7 x1 (ix2 b r)) = _
  rw [unit0_at x1 b r q l h1, unit1_at x1 b r q l h1, unit2_at x1 b r q l h1, unit3_at x1 b r q l h1]; rfl
include h1 in
theorem rot22_at : k1_pay23 (k1_pay8 x1) (k1_pay9 x1) (ix2 b r) = Cert.Spec.rot q b l 2 2 := by
  show Cert.Spec.one - Cert.Spec.two * (k1_pay8 x1 (ix2 b r) * k1_pay8 x1 (ix2 b r) + k1_pay9 x1 (ix2 b r) * k1_pay9 x1 (ix2 b r)) = _
  rw [unit1_at x1 b r q l h1, unit2_at x1 b r q l h1]; rfl

/-! ### The centred translation -/

/-- The translations less the broadcast means, at a position. -/
theorem centred_at (i : Fin 3) : k1_pay11 x0 x2 (ix3 b r i) = x0 (ix3 b r i) - x2 (ix3 b 0 i) := by
  unfold k1_pay11
  show x0 (ix3 b r i) - broadcastTo S32x2048x3 (shapeCast S32x1x3 x2 _) _ (ix3 b r i) = _
  rw [alongResidues_at, shapeCast_self]

variable (h0 : ∀ i : Fin 3, x0 (ix3 b r i) = x (ix3 b l i))
variable (h2 : ∀ i : Fin 3, x2 (ix3 b 0 i) = Cert.Spec.mean x b i)

include h0 h2 in
theorem shift0_at : k1_pay12 x0 x2 (ix2 b r) = x (ix3 b l 0) - Cert.Spec.mean x b 0 := by
  unfold k1_pay12
  refine ((dropUnit_at _ _ b r).trans (column_at 0 (by decide) _ _ b r)).trans ?_
  rw [centred_at, h0, h2]; rfl
include h0 h2 in
theorem shift1_at : k1_pay13 x0 x2 (ix2 b r) = x (ix3 b l 1) - Cert.Spec.mean x b 1 := by
  unfold k1_pay13
  refine ((dropUnit_at _ _ b r).trans (column_at 1 (by decide) _ _ b r)).trans ?_
  rw [centred_at, h0, h2]; rfl
include h0 h2 in
theorem shift2_at : k1_pay14 x0 x2 (ix2 b r) = x (ix3 b l 2) - Cert.Spec.mean x b 2 := by
  unfold k1_pay14
  refine ((dropUnit_at _ _ b r).trans (column_at 2 (by decide) _ _ b r)).trans ?_
  rw [centred_at, h0, h2]; rfl

end AtResidue

/-! ## The stored block at a position: twelve columns side by side -/

section Stored

/-- The last column (the fourth atom's third coordinate), which the stored value computes inline. -/
def lastColumn (v33 v72 v77 v84 : FVec Ideal S32x2048 .f32) : FVec Ideal S32x2048 .f32 :=
  addf (addf (addf (mulf v72 (broadcast S32x2048 (Scalar.ofBits .f32 0xBF06361C#32)))
    (mulf v77 (broadcast S32x2048 (Scalar.ofBits .f32 0xBF442002#32))))
    (mulf v84 (broadcast S32x2048 (Scalar.ofBits .f32 0x3F9A517E#32)))) v33

/-- The stored block, read at column n of position (b, r), is the n-th of the twelve [32, 2048] vectors at (b, r):
    the concatenation along the last axis of twelve unit-width columns reads the piece its last coordinate names. -/
theorem stored_at (v33 v72 v77 v84 v93 v102 v111 v120 v129 v138 v147 v156 v165 v174 v183 : FVec Ideal S32x2048 .f32)
    (b : Fin 32) (r : Fin 2048) (n : Fin 12) :
    k1_pay1 v33 v72 v77 v84 v93 v102 v111 v120 v129 v138 v147 v156 v165 v174 v183 (ix3 b r n)
      = (![v93, v102, v111, v120, v129, v138, v147, v156, v165, v174, v183, lastColumn v33 v72 v77 v84] n) (ix2 b r) := by
  unfold k1_pay1
  refine (concatenate_ofFn_unit_apply (t := S32x2048x12) (s₁ := S32x2048x1) 2
    (fun k : Fin 12 => shapeCast S32x2048x1
      ((![v93, v102, v111, v120, v129, v138, v147, v156, v165, v174, v183, lastColumn v33 v72 v77 v84] : Fin 12 → FVec Ideal S32x2048 .f32) k)
      shapeCasts_S32x2048_S32x2048x1)
    _ rfl rfl (ix3 b r n) n rfl (ix3 b r 0) (fun a ha => ?_)).trans (addUnit_at _ _ b r 0)
  match a with
  | ⟨0, _⟩ => rfl
  | ⟨1, _⟩ => rfl
  | ⟨2, _⟩ => exact absurd rfl ha

end Stored

/-! ## The stored block at a position is the specification's value at the residue -/

section Rotated
variable (x0 : Vec Ideal S32x2048x3 .f32) (x1 : Vec Ideal S32x2048x4 .f32) (x2 : Vec Ideal S32x1x3 .f32)
variable (b : Fin 32) (r : Fin 2048)
variable (x : Cert.Spec.SX.Idx → EReal) (q : Cert.Spec.SQ.Idx → EReal) (l : Fin 65536)
variable (h0 : ∀ i : Fin 3, x0 (ix3 b r i) = x (ix3 b l i))
variable (h1 : ∀ k : Fin 4, x1 (ix3 b r k) = q (ix3 b l k))
variable (h2 : ∀ i : Fin 3, x2 (ix3 b 0 i) = Cert.Spec.mean x b i)

/-- One column of the result: a row of the rotation matrix against an atom's three words, in the body's order of
    additions, plus the centred translation. -/
def place (R0 R1 R2 T : EReal) (w0 w1 w2 : BitVec 32) : EReal :=
  ((R0 * Ideal.ofBits .f32 w0 + R1 * Ideal.ofBits .f32 w1) + R2 * Ideal.ofBits .f32 w2) + T

include h0 h1 h2 in
/-- Column n = 3·a + i of the stored block at (b, r) is atom a's coordinate i at residue l of batch b. -/
theorem rotPay_at (n : Fin 12) :
    R1.rotPay x0 x1 x2 (ix3 b r n)
      = Cert.Spec.Gat x q b l ⟨n.val / 3, by have := n.isLt; omega⟩ ⟨n.val % 3, Nat.mod_lt _ (by decide)⟩ := by
  unfold R1.rotPay
  refine (stored_at _ _ _ _ _ _ _ _ _ _ _ _ _ _ _ b r n).trans ?_
  fin_cases n
  · -- the first atom, coordinate 0
    show place (k1_pay15 x1 (ix2 b r)) (k1_pay16 x1 (ix2 b r))
      (k1_pay17 (k1_pay7 x1) (k1_pay8 x1) (k1_pay9 x1) (k1_pay10 x1) (ix2 b r)) (k1_pay12 x0 x2 (ix2 b r))
      0x3FBAE443#32 0x00000000#32 0x00000000#32 = _
    rw [rot00_at x1 b r q l h1, rot01_at x1 b r q l h1, rot02_at x1 b r q l h1, shift0_at x0 x2 b r x l h0 h2]; rfl
  · -- the first atom, coordinate 1
    show place (k1_pay18 (k1_pay7 x1) (k1_pay8 x1) (k1_pay9 x1) (k1_pay10 x1) (ix2 b r)) (k1_pay19 (k1_pay8 x1) (k1_pay10 x1) (ix2 b r))
      (k1_pay20 (k1_pay7 x1) (k1_pay8 x1) (k1_pay9 x1) (k1_pay10 x1) (ix2 b r)) (k1_pay13 x0 x2 (ix2 b r))
      0x3FBAE443#32 0x00000000#32 0x00000000#32 = _
    rw [rot10_at x1 b r q l h1, rot11_at x1 b r q l h1, rot12_at x1 b r q l h1, shift1_at x0 x2 b r x l h0 h2]; rfl
  · -- the first atom, coordinate 2
    show place (k1_pay21 (k1_pay7 x1) (k1_pay8 x1) (k1_pay9 x1) (k1_pay10 x1) (ix2 b r)) (k1_pay22 (k1_pay7 x1) (k1_pay8 x1) (k1_pay9 x1) (k1_pay10 x1) (ix2 b r))
      (k1_pay23 (k1_pay8 x1) (k1_pay9 x1) (ix2 b r)) (k1_pay14 x0 x2 (ix2 b r))
      0x3FBAE443#32 0x00000000#32 0x00000000#32 = _
    rw [rot20_at x1 b r q l h1, rot21_at x1 b r q l h1, rot22_at x1 b r q l h1, shift2_at x0 x2 b r x l h0 h2]; rfl
  · -- the second atom, coordinate 0
    show place (k1_pay15 x1 (ix2 b r)) (k1_pay16 x1 (ix2 b r))
      (k1_pay17 (k1_pay7 x1) (k1_pay8 x1) (k1_pay9 x1) (k1_pay10 x1) (ix2 b r)) (k1_pay12 x0 x2 (ix2 b r))
      0x00000000#32 0x00000000#32 0x00000000#32 = _
    rw [rot00_at x1 b r q l h1, rot01_at x1 b r q l h1, rot02_at x1 b r q l h1, shift0_at x0 x2 b r x l h0 h2]; rfl
  · -- the second atom, coordinate 1
    show place (k1_pay18 (k1_pay7 x1) (k1_pay8 x1) (k1_pay9 x1) (k1_pay10 x1) (ix2 b r)) (k1_pay19 (k1_pay8 x1) (k1_pay10 x1) (ix2 b r))
      (k1_pay20 (k1_pay7 x1) (k1_pay8 x1) (k1_pay9 x1) (k1_pay10 x1) (ix2 b r)) (k1_pay13 x0 x2 (ix2 b r))
      0x00000000#32 0x00000000#32 0x00000000#32 = _
    rw [rot10_at x1 b r q l h1, rot11_at x1 b r q l h1, rot12_at x1 b r q l h1, shift1_at x0 x2 b r x l h0 h2]; rfl
  · -- the second atom, coordinate 2
    show place (k1_pay21 (k1_pay7 x1) (k1_pay8 x1) (k1_pay9 x1) (k1_pay10 x1) (ix2 b r)) (k1_pay22 (k1_pay7 x1) (k1_pay8 x1) (k1_pay9 x1) (k1_pay10 x1) (ix2 b r))
      (k1_pay23 (k1_pay8 x1) (k1_pay9 x1) (ix2 b r)) (k1_pay14 x0 x2 (ix2 b r))
      0x00000000#32 0x00000000#32 0x00000000#32 = _
    rw [rot20_at x1 b r q l h1, rot21_at x1 b r q l h1, rot22_at x1 b r q l h1, shift2_at x0 x2 b r x l h0 h2]; rfl
  · -- the third atom, coordinate 0
    show place (k1_pay15 x1 (ix2 b r)) (k1_pay16 x1 (ix2 b r))
      (k1_pay17 (k1_pay7 x1) (k1_pay8 x1) (k1_pay9 x1) (k1_pay10 x1) (ix2 b r)) (k1_pay12 x0 x2 (ix2 b r))
      0xBF1076D4#32 0x3FB55EE3#32 0x00000000#32 = _
    rw [rot00_at x1 b r q l h1, rot01_at x1 b r q l h1, rot02_at x1 b r q l h1, shift0_at x0 x2 b r x l h0 h2]; rfl
  · -- the third atom, coordinate 1
    show place (k1_pay18 (k1_pay7 x1) (k1_pay8 x1) (k1_pay9 x1) (k1_pay10 x1) (ix2 b r)) (k1_pay19 (k1_pay8 x1) (k1_pay10 x1) (ix2 b r))
      (k1_pay20 (k1_pay7 x1) (k1_pay8 x1) (k1_pay9 x1) (k1_pay10 x1) (ix2 b r)) (k1_pay13 x0 x2 (ix2 b r))
      0xBF1076D4#32 0x3FB55EE3#32 0x00000000#32 = _
    rw [rot10_at x1 b r q l h1, rot11_at x1 b r q l h1, rot12_at x1 b r q l h1, shift1_at x0 x2 b r x l h0 h2]; rfl
  · -- the third atom, coordinate 2
    show place (k1_pay21 (k1_pay7 x1) (k1_pay8 x1) (k1_pay9 x1) (k1_pay10 x1) (ix2 b r)) (k1_pay22 (k1_pay7 x1) (k1_pay8 x1) (k1_pay9 x1) (k1_pay10 x1) (ix2 b r))
      (k1_pay23 (k1_pay8 x1) (k1_pay9 x1) (ix2 b r)) (k1_pay14 x0 x2 (ix2 b r))
      0xBF1076D4#32 0x3FB55EE3#32 0x00000000#32 = _
    rw [rot20_at x1 b r q l h1, rot21_at x1 b r q l h1, rot22_at x1 b r q l h1, shift2_at x0 x2 b r x l h0 h2]; rfl
  · -- the fourth atom, coordinate 0
    show place (k1_pay15 x1 (ix2 b r)) (k1_pay16 x1 (ix2 b r))
      (k1_pay17 (k1_pay7 x1) (k1_pay8 x1) (k1_pay9 x1) (k1_pay10 x1) (ix2 b r)) (k1_pay12 x0 x2 (ix2 b r))
      0xBF06361C#32 0xBF442002#32 0x3F9A517E#32 = _
    rw [rot00_at x1 b r q l h1, rot01_at x1 b r q l h1, rot02_at x1 b r q l h1, shift0_at x0 x2 b r x l h0 h2]; rfl
  · -- the fourth atom, coordinate 1
    show place (k1_pay18 (k1_pay7 x1) (k1_pay8 x1) (k1_pay9 x1) (k1_pay10 x1) (ix2 b r)) (k1_pay19 (k1_pay8 x1) (k1_pay10 x1) (ix2 b r))
      (k1_pay20 (k1_pay7 x1) (k1_pay8 x1) (k1_pay9 x1) (k1_pay10 x1) (ix2 b r)) (k1_pay13 x0 x2 (ix2 b r))
      0xBF06361C#32 0xBF442002#32 0x3F9A517E#32 = _
    rw [rot10_at x1 b r q l h1, rot11_at x1 b r q l h1, rot12_at x1 b r q l h1, shift1_at x0 x2 b r x l h0 h2]; rfl
  · -- the fourth atom, coordinate 2
    show place (k1_pay21 (k1_pay7 x1) (k1_pay8 x1) (k1_pay9 x1) (k1_pay10 x1) (ix2 b r)) (k1_pay22 (k1_pay7 x1) (k1_pay8 x1) (k1_pay9 x1) (k1_pay10 x1) (ix2 b r))
      (k1_pay23 (k1_pay8 x1) (k1_pay9 x1) (ix2 b r)) (k1_pay14 x0 x2 (ix2 b r))
      0xBF06361C#32 0xBF442002#32 0x3F9A517E#32 = _
    rw [rot20_at x1 b r q l h1, rot21_at x1 b r q l h1, rot22_at x1 b r q l h1, shift2_at x0 x2 b r x l h0 h2]; rfl

end Rotated

/-! ## From the blocks to the array -/

section Array

theorem zeros3 : (![0, 0, 0] : Fin 3 → Nat) = fun _ => 0 := funext fun a => by fin_cases a <;> rfl

/-- The array the region leaves: at (b, l, n) the specification's value for atom n / 3 and coordinate n % 3. -/
def rotArr (x : Cert.Spec.SX.Idx → EReal) (q : Cert.Spec.SQ.Idx → EReal) : S32x65536x12.Idx → EReal := fun o =>
  Cert.Spec.Gat x q (o 0) (o 1)
    ⟨(o 2).val / 3, by have h : (o 2).val < 12 := (o 2).isLt; omega⟩ ⟨(o 2).val % 3, Nat.mod_lt _ (by decide)⟩

/-- Where the windows' blocks sit at point t: the translations', the quaternions' and the output's at residues
    2048·t … 2048·t + 2047 of every batch; the means' is the whole array. Decided over the 32 points. -/
theorem where0 : ∀ t : Fin cfg1.N, win1_0.index t (0 : Fin 3) = 0 ∧ win1_0.index t (1 : Fin 3) = t.val ∧ win1_0.index t (2 : Fin 3) = 0 :=
  (by decide +kernel : ∀ t : Fin grid1.N, _)
theorem where1 : ∀ t : Fin cfg1.N, win1_1.index t (0 : Fin 3) = 0 ∧ win1_1.index t (1 : Fin 3) = t.val ∧ win1_1.index t (2 : Fin 3) = 0 :=
  (by decide +kernel : ∀ t : Fin grid1.N, _)
theorem where2 : ∀ t : Fin cfg1.N, win1_2.index t (0 : Fin 3) = 0 ∧ win1_2.index t (1 : Fin 3) = 0 ∧ win1_2.index t (2 : Fin 3) = 0 :=
  (by decide +kernel : ∀ t : Fin grid1.N, _)
theorem where3 : ∀ t : Fin cfg1.N, win1_3.index t (0 : Fin 3) = 0 ∧ win1_3.index t (1 : Fin 3) = t.val ∧ win1_3.index t (2 : Fin 3) = 0 :=
  (by decide +kernel : ∀ t : Fin grid1.N, _)

/-- The residue of the arrays that position r of point t's block stands for. -/
abbrev resid (t : Fin cfg1.N) (r : Fin 2048) : Fin 65536 :=
  ⟨2048 * t.val + r.val, by have h : t.val < 32 := t.isLt; have := r.isLt; omega⟩

theorem sits0 (t : Fin cfg1.N) (b : Fin 32) (r : Fin 2048) (i : Fin 3) :
    ((cfg1.win 0).blk t).view.emb (ix3 b r i) = ix3 b (resid t r) i := by
  obtain ⟨e0, e1, e2⟩ := where0 t
  funext a; apply Fin.ext
  match a with
  | ⟨0, _⟩ => show win1_0.index t (0 : Fin 3) * 32 + 1 * b.val = b.val; omega
  | ⟨1, _⟩ => show win1_0.index t (1 : Fin 3) * 2048 + 1 * r.val = 2048 * t.val + r.val; omega
  | ⟨2, _⟩ => show win1_0.index t (2 : Fin 3) * 3 + 1 * i.val = i.val; omega

theorem sits1 (t : Fin cfg1.N) (b : Fin 32) (r : Fin 2048) (k : Fin 4) :
    ((cfg1.win 1).blk t).view.emb (ix3 b r k) = ix3 b (resid t r) k := by
  obtain ⟨e0, e1, e2⟩ := where1 t
  funext a; apply Fin.ext
  match a with
  | ⟨0, _⟩ => show win1_1.index t (0 : Fin 3) * 32 + 1 * b.val = b.val; omega
  | ⟨1, _⟩ => show win1_1.index t (1 : Fin 3) * 2048 + 1 * r.val = 2048 * t.val + r.val; omega
  | ⟨2, _⟩ => show win1_1.index t (2 : Fin 3) * 4 + 1 * k.val = k.val; omega

theorem sits2 (t : Fin cfg1.N) (b : Fin 32) (z : Fin 1) (i : Fin 3) :
    ((cfg1.win 2).blk t).view.emb (ix3 b z i) = ix3 b z i := by
  obtain ⟨e0, e1, e2⟩ := where2 t
  funext a; apply Fin.ext
  match a with
  | ⟨0, _⟩ => show win1_2.index t (0 : Fin 3) * 32 + 1 * b.val = b.val; omega
  | ⟨1, _⟩ => show win1_2.index t (1 : Fin 3) * 1 + 1 * z.val = z.val; omega
  | ⟨2, _⟩ => show win1_2.index t (2 : Fin 3) * 3 + 1 * i.val = i.val; omega

theorem sits3 (t : Fin cfg1.N) (b : Fin 32) (r : Fin 2048) (n : Fin 12) :
    ((cfg1.win 3).blk t).view.emb (ix3 b r n) = ix3 b (resid t r) n := by
  obtain ⟨e0, e1, e2⟩ := where3 t
  funext a; apply Fin.ext
  match a with
  | ⟨0, _⟩ => show win1_3.index t (0 : Fin 3) * 32 + 1 * b.val = b.val; omega
  | ⟨1, _⟩ => show win1_3.index t (1 : Fin 3) * 2048 + 1 * r.val = 2048 * t.val + r.val; omega
  | ⟨2, _⟩ => show win1_3.index t (2 : Fin 3) * 12 + 1 * n.val = n.val; omega

variable (c : Dev nD) (x : Cert.Spec.SX.Idx → EReal) (q : Cert.Spec.SQ.Idx → EReal)
variable (hx : V c main_arg0 = x) (hq : V c main_arg1 = q)
variable (hm : ∀ (b : Fin 32) (i : Fin 3), V c main_v0 (ix3 b (0 : Fin 1) i) = Cert.Spec.mean x b i)

include hx hq hm in
/-- What point t writes back is block t of rotArr: the stored value of the three blocks, which read the arrays at the
    residues the block stands for. -/
theorem flushed3_eq (t : Fin cfg1.N) :
    (R1.dat1 (F := Ideal) V c).flushed 3 t = ((cfg1.win 3).blk t).view.read (Elt Ideal) (rotArr x q) := by
  show (cfg1.win 3).cut (grid1.coords t) ((R1.dat1 (F := Ideal) V c).after 3 t) = _
  rw [R1.after1_3]
  unfold R1.out3
  rw [View.canon_unit_zero zeros3]
  simp only [View.ld_unit_zero (S := S32x2048x3) zeros3, View.ld_unit_zero (S := S32x2048x4) zeros3, View.ld_unit_zero (S := S32x1x3) zeros3]
  funext j
  obtain ⟨b, r, n, rfl⟩ : ∃ (b : Fin 32) (r : Fin 2048) (n : Fin 12), j = ix3 b r n := ⟨j 0, j 1, j 2, eq_ix3 j⟩
  show R1.rotPay (R1.iblk V c 0 t) (R1.iblk V c 1 t) (R1.iblk V c 2 t) (ix3 b r n)
    = rotArr x q (((cfg1.win 3).blk t).view.emb (ix3 b r n))
  rw [sits3]
  refine rotPay_at _ _ _ b r x q (resid t r) (fun i => ?_) (fun k => ?_) (fun i => ?_) n
  · show V c main_arg0 (((cfg1.win 0).blk t).view.emb (ix3 b r i)) = _
    rw [sits0, hx]
  · show V c main_arg1 (((cfg1.win 1).blk t).view.emb (ix3 b r k)) = _
    rw [sits1, hq]
  · show V c main_v0 (((cfg1.win 2).blk t).view.emb (ix3 b 0 i)) = _
    rw [sits2]; exact hm b i

/-- An index of the array lies in point t's block exactly when each coordinate is within the block's span. -/
theorem mem_blk3 (t : Fin cfg1.N) (o : S32x65536x12.Idx) :
    o ∈ ((cfg1.win 3).blk t).view.set ↔ ∀ a : Fin 3, win1_3.index t a * S32x2048x12.size a ≤ (o a).val
      ∧ (o a).val < win1_3.index t a * S32x2048x12.size a + S32x2048x12.size a := by
  show o ∈ ((View.whole main_v1).slice (win1_3.rect t)).set ↔ _
  rw [View.set_slice_whole, Rect.mem_set_unit]
  exact Iff.rfl

/-- Every index of the array is in the block of the point its residue belongs to, and every point writes back. -/
theorem covered3 (o : S32x65536x12.Idx) :
    ∃ t : Fin cfg1.N, (cfg1.win 3).flush t = true ∧ o ∈ ((cfg1.win 3).blk t).view.set := by
  have h0 : (o 0).val < 32 := (o 0).isLt
  have h1 : (o 1).val < 65536 := (o 1).isLt
  have h2 : (o 2).val < 12 := (o 2).isLt
  refine ⟨⟨(o 1).val / 2048, by show _ < 32; omega⟩, flush1_3 _, ?_⟩
  rw [mem_blk3]
  obtain ⟨e0, e1, e2⟩ := where3 ⟨(o 1).val / 2048, by show _ < 32; omega⟩
  intro a
  match a with
  | ⟨0, _⟩ => show win1_3.index _ (0 : Fin 3) * 32 ≤ (o 0).val ∧ (o 0).val < win1_3.index _ (0 : Fin 3) * 32 + 32; omega
  | ⟨1, _⟩ => show win1_3.index _ (1 : Fin 3) * 2048 ≤ (o 1).val ∧ (o 1).val < win1_3.index _ (1 : Fin 3) * 2048 + 2048
              rw [e1]; show (o 1).val / 2048 * 2048 ≤ (o 1).val ∧ (o 1).val < (o 1).val / 2048 * 2048 + 2048; omega
  | ⟨2, _⟩ => show win1_3.index _ (2 : Fin 3) * 12 ≤ (o 2).val ∧ (o 2).val < win1_3.index _ (2 : Fin 3) * 12 + 12; omega

end Array

/-- The second region's output array after the region, index by index. -/
theorem rot_arr (c : Dev nD) (x : Cert.Spec.SX.Idx → EReal) (q : Cert.Spec.SQ.Idx → EReal)
    (hx : V c main_arg0 = x) (hq : V c main_arg1 = q)
    (hm : ∀ (b : Fin 32) (i : Fin 3), V c main_v0 (ix3 b (0 : Fin 1) i) = Cert.Spec.mean x b i)
    (b : Fin 32) (l : Fin 65536) (a : Fin 4) (i : Fin 3) :
    (R1.dat1 (F := Ideal) V c).arrAt 3 cfg1.N (ix3 b l (⟨3 * a.val + i.val, by have := a.isLt; have := i.isLt; omega⟩ : Fin 12))
      = Cert.Spec.Gat x q b l a i := by
  have hfin : (R1.dat1 (F := Ideal) V c).arrAt 3 cfg1.N = rotArr x q :=
    (R1.dat1 (F := Ideal) V c).arrAt_eq_of_cover 3 (rotArr x q) (fun t _ => flushed3_eq V c x q hx hq hm t) covered3
  rw [hfin]
  have ha := a.isLt
  have hi := i.isLt
  show Cert.Spec.Gat x q b l ⟨(3 * a.val + i.val) / 3, _⟩ ⟨(3 * a.val + i.val) % 3, _⟩ = Cert.Spec.Gat x q b l a i
  congr 1
  · apply Fin.ext; show (3 * a.val + i.val) / 3 = a.val; omega
  · apply Fin.ext; show (3 * a.val + i.val) % 3 = i.val; omega

end Cert.KernelIdeal.KRot

end
-- ==== Proof.KI.Val.lean ====
/-
  The idealized kernel program's run with its result named: every weakly fair execution terminates with the result
  buffer at the specification's function of the two argument arrays, the arguments unchanged. The result buffer is the
  second region's output array reshaped from twelve columns to four atoms of three coordinates: column `3·a + i` is
  atom `a`, coordinate `i`.
-/
import proofs.«174519_j29231547417075_1_alg».proof.Proof.Gen.KernelIdeal.Launch
import proofs.«174519_j29231547417075_1_alg».proof.Proof.Gen.KernelIdeal.Skeleton
import proofs.«174519_j29231547417075_1_alg».proof.Proof.Gen.KernelIdeal.Points
import proofs.«174519_j29231547417075_1_alg».proof.Proof.KI.Run
import proofs.«174519_j29231547417075_1_alg».proof.Proof.KI.Mean
import proofs.«174519_j29231547417075_1_alg».proof.Proof.KI.Rot
import proofs.«174519_j29231547417075_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- Twelve columns reshaped to four atoms of three coordinates: atom `a`, coordinate `i` is column `3·a + i` (the two
    row-major positions are equal). -/
theorem cast_at {α : Type} (v : S32x65536x12.Idx → α) (h : S32x65536x12.ShapeCasts S32x65536x4x3)
    (b : Fin 32) (l : Fin 65536) (a : Fin 4) (i : Fin 3) :
    shapeCast S32x65536x4x3 v h (ix4 b l a i)
      = v (ix3 b l (⟨3 * a.val + i.val, by have := a.isLt; have := i.isLt; omega⟩ : Fin 12)) := by
  refine shapeCast_apply v h _ _ ?_
  rw [Shape.rowMajor_val_three, Shape.rowMajor_val_four]
  show (b.val * 65536 + l.val) * 12 + (3 * a.val + i.val) = ((b.val * 65536 + l.val) * 4 + a.val) * 3 + i.val
  ring

/-- The result buffer at the end is the specification's whole-array function of the launch contents of the arguments:
    the second region's output array reshaped, that array read column by column, the means it was computed from being
    what the first region left of the launch translations. -/
theorem result_eq (c : Dev nD) :
    Gen.V3 m (KRun.outs m) c main_v2
      = Cert.Spec.G (m ((c : Thread nD τ).loc main_arg0)) (m ((c : Thread nD τ).loc main_arg1)) := by
  rw [KRun.V3_v2 (F := Ideal) m c]
  funext o
  obtain ⟨b, l, a, i, rfl⟩ : ∃ (b : Fin 32) (l : Fin 65536) (a : Fin 4) (i : Fin 3), o = ix4 b l a i :=
    ⟨o 0, o 1, o 2, o 3, eq_ix4 o⟩
  rw [Cert.Spec.G_ix4]
  refine (cast_at _ _ b l a i).trans ?_
  exact KRot.rot_arr (KRun.Ve1 m) c _ _ (KRun.Ve1_arg0 (F := Ideal) m c) (KRun.Ve1_arg1 (F := Ideal) m c)
    (fun b' i' => by
      rw [KRun.Ve1_v0 (F := Ideal) m c]
      exact KMean.mean_arr (KRun.Ve0 m) c b' i')
    b l a i

/-- THE RUN: the result at the specification, the arguments as launched. -/
theorem run : θ_run (defs (F := Ideal)) (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (result_eq m c), (h c).2⟩) (KRun.run_v2 (F := Ideal) m ρ)

end Cert.KernelIdeal.KVal

end
-- ==== Proof.Ref.Term.lean ====
/-
  The reference's result as ONE pure term of its two argument arrays, built stage by stage as the reference's host
  operations compute it: the translations centred on their per-batch mean (`tc`), the quaternions divided by their norm
  plus the guard (`qnrm`), the four components of the normalised quaternion (`comp0` … `comp3`), the nine entries of the
  rotation matrix (`r00` … `r22`), the matrix assembled from its rows (`row`, `lift`, `mat`), its contraction with the
  atoms' table, transposed, plus the centred translation broadcast over the atoms (`refOut`).
-/
import proofs.«174519_j29231547417075_1_alg».proof.Proof.Gen.ReferenceIdeal
import Idealize.ShloMosaic.PureOps

noncomputable section

namespace Cert.ReferenceIdeal.RefTerm

open Cert.ReferenceIdeal Cert.ReferenceIdeal.Gen Idealize.ShloMosaic

variable {F : FTy → Type} [FloatOps F]

/-- The translations minus their mean over the 65536 residues of each batch: the sum over the residue axis from zero,
    divided by 65536, broadcast back. -/
def tc (x : FVec F S32x65536x3 .f32) : FVec F S32x65536x3 .f32 :=
  subf x (broadcastInDim S32x65536x3 ![0, 1, 2] bcast_S32x1x3_S32x65536x3_0_1_2
    (Host.divf
      (broadcastInDim S32x1x3 ![0, 2] bcast_S32x3_S32x1x3_0_2
        (Host.reduceAdd x (constant S_ .f32 0x00000000#32) reducesTo_S32x65536x3_S32x3_d1 h_S_))
      (broadcastInDim S32x1x3 ![] bcast_S_S32x1x3 (constant S_ .f32 0x47800000#32))))

/-- Each quaternion divided by its norm plus the guard: the square root of the sum of the four squares from zero. -/
def qnrm (q : FVec F S32x65536x4 .f32) : FVec F S32x65536x4 .f32 :=
  Host.divf q (broadcastInDim S32x65536x4 ![0, 1, 2] bcast_S32x65536x1_S32x65536x4_0_1_2
    (addf
      (Host.sqrt (broadcastInDim S32x65536x1 ![0, 1] bcast_S32x65536_S32x65536x1_0_1
        (Host.reduceAdd (mulf q q) (constant S_ .f32 0x00000000#32) reducesTo_S32x65536x4_S32x65536_d2 h_S_)))
      (broadcastInDim S32x65536x1 ![] bcast_S_S32x65536x1 (constant S_ .f32 0x358637BD#32))))

/-- The four components of the normalised quaternion, each a slice along the last axis with that axis dropped. -/
def comp0 (qn : FVec F S32x65536x4 .f32) : FVec F S32x65536 .f32 :=
  shapeCast S32x65536 (extractStridedSlice S32x65536x1 ![0, 0, 0] qn slices_S32x65536x4_S32x65536x1_0_0_0) shapeCasts_S32x65536x1_S32x65536
def comp1 (qn : FVec F S32x65536x4 .f32) : FVec F S32x65536 .f32 :=
  shapeCast S32x65536 (extractStridedSlice S32x65536x1 ![0, 0, 1] qn slices_S32x65536x4_S32x65536x1_0_0_1) shapeCasts_S32x65536x1_S32x65536
def comp2 (qn : FVec F S32x65536x4 .f32) : FVec F S32x65536 .f32 :=
  shapeCast S32x65536 (extractStridedSlice S32x65536x1 ![0, 0, 2] qn slices_S32x65536x4_S32x65536x1_0_0_2) shapeCasts_S32x65536x1_S32x65536
def comp3 (qn : FVec F S32x65536x4 .f32) : FVec F S32x65536 .f32 :=
  shapeCast S32x65536 (extractStridedSlice S32x65536x1 ![0, 0, 3] qn slices_S32x65536x4_S32x65536x1_0_0_3) shapeCasts_S32x65536x1_S32x65536

/-- The constants 2 and 1 over the residues. -/
def two : FVec F S32x65536 .f32 := broadcastInDim S32x65536 ![] bcast_S_S32x65536 (constant S_ .f32 0x40000000#32)
def one : FVec F S32x65536 .f32 := broadcastInDim S32x65536 ![] bcast_S_S32x65536 (constant S_ .f32 0x3F800000#32)

/-- The rotation matrix of the quaternion (r, i, j, k), entry by entry. -/
def r00 (r i j k : FVec F S32x65536 .f32) : FVec F S32x65536 .f32 := subf one (mulf two (addf (mulf j j) (mulf k k)))
def r01 (r i j k : FVec F S32x65536 .f32) : FVec F S32x65536 .f32 := mulf two (subf (mulf i j) (mulf k r))
def r02 (r i j k : FVec F S32x65536 .f32) : FVec F S32x65536 .f32 := mulf two (addf (mulf i k) (mulf j r))
def r10 (r i j k : FVec F S32x65536 .f32) : FVec F S32x65536 .f32 := mulf two (addf (mulf i j) (mulf k r))
def r11 (r i j k : FVec F S32x65536 .f32) : FVec F S32x65536 .f32 := subf one (mulf two (addf (mulf i i) (mulf k k)))
def r12 (r i j k : FVec F S32x65536 .f32) : FVec F S32x65536 .f32 := mulf two (subf (mulf j k) (mulf i r))
def r20 (r i j k : FVec F S32x65536 .f32) : FVec F S32x65536 .f32 := mulf two (subf (mulf i k) (mulf j r))
def r21 (r i j k : FVec F S32x65536 .f32) : FVec F S32x65536 .f32 := mulf two (addf (mulf j k) (mulf i r))
def r22 (r i j k : FVec F S32x65536 .f32) : FVec F S32x65536 .f32 := subf one (mulf two (addf (mulf i i) (mulf j j)))

/-- An entry as a column of width one; three columns side by side as a row of the matrix. -/
def col (v : FVec F S32x65536 .f32) : FVec F S32x65536x1 .f32 :=
  broadcastInDim S32x65536x1 ![0, 1] bcast_S32x65536_S32x65536x1_0_1 v
def row (a b c : FVec F S32x65536 .f32) : FVec F S32x65536x3 .f32 :=
  concatenate S32x65536x3 2 [⟨S32x65536x1, col a⟩, ⟨S32x65536x1, col b⟩, ⟨S32x65536x1, col c⟩] concatenates_S32x65536x1_S32x65536x1_S32x65536x1_S32x65536x3_d2

/-- A row given a unit axis before its last; three rows stacked along it as the matrix. -/
def lift (v : FVec F S32x65536x3 .f32) : FVec F S32x65536x1x3 .f32 :=
  broadcastInDim S32x65536x1x3 ![0, 1, 3] bcast_S32x65536x3_S32x65536x1x3_0_1_3 v
def mat (a b c : FVec F S32x65536x3 .f32) : FVec F S32x65536x3x3 .f32 :=
  concatenate S32x65536x3x3 2 [⟨S32x65536x1x3, lift a⟩, ⟨S32x65536x1x3, lift b⟩, ⟨S32x65536x1x3, lift c⟩] concatenates_S32x65536x1x3_S32x65536x1x3_S32x65536x1x3_S32x65536x3x3_d2

/-- The atoms' internal coordinates: the literal table, row-major. -/
def atoms : FVec F S4x3 .f32 := fun i => FloatOps.ofBits .f32 (lit0 (S4x3.rowMajor i))

/-- The rotation matrix of the normalised quaternions. -/
def rotm (q : FVec F S32x65536x4 .f32) : FVec F S32x65536x3x3 .f32 :=
  let r := comp0 (qnrm q); let i := comp1 (qnrm q); let j := comp2 (qnrm q); let k := comp3 (qnrm q)
  mat (row (r00 r i j k) (r01 r i j k) (r02 r i j k)) (row (r10 r i j k) (r11 r i j k) (r12 r i j k)) (row (r20 r i j k) (r21 r i j k) (r22 r i j k))

/-- The reference's result: the atoms' table contracted with the rotation matrix over the matrix's last axis, the atom
    axis moved behind the residue axis, plus the centred translation broadcast over the atoms. -/
def refOut (x : FVec F S32x65536x3 .f32) (q : FVec F S32x65536x4 .f32) : FVec F S32x65536x4x3 .f32 :=
  addf
    (transpose S32x65536x4x3 [1, 2, 0, 3]
      (Host.dotGeneral dot_S4x3_S32x65536x3x3_S4x32x65536x3_1_3_0_012_n_n none atoms (rotm q))
      transposes_S4x32x65536x3_S32x65536x4x3_1_2_0_3)
    (broadcastInDim S32x65536x4x3 ![0, 1, 2, 3] bcast_S32x65536x1x3_S32x65536x4x3_0_1_2_3 (lift (tc x)))

end Cert.ReferenceIdeal.RefTerm

end
-- ==== Proof.Ref.Ops.lean ====
/- GENERATED by: python3 scratch/mkops.py proof/ReferenceIdeal.lean proof/Proof/Ref/Ops.lean  (run in the unit directory) --
   the reference program's @main as lists of its 111 host operations in order, the function it calls laid out at its
   call site, cut before each concatenation into 5 stretches. Lists only: no theorem. -/
import proofs.«174519_j29231547417075_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 to 51 of @main. -/
abbrev opsA : List (HloOp τ sig (Elt F)) :=
  [ StableHlo.nullary main_cst (fun i => FloatOps.ofBits .f32 (lit0 (S4x3.rowMajor i))),
    StableHlo.nullary main_cst_0 (constant S_ .f32 0x00000000#32),
    StableHlo.binary main_arg0 main_cst_0 main_v0 ((fun x v => Host.reduceAdd x v reducesTo_S32x65536x3_S32x3_d1 h_S_) : (⟨S32x65536x3, .f32⟩ : BufTy).Contents (Elt F) → (⟨S_, .f32⟩ : BufTy).Contents (Elt F) → (⟨S32x3, .f32⟩ : BufTy).Contents (Elt F)),
    StableHlo.unary main_v0 main_v1 (broadcastInDim S32x1x3 ![0, 2] bcast_S32x3_S32x1x3_0_2 : (⟨S32x3, .f32⟩ : BufTy).Contents (Elt F) → (⟨S32x1x3, .f32⟩ : BufTy).Contents (Elt F)),
    StableHlo.nullary main_cst_1 (constant S_ .f32 0x47800000#32),
    StableHlo.unary main_cst_1 main_v2 (broadcastInDim S32x1x3 ![] bcast_S_S32x1x3 : (⟨S_, .f32⟩ : BufTy).Contents (Elt F) → (⟨S32x1x3, .f32⟩ : BufTy).Contents (Elt F)),
    StableHlo.binary main_v1 main_v2 main_v3 (Host.divf : (⟨S32x1x3, .f32⟩ : BufTy).Contents (Elt F) → (⟨S32x1x3, .f32⟩ : BufTy).Contents (Elt F) → (⟨S32x1x3, .f32⟩ : BufTy).Contents (Elt F)),
    StableHlo.unary main_v3 main_v4 (broadcastInDim S32x65536x3 ![0, 1, 2] bcast_S32x1x3_S32x65536x3_0_1_2 : (⟨S32x1x3, .f32⟩ : BufTy).Contents (Elt F) → (⟨S32x65536x3, .f32⟩ : BufTy).Contents (Elt F)),
    StableHlo.binary main_arg0 main_v4 main_v5 (subf : (⟨S32x65536x3, .f32⟩ : BufTy).Contents (Elt F) → (⟨S32x65536x3, .f32⟩ : BufTy).Contents (Elt F) → (⟨S32x65536x3, .f32⟩ : BufTy).Contents (Elt F)),
    TRef.binary (.of main_arg1) (.of main_arg1) main_call0.v0 mulf,
    TRef.nullary main_call0.cst (constant S_ .f32 0x00000000#32),
    TRef.binary main_call0.v0 main_call0.cst main_call0.v1 (fun x v => Host.reduceAdd x v reducesTo_S32x65536x4_S32x65536_d2 h_S_),
    TRef.unary main_call0.v1 main_call0.v2 (broadcastInDim S32x65536x1 ![0, 1] bcast_S32x65536_S32x65536x1_0_1),
    TRef.unary main_call0.v2 main_call0.v3 Host.sqrt,
    StableHlo.nullary main_cst_2 (constant S_ .f32 0x358637BD#32),
    StableHlo.unary main_cst_2 main_v7 (broadcastInDim S32x65536x1 ![] bcast_S_S32x65536x1 : (⟨S_, .f32⟩ : BufTy).Contents (Elt F) → (⟨S32x65536x1, .f32⟩ : BufTy).Contents (Elt F)),
    StableHlo.binary main_v6 main_v7 main_v8 (addf : (⟨S32x65536x1, .f32⟩ : BufTy).Contents (Elt F) → (⟨S32x65536x1, .f32⟩ : BufTy).Contents (Elt F) → (⟨S32x65536x1, .f32⟩ : BufTy).Contents (Elt F)),
    StableHlo.unary main_v8 main_v9 (broadcastInDim S32x65536x4 ![0, 1, 2] bcast_S32x65536x1_S32x65536x4_0_1_2 : (⟨S32x65536x1, .f32⟩ : BufTy).Contents (Elt F) → (⟨S32x65536x4, .f32⟩ : BufTy).Contents (Elt F)),
    StableHlo.binary main_arg1 main_v9 main_v10 (Host.divf : (⟨S32x65536x4, .f32⟩ : BufTy).Contents (Elt F) → (⟨S32x65536x4, .f32⟩ : BufTy).Contents (Elt F) → (⟨S32x65536x4, .f32⟩ : BufTy).Contents (Elt F)),
    StableHlo.unary main_v10 main_v11 ((extractStridedSlice S32x65536x1 ![0, 0, 0] · slices_S32x65536x4_S32x65536x1_0_0_0) : (⟨S32x65536x4, .f32⟩ : BufTy).Contents (Elt F) → (⟨S32x65536x1, .f32⟩ : BufTy).Contents (Elt F)),
    StableHlo.reshape main_v11 main_v12 rfl shapeCasts_S32x65536x1_S32x65536,
    StableHlo.unary main_v10 main_v13 ((extractStridedSlice S32x65536x1 ![0, 0, 1] · slices_S32x65536x4_S32x65536x1_0_0_1) : (⟨S32x65536x4, .f32⟩ : BufTy).Contents (Elt F) → (⟨S32x65536x1, .f32⟩ : BufTy).Contents (Elt F)),
    StableHlo.reshape main_v13 main_v14 rfl shapeCasts_S32x65536x1_S32x65536,
    StableHlo.unary main_v10 main_v15 ((extractStridedSlice S32x65536x1 ![0, 0, 2] · slices_S32x65536x4_S32x65536x1_0_0_2) : (⟨S32x65536x4, .f32⟩ : BufTy).Contents (Elt F) → (⟨S32x65536x1, .f32⟩ : BufTy).Contents (Elt F)),
    StableHlo.reshape main_v15 main_v16 rfl shapeCasts_S32x65536x1_S32x65536,
    StableHlo.unary main_v10 main_v17 ((extractStridedSlice S32x65536x1 ![0, 0, 3] · slices_S32x65536x4_S32x65536x1_0_0_3) : (⟨S32x65536x4, .f32⟩ : BufTy).Contents (Elt F) → (⟨S32x65536x1, .f32⟩ : BufTy).Contents (Elt F)),
    StableHlo.reshape main_v17 main_v18 rfl shapeCasts_S32x65536x1_S32x65536,
    StableHlo.binary main_v16 main_v16 main_v19 (mulf : (⟨S32x65536, .f32⟩ : BufTy).Contents (Elt F) → (⟨S32x65536, .f32⟩ : BufTy).Contents (Elt F) → (⟨S32x65536, .f32⟩ : BufTy).Contents (Elt F)),
    StableHlo.binary main_v18 main_v18 main_v20 (mulf : (⟨S32x65536, .f32⟩ : BufTy).Contents (Elt F) → (⟨S32x65536, .f32⟩ : BufTy).Contents (Elt F) → (⟨S32x65536, .f32⟩ : BufTy).Contents (Elt F)),
    StableHlo.binary main_v19 main_v20 main_v21 (addf : (⟨S32x65536, .f32⟩ : BufTy).Contents (Elt F) → (⟨S32x65536, .f32⟩ : BufTy).Contents (Elt F) → (⟨S32x65536, .f32⟩ : BufTy).Contents (Elt F)),
    StableHlo.nullary main_cst_3 (constant S_ .f32 0x40000000#32),
    StableHlo.unary main_cst_3 main_v22 (broadcastInDim S32x65536 ![] bcast_S_S32x65536 : (⟨S_, .f32⟩ : BufTy).Contents (Elt F) → (⟨S32x65536, .f32⟩ : BufTy).Contents (Elt F)),
    StableHlo.binary main_v22 main_v21 main_v23 (mulf : (⟨S32x65536, .f32⟩ : BufTy).Contents (Elt F) → (⟨S32x65536, .f32⟩ : BufTy).Contents (Elt F) → (⟨S32x65536, .f32⟩ : BufTy).Contents (Elt F)),
    StableHlo.nullary main_cst_4 (constant S_ .f32 0x3F800000#32),
    StableHlo.unary main_cst_4 main_v24 (broadcastInDim S32x65536 ![] bcast_S_S32x65536 : (⟨S_, .f32⟩ : BufTy).Contents (Elt F) → (⟨S32x65536, .f32⟩ : BufTy).Contents (Elt F)),
    StableHlo.binary main_v24 main_v23 main_v25 (subf : (⟨S32x65536, .f32⟩ : BufTy).Contents (Elt F) → (⟨S32x65536, .f32⟩ : BufTy).Contents (Elt F) → (⟨S32x65536, .f32⟩ : BufTy).Contents (Elt F)),
    StableHlo.binary main_v14 main_v16 main_v26 (mulf : (⟨S32x65536, .f32⟩ : BufTy).Contents (Elt F) → (⟨S32x65536, .f32⟩ : BufTy).Contents (Elt F) → (⟨S32x65536, .f32⟩ : BufTy).Contents (Elt F)),
    StableHlo.binary main_v18 main_v12 main_v27 (mulf : (⟨S32x65536, .f32⟩ : BufTy).Contents (Elt F) → (⟨S32x65536, .f32⟩ : BufTy).Contents (Elt F) → (⟨S32x65536, .f32⟩ : BufTy).Contents (Elt F)),
    StableHlo.binary main_v26 main_v27 main_v28 (subf : (⟨S32x65536, .f32⟩ : BufTy).Contents (Elt F) → (⟨S32x65536, .f32⟩ : BufTy).Contents (Elt F) → (⟨S32x65536, .f32⟩ : BufTy).Contents (Elt F)),
    StableHlo.nullary main_cst_5 (constant S_ .f32 0x40000000#32),
    StableHlo.unary main_cst_5 main_v29 (broadcastInDim S32x65536 ![] bcast_S_S32x65536 : (⟨S_, .f32⟩ : BufTy).Contents (Elt F) → (⟨S32x65536, .f32⟩ : BufTy).Contents (Elt F)),
    StableHlo.binary main_v29 main_v28 main_v30 (mulf : (⟨S32x65536, .f32⟩ : BufTy).Contents (Elt F) → (⟨S32x65536, .f32⟩ : BufTy).Contents (Elt F) → (⟨S32x65536, .f32⟩ : BufTy).Contents (Elt F)),
    StableHlo.binary main_v14 main_v18 main_v31 (mulf : (⟨S32x65536, .f32⟩ : BufTy).Contents (Elt F) → (⟨S32x65536, .f32⟩ : BufTy).Contents (Elt F) → (⟨S32x65536, .f32⟩ : BufTy).Contents (Elt F)),
    StableHlo.binary main_v16 main_v12 main_v32 (mulf : (⟨S32x65536, .f32⟩ : BufTy).Contents (Elt F) → (⟨S32x65536, .f32⟩ : BufTy).Contents (Elt F) → (⟨S32x65536, .f32⟩ : BufTy).Contents (Elt F)),
    StableHlo.binary main_v31 main_v32 main_v33 (addf : (⟨S32x65536, .f32⟩ : BufTy).Contents (Elt F) → (⟨S32x65536, .f32⟩ : BufTy).Contents (Elt F) → (⟨S32x65536, .f32⟩ : BufTy).Contents (Elt F)),
    StableHlo.nullary main_cst_6 (constant S_ .f32 0x40000000#32),
    StableHlo.unary main_cst_6 main_v34 (broadcastInDim S32x65536 ![] bcast_S_S32x65536 : (⟨S_, .f32⟩ : BufTy).Contents (Elt F) → (⟨S32x65536, .f32⟩ : BufTy).Contents (Elt F)),
    StableHlo.binary main_v34 main_v33 main_v35 (mulf : (⟨S32x65536, .f32⟩ : BufTy).Contents (Elt F) → (⟨S32x65536, .f32⟩ : BufTy).Contents (Elt F) → (⟨S32x65536, .f32⟩ : BufTy).Contents (Elt F)),
    StableHlo.unary main_v25 main_v36 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v30 main_v37 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v35 main_v38 (broadcastInDim S32x65536x1 ![0, 1] bcast_S32x65536_S32x65536x1_0_1 : (⟨S32x65536, .f32⟩ : BufTy).Contents (Elt F) → (⟨S32x65536x1, .f32⟩ : BufTy).Contents (Elt F)) ]

/-- Operations 52 to 76 of @main. -/
abbrev opsB : List (HloOp τ sig (Elt F)) :=
  [ StableHlo.nary ![main_v36, main_v37, main_v38] main_v39 (fun u => concatenate S32x65536x3 2 [⟨S32x65536x1, u 0⟩, ⟨S32x65536x1, u 1⟩, ⟨S32x65536x1, u 2⟩] concatenates_S32x65536x1_S32x65536x1_S32x65536x1_S32x65536x3_d2),
    StableHlo.binary main_v14 main_v16 main_v40 (mulf : (⟨S32x65536, .f32⟩ : BufTy).Contents (Elt F) → (⟨S32x65536, .f32⟩ : BufTy).Contents (Elt F) → (⟨S32x65536, .f32⟩ : BufTy).Contents (Elt F)),
    StableHlo.binary main_v18 main_v12 main_v41 (mulf : (⟨S32x65536, .f32⟩ : BufTy).Contents (Elt F) → (⟨S32x65536, .f32⟩ : BufTy).Contents (Elt F) → (⟨S32x65536, .f32⟩ : BufTy).Contents (Elt F)),
    StableHlo.binary main_v40 main_v41 main_v42 (addf : (⟨S32x65536, .f32⟩ : BufTy).Contents (Elt F) → (⟨S32x65536, .f32⟩ : BufTy).Contents (Elt F) → (⟨S32x65536, .f32⟩ : BufTy).Contents (Elt F)),
    StableHlo.nullary main_cst_7 (constant S_ .f32 0x40000000#32),
    StableHlo.unary main_cst_7 main_v43 (broadcastInDim S32x65536 ![] bcast_S_S32x65536 : (⟨S_, .f32⟩ : BufTy).Contents (Elt F) → (⟨S32x65536, .f32⟩ : BufTy).Contents (Elt F)),
    StableHlo.binary main_v43 main_v42 main_v44 (mulf : (⟨S32x65536, .f32⟩ : BufTy).Contents (Elt F) → (⟨S32x65536, .f32⟩ : BufTy).Contents (Elt F) → (⟨S32x65536, .f32⟩ : BufTy).Contents (Elt F)),
    StableHlo.binary main_v14 main_v14 main_v45 (mulf : (⟨S32x65536, .f32⟩ : BufTy).Contents (Elt F) → (⟨S32x65536, .f32⟩ : BufTy).Contents (Elt F) → (⟨S32x65536, .f32⟩ : BufTy).Contents (Elt F)),
    StableHlo.binary main_v18 main_v18 main_v46 (mulf : (⟨S32x65536, .f32⟩ : BufTy).Contents (Elt F) → (⟨S32x65536, .f32⟩ : BufTy).Contents (Elt F) → (⟨S32x65536, .f32⟩ : BufTy).Contents (Elt F)),
    StableHlo.binary main_v45 main_v46 main_v47 (addf : (⟨S32x65536, .f32⟩ : BufTy).Contents (Elt F) → (⟨S32x65536, .f32⟩ : BufTy).Contents (Elt F) → (⟨S32x65536, .f32⟩ : BufTy).Contents (Elt F)),
    StableHlo.nullary main_cst_8 (constant S_ .f32 0x40000000#32),
    StableHlo.unary main_cst_8 main_v48 (broadcastInDim S32x65536 ![] bcast_S_S32x65536 : (⟨S_, .f32⟩ : BufTy).Contents (Elt F) → (⟨S32x65536, .f32⟩ : BufTy).Contents (Elt F)),
    StableHlo.binary main_v48 main_v47 main_v49 (mulf : (⟨S32x65536, .f32⟩ : BufTy).Contents (Elt F) → (⟨S32x65536, .f32⟩ : BufTy).Contents (Elt F) → (⟨S32x65536, .f32⟩ : BufTy).Contents (Elt F)),
    StableHlo.nullary main_cst_9 (constant S_ .f32 0x3F800000#32),
    StableHlo.unary main_cst_9 main_v50 (broadcastInDim S32x65536 ![] bcast_S_S32x65536 : (⟨S_, .f32⟩ : BufTy).Contents (Elt F) → (⟨S32x65536, .f32⟩ : BufTy).Contents (Elt F)),
    StableHlo.binary main_v50 main_v49 main_v51 (subf : (⟨S32x65536, .f32⟩ : BufTy).Contents (Elt F) → (⟨S32x65536, .f32⟩ : BufTy).Contents (Elt F) → (⟨S32x65536, .f32⟩ : BufTy).Contents (Elt F)),
    StableHlo.binary main_v16 main_v18 main_v52 (mulf : (⟨S32x65536, .f32⟩ : BufTy).Contents (Elt F) → (⟨S32x65536, .f32⟩ : BufTy).Contents (Elt F) → (⟨S32x65536, .f32⟩ : BufTy).Contents (Elt F)),
    StableHlo.binary main_v14 main_v12 main_v53 (mulf : (⟨S32x65536, .f32⟩ : BufTy).Contents (Elt F) → (⟨S32x65536, .f32⟩ : BufTy).Contents (Elt F) → (⟨S32x65536, .f32⟩ : BufTy).Contents (Elt F)),
    StableHlo.binary main_v52 main_v53 main_v54 (subf : (⟨S32x65536, .f32⟩ : BufTy).Contents (Elt F) → (⟨S32x65536, .f32⟩ : BufTy).Contents (Elt F) → (⟨S32x65536, .f32⟩ : BufTy).Contents (Elt F)),
    StableHlo.nullary main_cst_10 (constant S_ .f32 0x40000000#32),
    StableHlo.unary main_cst_10 main_v55 (broadcastInDim S32x65536 ![] bcast_S_S32x65536 : (⟨S_, .f32⟩ : BufTy).Contents (Elt F) → (⟨S32x65536, .f32⟩ : BufTy).Contents (Elt F)),
    StableHlo.binary main_v55 main_v54 main_v56 (mulf : (⟨S32x65536, .f32⟩ : BufTy).Contents (Elt F) → (⟨S32x65536, .f32⟩ : BufTy).Contents (Elt F) → (⟨S32x65536, .f32⟩ : BufTy).Contents (Elt F)),
    StableHlo.unary main_v44 main_v57 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v51 main_v58 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v56 main_v59 (broadcastInDim S32x65536x1 ![0, 1] bcast_S32x65536_S32x65536x1_0_1 : (⟨S32x65536, .f32⟩ : BufTy).Contents (Elt F) → (⟨S32x65536x1, .f32⟩ : BufTy).Contents (Elt F)) ]

/-- Operations 77 to 101 of @main. -/
abbrev opsC : List (HloOp τ sig (Elt F)) :=
  [ StableHlo.nary ![main_v57, main_v58, main_v59] main_v60 (fun u => concatenate S32x65536x3 2 [⟨S32x65536x1, u 0⟩, ⟨S32x65536x1, u 1⟩, ⟨S32x65536x1, u 2⟩] concatenates_S32x65536x1_S32x65536x1_S32x65536x1_S32x65536x3_d2),
    StableHlo.binary main_v14 main_v18 main_v61 (mulf : (⟨S32x65536, .f32⟩ : BufTy).Contents (Elt F) → (⟨S32x65536, .f32⟩ : BufTy).Contents (Elt F) → (⟨S32x65536, .f32⟩ : BufTy).Contents (Elt F)),
    StableHlo.binary main_v16 main_v12 main_v62 (mulf : (⟨S32x65536, .f32⟩ : BufTy).Contents (Elt F) → (⟨S32x65536, .f32⟩ : BufTy).Contents (Elt F) → (⟨S32x65536, .f32⟩ : BufTy).Contents (Elt F)),
    StableHlo.binary main_v61 main_v62 main_v63 (subf : (⟨S32x65536, .f32⟩ : BufTy).Contents (Elt F) → (⟨S32x65536, .f32⟩ : BufTy).Contents (Elt F) → (⟨S32x65536, .f32⟩ : BufTy).Contents (Elt F)),
    StableHlo.nullary main_cst_11 (constant S_ .f32 0x40000000#32),
    StableHlo.unary main_cst_11 main_v64 (broadcastInDim S32x65536 ![] bcast_S_S32x65536 : (⟨S_, .f32⟩ : BufTy).Contents (Elt F) → (⟨S32x65536, .f32⟩ : BufTy).Contents (Elt F)),
    StableHlo.binary main_v64 main_v63 main_v65 (mulf : (⟨S32x65536, .f32⟩ : BufTy).Contents (Elt F) → (⟨S32x65536, .f32⟩ : BufTy).Contents (Elt F) → (⟨S32x65536, .f32⟩ : BufTy).Contents (Elt F)),
    StableHlo.binary main_v16 main_v18 main_v66 (mulf : (⟨S32x65536, .f32⟩ : BufTy).Contents (Elt F) → (⟨S32x65536, .f32⟩ : BufTy).Contents (Elt F) → (⟨S32x65536, .f32⟩ : BufTy).Contents (Elt F)),
    StableHlo.binary main_v14 main_v12 main_v67 (mulf : (⟨S32x65536, .f32⟩ : BufTy).Contents (Elt F) → (⟨S32x65536, .f32⟩ : BufTy).Contents (Elt F) → (⟨S32x65536, .f32⟩ : BufTy).Contents (Elt F)),
    StableHlo.binary main_v66 main_v67 main_v68 (addf : (⟨S32x65536, .f32⟩ : BufTy).Contents (Elt F) → (⟨S32x65536, .f32⟩ : BufTy).Contents (Elt F) → (⟨S32x65536, .f32⟩ : BufTy).Contents (Elt F)),
    StableHlo.nullary main_cst_12 (constant S_ .f32 0x40000000#32),
    StableHlo.unary main_cst_12 main_v69 (broadcastInDim S32x65536 ![] bcast_S_S32x65536 : (⟨S_, .f32⟩ : BufTy).Contents (Elt F) → (⟨S32x65536, .f32⟩ : BufTy).Contents (Elt F)),
    StableHlo.binary main_v69 main_v68 main_v70 (mulf : (⟨S32x65536, .f32⟩ : BufTy).Contents (Elt F) → (⟨S32x65536, .f32⟩ : BufTy).Contents (Elt F) → (⟨S32x65536, .f32⟩ : BufTy).Contents (Elt F)),
    StableHlo.binary main_v14 main_v14 main_v71 (mulf : (⟨S32x65536, .f32⟩ : BufTy).Contents (Elt F) → (⟨S32x65536, .f32⟩ : BufTy).Contents (Elt F) → (⟨S32x65536, .f32⟩ : BufTy).Contents (Elt F)),
    StableHlo.binary main_v16 main_v16 main_v72 (mulf : (⟨S32x65536, .f32⟩ : BufTy).Contents (Elt F) → (⟨S32x65536, .f32⟩ : BufTy).Contents (Elt F) → (⟨S32x65536, .f32⟩ : BufTy).Contents (Elt F)),
    StableHlo.binary main_v71 main_v72 main_v73 (addf : (⟨S32x65536, .f32⟩ : BufTy).Contents (Elt F) → (⟨S32x65536, .f32⟩ : BufTy).Contents (Elt F) → (⟨S32x65536, .f32⟩ : BufTy).Contents (Elt F)),
    StableHlo.nullary main_cst_13 (constant S_ .f32 0x40000000#32),
    StableHlo.unary main_cst_13 main_v74 (broadcastInDim S32x65536 ![] bcast_S_S32x65536 : (⟨S_, .f32⟩ : BufTy).Contents (Elt F) → (⟨S32x65536, .f32⟩ : BufTy).Contents (Elt F)),
    StableHlo.binary main_v74 main_v73 main_v75 (mulf : (⟨S32x65536, .f32⟩ : BufTy).Contents (Elt F) → (⟨S32x65536, .f32⟩ : BufTy).Contents (Elt F) → (⟨S32x65536, .f32⟩ : BufTy).Contents (Elt F)),
    StableHlo.nullary main_cst_14 (constant S_ .f32 0x3F800000#32),
    StableHlo.unary main_cst_14 main_v76 (broadcastInDim S32x65536 ![] bcast_S_S32x65536 : (⟨S_, .f32⟩ : BufTy).Contents (Elt F) → (⟨S32x65536, .f32⟩ : BufTy).Contents (Elt F)),
    StableHlo.binary main_v76 main_v75 main_v77 (subf : (⟨S32x65536, .f32⟩ : BufTy).Contents (Elt F) → (⟨S32x65536, .f32⟩ : BufTy).Contents (Elt F) → (⟨S32x65536, .f32⟩ : BufTy).Contents (Elt F)),
    StableHlo.unary main_v65 main_v78 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v70 main_v79 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v77 main_v80 (broadcastInDim S32x65536x1 ![0, 1] bcast_S32x65536_S32x65536x1_0_1 : (⟨S32x65536, .f32⟩ : BufTy).Contents (Elt F) → (⟨S32x65536x1, .f32⟩ : BufTy).Contents (Elt F)) ]

/-- Operations 102 to 105 of @main. -/
abbrev opsD : List (HloOp τ sig (Elt F)) :=
  [ StableHlo.nary ![main_v78, main_v79, main_v80] main_v81 (fun u => concatenate S32x65536x3 2 [⟨S32x65536x1, u 0⟩, ⟨S32x65536x1, u 1⟩, ⟨S32x65536x1, u 2⟩] concatenates_S32x65536x1_S32x65536x1_S32x65536x1_S32x65536x3_d2),
    StableHlo.unary main_v39 main_v82 (broadcastInDim S32x65536x1x3 ![0, 1, 3] bcast_S32x65536x3_S32x65536x1x3_0_1_3 : (⟨S32x65536x3, .f32⟩ : BufTy).Contents (Elt F) → (⟨S32x65536x1x3, .f32⟩ : BufTy).Contents (Elt F)),
    StableHlo.unary main_v60 main_v83 (broadcastInDim S32x65536x1x3 ![0, 1, 3] bcast_S32x65536x3_S32x65536x1x3_0_1_3 : (⟨S32x65536x3, .f32⟩ : BufTy).Contents (Elt F) → (⟨S32x65536x1x3, .f32⟩ : BufTy).Contents (Elt F)),
    StableHlo.unary main_v81 main_v84 (broadcastInDim S32x65536x1x3 ![0, 1, 3] bcast_S32x65536x3_S32x65536x1x3_0_1_3 : (⟨S32x65536x3, .f32⟩ : BufTy).Contents (Elt F) → (⟨S32x65536x1x3, .f32⟩ : BufTy).Contents (Elt F)) ]

/-- Operations 106 to 111 of @main. -/
abbrev opsE : List (HloOp τ sig (Elt F)) :=
  [ StableHlo.nary ![main_v82, main_v83, main_v84] main_v85 (fun u => concatenate S32x65536x3x3 2 [⟨S32x65536x1x3, u 0⟩, ⟨S32x65536x1x3, u 1⟩, ⟨S32x65536x1x3, u 2⟩] concatenates_S32x65536x1x3_S32x65536x1x3_S32x65536x1x3_S32x65536x3x3_d2),
    StableHlo.binary main_cst main_v85 main_v86 ((fun l r => Host.dotGeneral dot_S4x3_S32x65536x3x3_S4x32x65536x3_1_3_0_012_n_n none l r) : (⟨S4x3, .f32⟩ : BufTy).Contents (Elt F) → (⟨S32x65536x3x3, .f32⟩ : BufTy).Contents (Elt F) → (⟨S4x32x65536x3, .f32⟩ : BufTy).Contents (Elt F)),
    StableHlo.unary main_v86 main_v87 ((transpose S32x65536x4x3 [1, 2, 0, 3] · transposes_S4x32x65536x3_S32x65536x4x3_1_2_0_3) : (⟨S4x32x65536x3, .f32⟩ : BufTy).Contents (Elt F) → (⟨S32x65536x4x3, .f32⟩ : BufTy).Contents (Elt F)),
    StableHlo.unary main_v5 main_v88 (broadcastInDim S32x65536x1x3 ![0, 1, 3] bcast_S32x65536x3_S32x65536x1x3_0_1_3 : (⟨S32x65536x3, .f32⟩ : BufTy).Contents (Elt F) → (⟨S32x65536x1x3, .f32⟩ : BufTy).Contents (Elt F)),
    StableHlo.unary main_v88 main_v89 (broadcastInDim S32x65536x4x3 ![0, 1, 2, 3] bcast_S32x65536x1x3_S32x65536x4x3_0_1_2_3 : (⟨S32x65536x1x3, .f32⟩ : BufTy).Contents (Elt F) → (⟨S32x65536x4x3, .f32⟩ : BufTy).Contents (Elt F)),
    StableHlo.binary main_v87 main_v89 main_v90 (addf : (⟨S32x65536x4x3, .f32⟩ : BufTy).Contents (Elt F) → (⟨S32x65536x4x3, .f32⟩ : BufTy).Contents (Elt F) → (⟨S32x65536x4x3, .f32⟩ : BufTy).Contents (Elt F)) ]

/-- @main's operations, in order. -/
abbrev ops : List (HloOp τ sig (Elt F)) := opsA ++ (opsB ++ (opsC ++ (opsD ++ opsE)))

end Cert.ReferenceIdeal.RefOps

end
-- ==== Proof.Ref.Run.lean ====
/-
  The reference program's run read back over the list of its host operations (the lists themselves are in Ref/Ops.lean:
  @main's operations in order, the norm function it calls laid out at its call site, cut before each concatenation):
  @main is that straight line, and every weakly fair execution terminates with the result buffer at the one pure term
  `RefTerm.refOut` of the two argument arrays, the arguments unchanged.
-/
import proofs.«174519_j29231547417075_1_alg».proof.Proof.Gen.ReferenceIdeal
import proofs.«174519_j29231547417075_1_alg».proof.Proof.Ref.Term
import proofs.«174519_j29231547417075_1_alg».proof.Proof.Ref.Ops
import Idealize.ShloMosaic.Lib.StableHlo.Run
import Idealize.ShloMosaic.Lib.Pipeline.Frame
import Mathlib.Data.List.Basic

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 16384 in
set_option maxHeartbeats 4000000 in
/-- @main is that straight line. -/
theorem main_eq (c : Dev nD) : main (F := F) c = seq ops := rfl

section Stretches
open RefTerm

/-! ### What each stretch leaves at the buffers later stretches read

Each lemma is over an ARBITRARY valuation before the stretch: the stretch's fold at one buffer, as the stage function
of Ref/Term.lean applied to what the valuation holds at the buffers the stretch reads. A buffer the stretch does not
write keeps what it held. -/

/-! #### First stretch: the centred translations, the atoms' table, the normalised quaternion's four components, and
the first row's three entries as columns -/

section First
variable (V : Valuation τ sig (Elt F))

/-- The translations minus their per-batch mean. -/
theorem A_v5 : after opsA V (main_v5 : DevRef τ sig) = tc (V (main_arg0 : DevRef τ sig)) := by
  simp only [after_cons, after_nil]
  rfl
/-- The atoms' literal table. -/
theorem A_cst : after opsA V (main_cst : DevRef τ sig) = atoms := by
  simp only [after_cons, after_nil]
  rfl
/-- The four components of the quaternion divided by its guarded norm. -/
theorem A_v12 : after opsA V (main_v12 : DevRef τ sig) = comp0 (qnrm (V (main_arg1 : DevRef τ sig))) := by
  simp only [after_cons, after_nil]
  rfl
theorem A_v14 : after opsA V (main_v14 : DevRef τ sig) = comp1 (qnrm (V (main_arg1 : DevRef τ sig))) := by
  simp only [after_cons, after_nil]
  rfl
theorem A_v16 : after opsA V (main_v16 : DevRef τ sig) = comp2 (qnrm (V (main_arg1 : DevRef τ sig))) := by
  simp only [after_cons, after_nil]
  rfl
theorem A_v18 : after opsA V (main_v18 : DevRef τ sig) = comp3 (qnrm (V (main_arg1 : DevRef τ sig))) := by
  simp only [after_cons, after_nil]
  rfl
/-- The first row's entries, each a column. -/
theorem A_v36 : after opsA V (main_v36 : DevRef τ sig) = col (r00 (comp0 (qnrm (V (main_arg1 : DevRef τ sig)))) (comp1 (qnrm (V (main_arg1 : DevRef τ sig)))) (comp2 (qnrm (V (main_arg1 : DevRef τ sig)))) (comp3 (qnrm (V (main_arg1 : DevRef τ sig))))) := by
  simp only [after_cons, after_nil]
  rfl
theorem A_v37 : after opsA V (main_v37 : DevRef τ sig) = col (r01 (comp0 (qnrm (V (main_arg1 : DevRef τ sig)))) (comp1 (qnrm (V (main_arg1 : DevRef τ sig)))) (comp2 (qnrm (V (main_arg1 : DevRef τ sig)))) (comp3 (qnrm (V (main_arg1 : DevRef τ sig))))) := by
  simp only [after_cons, after_nil]
  rfl
theorem A_v38 : after opsA V (main_v38 : DevRef τ sig) = col (r02 (comp0 (qnrm (V (main_arg1 : DevRef τ sig)))) (comp1 (qnrm (V (main_arg1 : DevRef τ sig)))) (comp2 (qnrm (V (main_arg1 : DevRef τ sig)))) (comp3 (qnrm (V (main_arg1 : DevRef τ sig))))) := by
  simp only [after_cons, after_nil]
  rfl
/-- The arguments are not written. -/
theorem A_arg0 : after opsA V (main_arg0 : DevRef τ sig) = V (main_arg0 : DevRef τ sig) := by
  simp only [after_cons, after_nil]
  rfl
theorem A_arg1 : after opsA V (main_arg1 : DevRef τ sig) = V (main_arg1 : DevRef τ sig) := by
  simp only [after_cons, after_nil]
  rfl

end First

/-! #### Second stretch: the first row assembled; the second row's three entries -/

section Second
variable (W : Valuation τ sig (Elt F))

/-- The first row: its three columns side by side. -/
theorem B_v39 : after opsB W (main_v39 : DevRef τ sig)
    = concatenate S32x65536x3 2 [⟨S32x65536x1, W (main_v36 : DevRef τ sig)⟩, ⟨S32x65536x1, W (main_v37 : DevRef τ sig)⟩, ⟨S32x65536x1, W (main_v38 : DevRef τ sig)⟩] concatenates_S32x65536x1_S32x65536x1_S32x65536x1_S32x65536x3_d2 := by
  simp only [after_cons, after_nil]
  rfl
/-- The second row's entries from the four components. -/
theorem B_v57 : after opsB W (main_v57 : DevRef τ sig) = col (r10 (W (main_v12 : DevRef τ sig)) (W (main_v14 : DevRef τ sig)) (W (main_v16 : DevRef τ sig)) (W (main_v18 : DevRef τ sig))) := by
  simp only [after_cons, after_nil]
  rfl
theorem B_v58 : after opsB W (main_v58 : DevRef τ sig) = col (r11 (W (main_v12 : DevRef τ sig)) (W (main_v14 : DevRef τ sig)) (W (main_v16 : DevRef τ sig)) (W (main_v18 : DevRef τ sig))) := by
  simp only [after_cons, after_nil]
  rfl
theorem B_v59 : after opsB W (main_v59 : DevRef τ sig) = col (r12 (W (main_v12 : DevRef τ sig)) (W (main_v14 : DevRef τ sig)) (W (main_v16 : DevRef τ sig)) (W (main_v18 : DevRef τ sig))) := by
  simp only [after_cons, after_nil]
  rfl
/-- Not written by this stretch. -/
theorem B_v12 : after opsB W (main_v12 : DevRef τ sig) = W (main_v12 : DevRef τ sig) := by
  simp only [after_cons, after_nil]
  rfl
theorem B_v14 : after opsB W (main_v14 : DevRef τ sig) = W (main_v14 : DevRef τ sig) := by
  simp only [after_cons, after_nil]
  rfl
theorem B_v16 : after opsB W (main_v16 : DevRef τ sig) = W (main_v16 : DevRef τ sig) := by
  simp only [after_cons, after_nil]
  rfl
theorem B_v18 : after opsB W (main_v18 : DevRef τ sig) = W (main_v18 : DevRef τ sig) := by
  simp only [after_cons, after_nil]
  rfl
theorem B_v5 : after opsB W (main_v5 : DevRef τ sig) = W (main_v5 : DevRef τ sig) := by
  simp only [after_cons, after_nil]
  rfl
theorem B_cst : after opsB W (main_cst : DevRef τ sig) = W (main_cst : DevRef τ sig) := by
  simp only [after_cons, after_nil]
  rfl
theorem B_arg0 : after opsB W (main_arg0 : DevRef τ sig) = W (main_arg0 : DevRef τ sig) := by
  simp only [after_cons, after_nil]
  rfl
theorem B_arg1 : after opsB W (main_arg1 : DevRef τ sig) = W (main_arg1 : DevRef τ sig) := by
  simp only [after_cons, after_nil]
  rfl

end Second

/-! #### Third stretch: the second row assembled; the third row's three entries -/

section Third
variable (W : Valuation τ sig (Elt F))

/-- The second row: its three columns side by side. -/
theorem C_v60 : after opsC W (main_v60 : DevRef τ sig)
    = concatenate S32x65536x3 2 [⟨S32x65536x1, W (main_v57 : DevRef τ sig)⟩, ⟨S32x65536x1, W (main_v58 : DevRef τ sig)⟩, ⟨S32x65536x1, W (main_v59 : DevRef τ sig)⟩] concatenates_S32x65536x1_S32x65536x1_S32x65536x1_S32x65536x3_d2 := by
  simp only [after_cons, after_nil]
  rfl
/-- The third row's entries from the four components. -/
theorem C_v78 : after opsC W (main_v78 : DevRef τ sig) = col (r20 (W (main_v12 : DevRef τ sig)) (W (main_v14 : DevRef τ sig)) (W (main_v16 : DevRef τ sig)) (W (main_v18 : DevRef τ sig))) := by
  simp only [after_cons, after_nil]
  rfl
theorem C_v79 : after opsC W (main_v79 : DevRef τ sig) = col (r21 (W (main_v12 : DevRef τ sig)) (W (main_v14 : DevRef τ sig)) (W (main_v16 : DevRef τ sig)) (W (main_v18 : DevRef τ sig))) := by
  simp only [after_cons, after_nil]
  rfl
theorem C_v80 : after opsC W (main_v80 : DevRef τ sig) = col (r22 (W (main_v12 : DevRef τ sig)) (W (main_v14 : DevRef τ sig)) (W (main_v16 : DevRef τ sig)) (W (main_v18 : DevRef τ sig))) := by
  simp only [after_cons, after_nil]
  rfl
/-- Not written by this stretch. -/
theorem C_v39 : after opsC W (main_v39 : DevRef τ sig) = W (main_v39 : DevRef τ sig) := by
  simp only [after_cons, after_nil]
  rfl
theorem C_v5 : after opsC W (main_v5 : DevRef τ sig) = W (main_v5 : DevRef τ sig) := by
  simp only [after_cons, after_nil]
  rfl
theorem C_cst : after opsC W (main_cst : DevRef τ sig) = W (main_cst : DevRef τ sig) := by
  simp only [after_cons, after_nil]
  rfl
theorem C_arg0 : after opsC W (main_arg0 : DevRef τ sig) = W (main_arg0 : DevRef τ sig) := by
  simp only [after_cons, after_nil]
  rfl
theorem C_arg1 : after opsC W (main_arg1 : DevRef τ sig) = W (main_arg1 : DevRef τ sig) := by
  simp only [after_cons, after_nil]
  rfl

end Third

/-! #### Fourth stretch: the third row assembled; each row given its unit axis -/

section Fourth
variable (W : Valuation τ sig (Elt F))

theorem D_v82 : after opsD W (main_v82 : DevRef τ sig) = lift (W (main_v39 : DevRef τ sig)) := by
  simp only [after_cons, after_nil]
  rfl
theorem D_v83 : after opsD W (main_v83 : DevRef τ sig) = lift (W (main_v60 : DevRef τ sig)) := by
  simp only [after_cons, after_nil]
  rfl
theorem D_v84 : after opsD W (main_v84 : DevRef τ sig)
    = lift (concatenate S32x65536x3 2 [⟨S32x65536x1, W (main_v78 : DevRef τ sig)⟩, ⟨S32x65536x1, W (main_v79 : DevRef τ sig)⟩, ⟨S32x65536x1, W (main_v80 : DevRef τ sig)⟩] concatenates_S32x65536x1_S32x65536x1_S32x65536x1_S32x65536x3_d2) := by
  simp only [after_cons, after_nil]
  rfl
/-- Not written by this stretch. -/
theorem D_v5 : after opsD W (main_v5 : DevRef τ sig) = W (main_v5 : DevRef τ sig) := by
  simp only [after_cons, after_nil]
  rfl
theorem D_cst : after opsD W (main_cst : DevRef τ sig) = W (main_cst : DevRef τ sig) := by
  simp only [after_cons, after_nil]
  rfl
theorem D_arg0 : after opsD W (main_arg0 : DevRef τ sig) = W (main_arg0 : DevRef τ sig) := by
  simp only [after_cons, after_nil]
  rfl
theorem D_arg1 : after opsD W (main_arg1 : DevRef τ sig) = W (main_arg1 : DevRef τ sig) := by
  simp only [after_cons, after_nil]
  rfl

end Fourth

/-! #### Last stretch: the matrix stacked from its rows, contracted with the atoms' table, transposed, plus the
centred translation broadcast over the atoms -/

section Last
variable (W : Valuation τ sig (Elt F))

theorem E_v90 : after opsE W (main_v90 : DevRef τ sig)
    = addf
        (transpose S32x65536x4x3 [1, 2, 0, 3]
          (Host.dotGeneral dot_S4x3_S32x65536x3x3_S4x32x65536x3_1_3_0_012_n_n none (W (main_cst : DevRef τ sig))
            (concatenate S32x65536x3x3 2 [⟨S32x65536x1x3, W (main_v82 : DevRef τ sig)⟩, ⟨S32x65536x1x3, W (main_v83 : DevRef τ sig)⟩, ⟨S32x65536x1x3, W (main_v84 : DevRef τ sig)⟩] concatenates_S32x65536x1x3_S32x65536x1x3_S32x65536x1x3_S32x65536x3x3_d2))
          transposes_S4x32x65536x3_S32x65536x4x3_1_2_0_3)
        (broadcastInDim S32x65536x4x3 ![0, 1, 2, 3] bcast_S32x65536x1x3_S32x65536x4x3_0_1_2_3 (lift (W (main_v5 : DevRef τ sig)))) := by
  simp only [after_cons, after_nil]
  rfl
/-- Not written by this stretch. -/
theorem E_arg0 : after opsE W (main_arg0 : DevRef τ sig) = W (main_arg0 : DevRef τ sig) := by
  simp only [after_cons, after_nil]
  rfl
theorem E_arg1 : after opsE W (main_arg1 : DevRef τ sig) = W (main_arg1 : DevRef τ sig) := by
  simp only [after_cons, after_nil]
  rfl

end Last

end Stretches

/-! ### The whole line

The fold over the concatenation is the stretches' folds one after the other (the library's `after_append`); each
stretch's lemma is then read at the valuation the stretches before it leave, innermost last, and what remains is the
reference's term with its stage functions unfolded. -/

/-- The fold of the operations at the result buffer is the reference's term of the two argument arrays. -/
theorem out_eq (V : Valuation τ sig (Elt F)) :
    after ops V (main_v90 : DevRef τ sig)
      = RefTerm.refOut (V (main_arg0 : DevRef τ sig)) (V (main_arg1 : DevRef τ sig)) := by
  rw [show (ops : List (HloOp τ sig (Elt F))) = opsA ++ (opsB ++ (opsC ++ (opsD ++ opsE))) from rfl,
    after_append, after_append, after_append, after_append]
  rw [E_v90, D_v82, D_v83, D_v84, D_v5, D_cst]
  rw [C_v39, C_v60, C_v78, C_v79, C_v80, C_v5, C_cst]
  rw [B_v39, B_v57, B_v58, B_v59, B_v12, B_v14, B_v16, B_v18, B_v5, B_cst]
  rw [A_v36, A_v37, A_v38, A_v12, A_v14, A_v16, A_v18, A_v5, A_cst]
  rfl

/-- No operation writes an argument. -/
theorem arg0_eq (V : Valuation τ sig (Elt F)) : after ops V (main_arg0 : DevRef τ sig) = V (main_arg0 : DevRef τ sig) := by
  rw [show (ops : List (HloOp τ sig (Elt F))) = opsA ++ (opsB ++ (opsC ++ (opsD ++ opsE))) from rfl,
    after_append, after_append, after_append, after_append, E_arg0, D_arg0, C_arg0, B_arg0, A_arg0]
theorem arg1_eq (V : Valuation τ sig (Elt F)) : after ops V (main_arg1 : DevRef τ sig) = V (main_arg1 : DevRef τ sig) := by
  rw [show (ops : List (HloOp τ sig (Elt F))) = opsA ++ (opsB ++ (opsC ++ (opsD ++ opsE))) from rfl,
    after_append, after_append, after_append, after_append, E_arg1, D_arg1, C_arg1, B_arg1, A_arg1]

/-! ### The run

The signature scopes no buffer and no semaphore; every operation touches TensorCore references only and determines
its results. Both facts are stated stretch by stretch and joined over the concatenation. -/

theorem scopedRefs_eq : (Finset.univ.filter fun b : Ref sig .tc => b.isScoped) = ∅ := by decide
theorem scopedSems_eq : (Finset.univ.filter fun sm : SemLoc sig => sm.isScoped .tc) = ∅ := by decide

/-- Each stretch's operations touch TensorCore references only. -/
theorem sub_A : (opsA : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., unary_bufs_sub .., reshape_bufs_sub .., unary_bufs_sub .., reshape_bufs_sub .., unary_bufs_sub ..,
    reshape_bufs_sub .., unary_bufs_sub .., reshape_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    unary_bufs_sub .., unary_bufs_sub .., unary_bufs_sub ..⟩
theorem sub_B : (opsB : List (HloOp τ sig (Elt F))).Forall fun op => op.bufs ⊆ tcRefs τ sig :=
  ⟨nary_bufs_sub .., binary_bufs_sub .., binary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., unary_bufs_sub .., unary_bufs_sub ..,
    unary_bufs_sub ..⟩
theorem sub_C : (opsC : List (HloOp τ sig (Elt F))).Forall fun op => op.bufs ⊆ tcRefs τ sig :=
  ⟨nary_bufs_sub .., binary_bufs_sub .., binary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., unary_bufs_sub .., unary_bufs_sub ..,
    unary_bufs_sub ..⟩
theorem sub_D : (opsD : List (HloOp τ sig (Elt F))).Forall fun op => op.bufs ⊆ tcRefs τ sig :=
  ⟨nary_bufs_sub .., unary_bufs_sub .., unary_bufs_sub .., unary_bufs_sub ..⟩
theorem sub_E : (opsE : List (HloOp τ sig (Elt F))).Forall fun op => op.bufs ⊆ tcRefs τ sig :=
  ⟨nary_bufs_sub .., binary_bufs_sub .., unary_bufs_sub .., unary_bufs_sub .., unary_bufs_sub .., binary_bufs_sub ..⟩

/-- The same of the whole line: the conjunction over a concatenation is the conjunction of its parts'. -/
theorem ops_sub : (ops : List (HloOp τ sig (Elt F))).Forall fun op => op.bufs ⊆ tcRefs τ sig :=
  List.forall_append.mpr ⟨sub_A, List.forall_append.mpr ⟨sub_B, List.forall_append.mpr ⟨sub_C,
    List.forall_append.mpr ⟨sub_D, sub_E⟩⟩⟩⟩

/-- No operation leaves a buffer at contents it does not determine: one conjunct per operation, each by
    computation, until the stretch's last. -/
local macro "each_determined" : tactic => `(tactic| (repeat (refine ⟨rfl, ?_⟩)) <;> exact rfl)

theorem det_A : (opsA : List (HloOp τ sig (Elt F))).Forall fun op => op.fresh = ∅ := by each_determined
theorem det_B : (opsB : List (HloOp τ sig (Elt F))).Forall fun op => op.fresh = ∅ := by each_determined
theorem det_C : (opsC : List (HloOp τ sig (Elt F))).Forall fun op => op.fresh = ∅ := by each_determined
theorem det_D : (opsD : List (HloOp τ sig (Elt F))).Forall fun op => op.fresh = ∅ := by each_determined
theorem det_E : (opsE : List (HloOp τ sig (Elt F))).Forall fun op => op.fresh = ∅ := by each_determined

theorem ops_det : ∀ op ∈ (ops : List (HloOp τ sig (Elt F))), op.fresh = ∅ :=
  List.forall_iff_forall_mem.mp (List.forall_append.mpr ⟨det_A, List.forall_append.mpr ⟨det_B,
    List.forall_append.mpr ⟨det_C, List.forall_append.mpr ⟨det_D, det_E⟩⟩⟩⟩)

/-- On every device, for any float values, from any memory with zero counters: every weakly fair execution of @main
    terminates with the result at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v90).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ (fun _ => ops_det))

end Cert.ReferenceIdeal.RefRun

end
-- ==== Proof.Ref.Value.lean ====
/-
  The reference's term IS the specification, index by index over the extended reals: at batch `b`, residue `l`, atom `a`
  and coordinate `i` the reference's result is `Spec.Gat x q b l a i`.

  Stage by stage, each read at an index given by its coordinates:
  * the centred translation: the sum over the residue axis from zero is the plain sum, and division by the word that
    denotes 65536 is multiplication by 1/65536 (`tc_at`);
  * the normalised quaternion: the sum of the four squares from zero, in the specification's association (`qnrm_at`);
  * the four components, the constants 2 and 1, the nine entries (`comp0_at` …, `two_at`, `one_at`, `r00_at` …);
  * the matrix assembled from columns and rows: entry (i, j) at (b, l) (`row_at0` …, `mat_at0` …, `rotm_at`);
  * the atoms' table: the same twelve words (`atoms_at`);
  * the contraction over the matrix's last axis: a sum over three coordinates (`dot_at`);
  * the whole: the three products commuted (commutativity of the product on the extended reals; the sum's association is
    already the specification's), plus the centred translation (`refOut_at`, `refOut_eq`).
-/
import proofs.«174519_j29231547417075_1_alg».proof.Proof.Ref.Term
import proofs.«174519_j29231547417075_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-- The reference's quotient and square root read at an index: the extended reals' division and root of the elements. -/
theorem hostDivf_at {s : Shape} {φ : FTy} (u v : FVec Ideal s φ) (i : s.Idx) : Host.divf u v i = Ideal.div (u i) (v i) := rfl
theorem hostSqrt_at {s : Shape} {φ : FTy} (u : FVec Ideal s φ) (i : s.Idx) : Host.sqrt u i = Ideal.sqrt (u i) := rfl

/-- The word 0x47800000 denotes the real 65536. -/
theorem w65536 : Ideal.ofBits .f32 0x47800000#32 = ((65536 : ℝ) : EReal) := by
  simp [Ideal.ofBits, Ideal.ieee, -EReal.coe_mul]; norm_num

/-- The translations' shape reduces along the residue axis to the per-batch shape. -/
theorem reduces_x : S32x65536x3.Reduces [1] S32x3 := by decide

/-- The centred translation at (b, l, i): the translation minus the mean of its coordinate over the batch's residues. -/
theorem tc_at (x : FVec Ideal S32x65536x3 .f32) (b : Fin 32) (l : Fin 65536) (i : Fin 3) :
    RefTerm.tc (F := Ideal) x (ix3 b l i) = x (ix3 b l i) - Cert.Spec.mean x b i := by
  unfold RefTerm.tc
  rw [subf_apply]
  refine congrArg (x (ix3 b l i) - ·) ?_
  rw [broadcastInDim_apply _ _ _ (ix3 b l i) (ix3 b (0 : Fin 1) i) (fun a => by
    match a with
    | ⟨0, _⟩ => rfl
    | ⟨1, _⟩ => rfl
    | ⟨2, _⟩ => rfl)]
  show Ideal.div _ _ = _
  rw [broadcastInDim_apply _ _ _ (ix3 b (0 : Fin 1) i) (ix2 b i) (fun a => by
    match a with
    | ⟨0, _⟩ => rfl
    | ⟨1, _⟩ => rfl)]
  rw [broadcastInDim_apply _ _ _ (ix3 b (0 : Fin 1) i) ix0 (fun a => a.elim0)]
  rw [constant_apply, w65536, Ideal.div_coe (by norm_num : (65536:ℝ) ≠ 0)]
  unfold Cert.Spec.mean
  refine congrArg (· * (((1 / 65536 : ℝ)) : EReal)) ?_
  show Ideal.hostReduceAdd reducesTo_S32x65536x3_S32x3_d1 x (Ideal.ofBits .f32 0x00000000#32) (ix2 b i) = _
  rw [Ideal.hostReduceAdd_single _ reduces_x, Ideal.ofBits_zero_f32, zero_add]
  refine Finset.sum_congr rfl fun k _ => congrArg x ?_
  funext a
  match a with
  | ⟨0, _⟩ => rfl
  | ⟨1, _⟩ => rfl
  | ⟨2, _⟩ => rfl

/-- The quaternions' shape reduces along the component axis to the per-residue shape. -/
theorem reduces_q : S32x65536x4.Reduces [2] S32x65536 := by decide

/-- The index the component sum inserts at (b, l): component k of residue (b, l). -/
theorem lift_q (b : Fin 32) (l : Fin 65536) (k : Fin 4) : reduces_q.lift (ix2 b l) k = ix3 b l k := by
  funext a
  match a with
  | ⟨0, _⟩ => rfl
  | ⟨1, _⟩ => rfl
  | ⟨2, _⟩ => rfl

/-- The normalised quaternion at (b, l, k): the component divided by the root of the four squares' sum plus the guard. -/
theorem qnrm_at (q : FVec Ideal S32x65536x4 .f32) (b : Fin 32) (l : Fin 65536) (k : Fin 4) :
    RefTerm.qnrm (F := Ideal) q (ix3 b l k) = Cert.Spec.qn q b l k := by
  unfold RefTerm.qnrm Cert.Spec.qn
  rw [hostDivf_at]
  refine congrArg (Ideal.div (q (ix3 b l k))) ?_
  rw [broadcastInDim_apply _ _ _ (ix3 b l k) (ix3 b l (0 : Fin 1)) (fun a => by
    match a with
    | ⟨0, _⟩ => rfl
    | ⟨1, _⟩ => rfl
    | ⟨2, _⟩ => rfl)]
  rw [addf_apply]
  rw [broadcastInDim_apply _ _ _ (ix3 b l (0 : Fin 1)) ix0 (fun a => a.elim0)]
  rw [constant_apply]
  unfold Cert.Spec.nrm Cert.Spec.eps
  refine congrArg (· + Ideal.ofBits .f32 0x358637BD#32) ?_
  rw [hostSqrt_at]
  refine congrArg Ideal.sqrt ?_
  rw [broadcastInDim_apply _ _ _ (ix3 b l (0 : Fin 1)) (ix2 b l) (fun a => by
    match a with
    | ⟨0, _⟩ => rfl
    | ⟨1, _⟩ => rfl)]
  show Ideal.hostReduceAdd reducesTo_S32x65536x4_S32x65536_d2 (mulf q q) (Ideal.ofBits .f32 0x00000000#32) (ix2 b l) = _
  rw [Ideal.hostReduceAdd_single _ reduces_q, Ideal.ofBits_zero_f32, zero_add]
  refine (Fin.sum_univ_four (fun k : Fin 4 => mulf q q (reduces_q.lift (ix2 b l) k))).trans ?_
  simp only [mulf_apply, lift_q]

/-- A slice of width one along the last axis from offset o, its unit axis dropped, read at (b, l): the array at (b, l, o). -/
theorem slice_drop_at (o : Nat) (k : Fin 4) (hk : k.val = o) (h : S32x65536x4.Slices ![0, 0, o] S32x65536x1)
    (v : FVec Ideal S32x65536x4 .f32) (b : Fin 32) (l : Fin 65536) :
    shapeCast S32x65536 (extractStridedSlice S32x65536x1 ![0, 0, o] v h) shapeCasts_S32x65536x1_S32x65536 (ix2 b l)
      = v (ix3 b l k) := by
  rw [shapeCast_apply _ _ (ix2 b l) (ix3 b l (0 : Fin 1)) (by
    rw [Shape.rowMajor_val_three, Shape.rowMajor_val_two]
    show (b.val * 65536 + l.val) * 1 + 0 = b.val * 65536 + l.val
    omega)]
  exact extractStridedSlice_apply _ _ _ _ (ix3 b l k) (fun a => by
    match a with
    | ⟨0, _⟩ => exact (Nat.zero_add _).symm
    | ⟨1, _⟩ => exact (Nat.zero_add _).symm
    | ⟨2, _⟩ => exact hk)

/-- The four components of a quaternion array at (b, l). -/
theorem comp0_at (v : FVec Ideal S32x65536x4 .f32) (b : Fin 32) (l : Fin 65536) : RefTerm.comp0 v (ix2 b l) = v (ix3 b l 0) :=
  slice_drop_at 0 0 rfl _ v b l
theorem comp1_at (v : FVec Ideal S32x65536x4 .f32) (b : Fin 32) (l : Fin 65536) : RefTerm.comp1 v (ix2 b l) = v (ix3 b l 1) :=
  slice_drop_at 1 1 rfl _ v b l
theorem comp2_at (v : FVec Ideal S32x65536x4 .f32) (b : Fin 32) (l : Fin 65536) : RefTerm.comp2 v (ix2 b l) = v (ix3 b l 2) :=
  slice_drop_at 2 2 rfl _ v b l
theorem comp3_at (v : FVec Ideal S32x65536x4 .f32) (b : Fin 32) (l : Fin 65536) : RefTerm.comp3 v (ix2 b l) = v (ix3 b l 3) :=
  slice_drop_at 3 3 rfl _ v b l

/-- The constants 2 and 1 over the residues read their words everywhere. -/
theorem two_at (j : S32x65536.Idx) : RefTerm.two (F := Ideal) j = Cert.Spec.two := by
  unfold RefTerm.two Cert.Spec.two
  rw [broadcastInDim_apply _ _ _ j ix0 (fun a => a.elim0), constant_apply]
theorem one_at (j : S32x65536.Idx) : RefTerm.one (F := Ideal) j = Cert.Spec.one := by
  unfold RefTerm.one Cert.Spec.one
  rw [broadcastInDim_apply _ _ _ j ix0 (fun a => a.elim0), constant_apply]

/-- The nine entries of the rotation matrix read at a residue: the specification's expressions of the four components there. -/
theorem r00_at (r i j k : FVec Ideal S32x65536 .f32) (p : S32x65536.Idx) :
    RefTerm.r00 r i j k p = Cert.Spec.one - Cert.Spec.two * (j p * j p + k p * k p) := by
  unfold RefTerm.r00; simp only [subf_apply, mulf_apply, addf_apply, one_at, two_at]
theorem r01_at (r i j k : FVec Ideal S32x65536 .f32) (p : S32x65536.Idx) :
    RefTerm.r01 r i j k p = Cert.Spec.two * (i p * j p - k p * r p) := by
  unfold RefTerm.r01; simp only [subf_apply, mulf_apply, addf_apply, one_at, two_at]
theorem r02_at (r i j k : FVec Ideal S32x65536 .f32) (p : S32x65536.Idx) :
    RefTerm.r02 r i j k p = Cert.Spec.two * (i p * k p + j p * r p) := by
  unfold RefTerm.r02; simp only [subf_apply, mulf_apply, addf_apply, one_at, two_at]
theorem r10_at (r i j k : FVec Ideal S32x65536 .f32) (p : S32x65536.Idx) :
    RefTerm.r10 r i j k p = Cert.Spec.two * (i p * j p + k p * r p) := by
  unfold RefTerm.r10; simp only [subf_apply, mulf_apply, addf_apply, one_at, two_at]
theorem r11_at (r i j k : FVec Ideal S32x65536 .f32) (p : S32x65536.Idx) :
    RefTerm.r11 r i j k p = Cert.Spec.one - Cert.Spec.two * (i p * i p + k p * k p) := by
  unfold RefTerm.r11; simp only [subf_apply, mulf_apply, addf_apply, one_at, two_at]
theorem r12_at (r i j k : FVec Ideal S32x65536 .f32) (p : S32x65536.Idx) :
    RefTerm.r12 r i j k p = Cert.Spec.two * (j p * k p - i p * r p) := by
  unfold RefTerm.r12; simp only [subf_apply, mulf_apply, addf_apply, one_at, two_at]
theorem r20_at (r i j k : FVec Ideal S32x65536 .f32) (p : S32x65536.Idx) :
    RefTerm.r20 r i j k p = Cert.Spec.two * (i p * k p - j p * r p) := by
  unfold RefTerm.r20; simp only [subf_apply, mulf_apply, addf_apply, one_at, two_at]
theorem r21_at (r i j k : FVec Ideal S32x65536 .f32) (p : S32x65536.Idx) :
    RefTerm.r21 r i j k p = Cert.Spec.two * (j p * k p + i p * r p) := by
  unfold RefTerm.r21; simp only [subf_apply, mulf_apply, addf_apply, one_at, two_at]
theorem r22_at (r i j k : FVec Ideal S32x65536 .f32) (p : S32x65536.Idx) :
    RefTerm.r22 r i j k p = Cert.Spec.one - Cert.Spec.two * (i p * i p + j p * j p) := by
  unfold RefTerm.r22; simp only [subf_apply, mulf_apply, addf_apply, one_at, two_at]

/-- An entry as a column of width one reads the entry at the residue. -/
theorem col_at (v : FVec Ideal S32x65536 .f32) (b : Fin 32) (l : Fin 65536) (u : Fin 1) :
    RefTerm.col v (ix3 b l u) = v (ix2 b l) := by
  unfold RefTerm.col
  exact broadcastInDim_apply _ _ _ (ix3 b l u) (ix2 b l) (fun a => by
    match a with
    | ⟨0, _⟩ => rfl
    | ⟨1, _⟩ => rfl)

/-- Three columns side by side: column j of the row at (b, l) is entry j at (b, l). -/
theorem row_at0 (c0 c1 c2 : FVec Ideal S32x65536 .f32) (b : Fin 32) (l : Fin 65536) :
    RefTerm.row c0 c1 c2 (ix3 b l 0) = c0 (ix2 b l) := by
  unfold RefTerm.row
  rw [concatenate_apply_piece 2 _ _ (ix3 b l (0 : Fin 3)) 0 (by show 0 < 3; omega) S32x65536x1 (RefTerm.col c0) rfl rfl 0 rfl
    (ix3 b l (0 : Fin 1)) (fun a ha => by
      match a with
      | ⟨0, _⟩ => rfl
      | ⟨1, _⟩ => rfl
      | ⟨2, _⟩ => exact absurd rfl ha) rfl]
  exact col_at c0 b l 0
theorem row_at1 (c0 c1 c2 : FVec Ideal S32x65536 .f32) (b : Fin 32) (l : Fin 65536) :
    RefTerm.row c0 c1 c2 (ix3 b l 1) = c1 (ix2 b l) := by
  unfold RefTerm.row
  rw [concatenate_apply_piece 2 _ _ (ix3 b l (1 : Fin 3)) 1 (by show 1 < 3; omega) S32x65536x1 (RefTerm.col c1) rfl rfl 1 rfl
    (ix3 b l (0 : Fin 1)) (fun a ha => by
      match a with
      | ⟨0, _⟩ => rfl
      | ⟨1, _⟩ => rfl
      | ⟨2, _⟩ => exact absurd rfl ha) rfl]
  exact col_at c1 b l 0
theorem row_at2 (c0 c1 c2 : FVec Ideal S32x65536 .f32) (b : Fin 32) (l : Fin 65536) :
    RefTerm.row c0 c1 c2 (ix3 b l 2) = c2 (ix2 b l) := by
  unfold RefTerm.row
  rw [concatenate_apply_piece 2 _ _ (ix3 b l (2 : Fin 3)) 2 (by show 2 < 3; omega) S32x65536x1 (RefTerm.col c2) rfl rfl 2 rfl
    (ix3 b l (0 : Fin 1)) (fun a ha => by
      match a with
      | ⟨0, _⟩ => rfl
      | ⟨1, _⟩ => rfl
      | ⟨2, _⟩ => exact absurd rfl ha) rfl]
  exact col_at c2 b l 0

/-- A row given a unit axis before its last reads the row. -/
theorem lift_at (v : FVec Ideal S32x65536x3 .f32) (b : Fin 32) (l : Fin 65536) (u : Fin 1) (j : Fin 3) :
    RefTerm.lift v (ix4 b l u j) = v (ix3 b l j) := by
  unfold RefTerm.lift
  exact broadcastInDim_apply _ _ _ (ix4 b l u j) (ix3 b l j) (fun a => by
    match a with
    | ⟨0, _⟩ => rfl
    | ⟨1, _⟩ => rfl
    | ⟨2, _⟩ => rfl)

/-- Three rows stacked: row i of the matrix at (b, l) is the i-th of the three rows there. -/
theorem mat_at0 (v0 v1 v2 : FVec Ideal S32x65536x3 .f32) (b : Fin 32) (l : Fin 65536) (j : Fin 3) :
    RefTerm.mat v0 v1 v2 (ix4 b l 0 j) = v0 (ix3 b l j) := by
  unfold RefTerm.mat
  rw [concatenate_apply_piece 2 _ _ (ix4 b l (0 : Fin 3) j) 0 (by show 0 < 3; omega) S32x65536x1x3 (RefTerm.lift v0) rfl rfl 0 rfl
    (ix4 b l (0 : Fin 1) j) (fun a ha => by
      match a with
      | ⟨0, _⟩ => rfl
      | ⟨1, _⟩ => rfl
      | ⟨2, _⟩ => exact absurd rfl ha
      | ⟨3, _⟩ => rfl) rfl]
  exact lift_at v0 b l 0 j
theorem mat_at1 (v0 v1 v2 : FVec Ideal S32x65536x3 .f32) (b : Fin 32) (l : Fin 65536) (j : Fin 3) :
    RefTerm.mat v0 v1 v2 (ix4 b l 1 j) = v1 (ix3 b l j) := by
  unfold RefTerm.mat
  rw [concatenate_apply_piece 2 _ _ (ix4 b l (1 : Fin 3) j) 1 (by show 1 < 3; omega) S32x65536x1x3 (RefTerm.lift v1) rfl rfl 1 rfl
    (ix4 b l (0 : Fin 1) j) (fun a ha => by
      match a with
      | ⟨0, _⟩ => rfl
      | ⟨1, _⟩ => rfl
      | ⟨2, _⟩ => exact absurd rfl ha
      | ⟨3, _⟩ => rfl) rfl]
  exact lift_at v1 b l 0 j
theorem mat_at2 (v0 v1 v2 : FVec Ideal S32x65536x3 .f32) (b : Fin 32) (l : Fin 65536) (j : Fin 3) :
    RefTerm.mat v0 v1 v2 (ix4 b l 2 j) = v2 (ix3 b l j) := by
  unfold RefTerm.mat
  rw [concatenate_apply_piece 2 _ _ (ix4 b l (2 : Fin 3) j) 2 (by show 2 < 3; omega) S32x65536x1x3 (RefTerm.lift v2) rfl rfl 2 rfl
    (ix4 b l (0 : Fin 1) j) (fun a ha => by
      match a with
      | ⟨0, _⟩ => rfl
      | ⟨1, _⟩ => rfl
      | ⟨2, _⟩ => exact absurd rfl ha
      | ⟨3, _⟩ => rfl) rfl]
  exact lift_at v2 b l 0 j

/-- Entry (i, j) of the assembled matrix at (b, l) is the specification's rotation entry of the normalised quaternion. -/
theorem rotm_00 (q : FVec Ideal S32x65536x4 .f32) (b : Fin 32) (l : Fin 65536) :
    RefTerm.rotm (F := Ideal) q (ix4 b l 0 0) = Cert.Spec.rot q b l 0 0 := by
  unfold RefTerm.rotm
  simp only [mat_at0, row_at0, r00_at, comp0_at, comp1_at, comp2_at, comp3_at, qnrm_at]
  rfl
theorem rotm_01 (q : FVec Ideal S32x65536x4 .f32) (b : Fin 32) (l : Fin 65536) :
    RefTerm.rotm (F := Ideal) q (ix4 b l 0 1) = Cert.Spec.rot q b l 0 1 := by
  unfold RefTerm.rotm
  simp only [mat_at0, row_at1, r01_at, comp0_at, comp1_at, comp2_at, comp3_at, qnrm_at]
  rfl
theorem rotm_02 (q : FVec Ideal S32x65536x4 .f32) (b : Fin 32) (l : Fin 65536) :
    RefTerm.rotm (F := Ideal) q (ix4 b l 0 2) = Cert.Spec.rot q b l 0 2 := by
  unfold RefTerm.rotm
  simp only [mat_at0, row_at2, r02_at, comp0_at, comp1_at, comp2_at, comp3_at, qnrm_at]
  rfl
theorem rotm_10 (q : FVec Ideal S32x65536x4 .f32) (b : Fin 32) (l : Fin 65536) :
    RefTerm.rotm (F := Ideal) q (ix4 b l 1 0) = Cert.Spec.rot q b l 1 0 := by
  unfold RefTerm.rotm
  simp only [mat_at1, row_at0, r10_at, comp0_at, comp1_at, comp2_at, comp3_at, qnrm_at]
  rfl
theorem rotm_11 (q : FVec Ideal S32x65536x4 .f32) (b : Fin 32) (l : Fin 65536) :
    RefTerm.rotm (F := Ideal) q (ix4 b l 1 1) = Cert.Spec.rot q b l 1 1 := by
  unfold RefTerm.rotm
  simp only [mat_at1, row_at1, r11_at, comp0_at, comp1_at, comp2_at, comp3_at, qnrm_at]
  rfl
theorem rotm_12 (q : FVec Ideal S32x65536x4 .f32) (b : Fin 32) (l : Fin 65536) :
    RefTerm.rotm (F := Ideal) q (ix4 b l 1 2) = Cert.Spec.rot q b l 1 2 := by
  unfold RefTerm.rotm
  simp only [mat_at1, row_at2, r12_at, comp0_at, comp1_at, comp2_at, comp3_at, qnrm_at]
  rfl
theorem rotm_20 (q : FVec Ideal S32x65536x4 .f32) (b : Fin 32) (l : Fin 65536) :
    RefTerm.rotm (F := Ideal) q (ix4 b l 2 0) = Cert.Spec.rot q b l 2 0 := by
  unfold RefTerm.rotm
  simp only [mat_at2, row_at0, r20_at, comp0_at, comp1_at, comp2_at, comp3_at, qnrm_at]
  rfl
theorem rotm_21 (q : FVec Ideal S32x65536x4 .f32) (b : Fin 32) (l : Fin 65536) :
    RefTerm.rotm (F := Ideal) q (ix4 b l 2 1) = Cert.Spec.rot q b l 2 1 := by
  unfold RefTerm.rotm
  simp only [mat_at2, row_at1, r21_at, comp0_at, comp1_at, comp2_at, comp3_at, qnrm_at]
  rfl
theorem rotm_22 (q : FVec Ideal S32x65536x4 .f32) (b : Fin 32) (l : Fin 65536) :
    RefTerm.rotm (F := Ideal) q (ix4 b l 2 2) = Cert.Spec.rot q b l 2 2 := by
  unfold RefTerm.rotm
  simp only [mat_at2, row_at2, r22_at, comp0_at, comp1_at, comp2_at, comp3_at, qnrm_at]
  rfl

theorem rotm_at (q : FVec Ideal S32x65536x4 .f32) (b : Fin 32) (l : Fin 65536) (i j : Fin 3) :
    RefTerm.rotm (F := Ideal) q (ix4 b l i j) = Cert.Spec.rot q b l i j := by
  fin_cases i <;> fin_cases j
  · exact rotm_00 q b l
  · exact rotm_01 q b l
  · exact rotm_02 q b l
  · exact rotm_10 q b l
  · exact rotm_11 q b l
  · exact rotm_12 q b l
  · exact rotm_20 q b l
  · exact rotm_21 q b l
  · exact rotm_22 q b l

/-- The atoms' table at (a, j): the specification's word for coordinate j of atom a (the same twelve words, row-major). -/
theorem atoms_at (a : Fin 4) (j : Fin 3) : RefTerm.atoms (F := Ideal) (ix2 a j) = Cert.Spec.atom a j := by
  unfold RefTerm.atoms Cert.Spec.atom
  fin_cases a <;> fin_cases j <;> rfl

/-- The contraction of the atoms' table with the matrix over the matrix's last axis, read at (a, b, l, i): the sum over
    the three coordinates j of atom a's coordinate j times entry (i, j) of the matrix at (b, l). -/
theorem dot_at (q : FVec Ideal S32x65536x4 .f32) (a : Fin 4) (b : Fin 32) (l : Fin 65536) (i : Fin 3) :
    Host.dotGeneral dot_S4x3_S32x65536x3x3_S4x32x65536x3_1_3_0_012_n_n none (RefTerm.atoms (F := Ideal)) (RefTerm.rotm q) (ix4 a b l i)
      = ∑ j : Fin 3, RefTerm.atoms (F := Ideal) (ix2 a j) * RefTerm.rotm q (ix4 b l i j) := by
  show FloatOps.dotGeneral _ none _ _ _ (ix4 a b l i) = _
  rw [Ideal.dotGeneral_apply,
    ← Equiv.sum_comp (contrEquiv1 dot_S4x3_S32x65536x3x3_S4x32x65536x3_1_3_0_012_n_n 3 rfl rfl).symm]
  refine Finset.sum_congr rfl fun j _ => ?_
  have cj := contrEquiv1_symm_val dot_S4x3_S32x65536x3x3_S4x32x65536x3_1_3_0_012_n_n 3 rfl rfl j
  have hl : dot_S4x3_S32x65536x3x3_S4x32x65536x3_1_3_0_012_n_n.lhsIdx (ix4 a b l i)
      ((contrEquiv1 dot_S4x3_S32x65536x3x3_S4x32x65536x3_1_3_0_012_n_n 3 rfl rfl).symm j) = ix2 a j := by
    funext ax; apply Fin.ext
    match ax with
    | ⟨0, _⟩ => rfl
    | ⟨1, _⟩ => exact cj
  have hr : dot_S4x3_S32x65536x3x3_S4x32x65536x3_1_3_0_012_n_n.rhsIdx (ix4 a b l i)
      ((contrEquiv1 dot_S4x3_S32x65536x3x3_S4x32x65536x3_1_3_0_012_n_n 3 rfl rfl).symm j) = ix4 b l i j := by
    funext ax; apply Fin.ext
    match ax with
    | ⟨0, _⟩ => rfl
    | ⟨1, _⟩ => rfl
    | ⟨2, _⟩ => rfl
    | ⟨3, _⟩ => exact cj
  rw [hl, hr]

/-- The reference's result at (b, l, a, i) is the specification's: the contraction read through the transposition, its
    three products commuted into the specification's order, plus the centred translation broadcast over the atoms. -/
theorem refOut_at (x : FVec Ideal S32x65536x3 .f32) (q : FVec Ideal S32x65536x4 .f32)
    (b : Fin 32) (l : Fin 65536) (a : Fin 4) (i : Fin 3) :
    RefTerm.refOut (F := Ideal) x q (ix4 b l a i) = Cert.Spec.Gat x q b l a i := by
  unfold RefTerm.refOut
  rw [addf_apply]
  rw [transpose_apply _ _ _ (ix4 b l a i) (ix4 a b l i) (fun c => by
    match c with
    | ⟨0, _⟩ => rfl
    | ⟨1, _⟩ => rfl
    | ⟨2, _⟩ => rfl
    | ⟨3, _⟩ => rfl)]
  rw [dot_at, Fin.sum_univ_three]
  rw [broadcastInDim_apply _ _ _ (ix4 b l a i) (ix4 b l (0 : Fin 1) i) (fun c => by
    match c with
    | ⟨0, _⟩ => rfl
    | ⟨1, _⟩ => rfl
    | ⟨2, _⟩ => rfl
    | ⟨3, _⟩ => rfl)]
  rw [lift_at, tc_at]
  simp only [atoms_at, rotm_at]
  unfold Cert.Spec.Gat
  rw [mul_comm (Cert.Spec.atom a 0), mul_comm (Cert.Spec.atom a 1), mul_comm (Cert.Spec.atom a 2)]

/-- The reference's term of the two argument arrays is the specification's whole-array function of them. -/
theorem refOut_eq (x : FVec Ideal S32x65536x3 .f32) (q : FVec Ideal S32x65536x4 .f32) :
    RefTerm.refOut (F := Ideal) x q = Cert.Spec.G x q := by
  funext o
  obtain ⟨b, l, a, i, rfl⟩ : ∃ b l a i, o = ix4 b l a i := ⟨o 0, o 1, o 2, o 3, eq_ix4 o⟩
  rw [Cert.Spec.G_ix4]
  exact refOut_at x q b l a i

end Cert.ReferenceIdeal.RefValue

end
-- ==== Proof.lean ====
/-
  The certificate's claim: the printed kernel and its idealization run to the end, fault nowhere and leave their argument
  arrays unchanged; the reference does the same; the idealization rewrote nothing; and over the extended reals the
  idealized kernel and the reference, run from memories that agree on the two arguments, end with equal results.

  Both programs compute, for every batch `b`, residue `l`, atom `a` and coordinate `i`, the atom's internal position
  rotated by the residue's unit quaternion plus the residue's translation centred on the batch's mean translation
  (`Cert.Spec.G`). The kernel takes the mean as a running sum over sixteen blocks of residues times 2⁻¹⁶ and the rotation
  as three products added in order; the reference divides one sum by 65536 and contracts the rotation matrix with the
  atoms' table. Over the extended reals a sum may be regrouped and reordered, a product commuted, and dividing by 65536
  is multiplying by 2⁻¹⁶, so the two agree at every index without any assumption on the inputs beyond the stated one.
-/
import proofs.«174519_j29231547417075_1_alg».proof.Defs
import proofs.«174519_j29231547417075_1_alg».proof.Proof.Gen.Kernel
import proofs.«174519_j29231547417075_1_alg».proof.Proof.Gen.KernelIdeal
import proofs.«174519_j29231547417075_1_alg».proof.Proof.Gen.ReferenceIdeal
import proofs.«174519_j29231547417075_1_alg».proof.Proof.Gen.Pre_finite_inputs
import proofs.«174519_j29231547417075_1_alg».proof.Proof.K.Run
import proofs.«174519_j29231547417075_1_alg».proof.Proof.KI.Run
import proofs.«174519_j29231547417075_1_alg».proof.Proof.KI.Val
import proofs.«174519_j29231547417075_1_alg».proof.Proof.Ref.Run
import proofs.«174519_j29231547417075_1_alg».proof.Proof.Ref.Value
import Idealize.ShloMosaic.Adequacy
import Idealize.ShloMosaic.Init

noncomputable section

namespace Cert.Proof

open Idealize.ShloMosaic Idealize.SL.Sem

/-- The printed kernel's frame, at the word-level instance. -/
theorem frame_p : Cert.frame_Kernel := fun m ρ _ => Cert.Kernel.KRun.frame (F := Bits) m ρ

/-- The idealized kernel's frame. -/
theorem frame_pi : Cert.frame_KernelIdeal := fun m ρ _ => Cert.KernelIdeal.KRun.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both runs end with the result at the specification's function of the (agreeing) arguments. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
